-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x1 : Shape := ⟨2, ![1250000, 1]⟩
abbrev S2x64x129 : Shape := ⟨3, ![2, 64, 129]⟩
abbrev S2x64 : Shape := ⟨2, ![2, 64]⟩
abbrev S2x192x64 : Shape := ⟨3, ![2, 192, 64]⟩
abbrev S2x192 : Shape := ⟨2, ![2, 192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x1 : S_.BroadcastsInDim S1250000x1 (![] : Fin 0 → Fin S1250000x1.rank)
  reducesTo_S1250000x1_S_d0_1 : S1250000x1.ReducesTo [0, 1] S_
  bcast_S_S2x64x129 : S_.BroadcastsInDim S2x64x129 (![] : Fin 0 → Fin S2x64x129.rank)
  reducesTo_S2x64x129_S_d0_1_2 : S2x64x129.ReducesTo [0, 1, 2] S_
  bcast_S_S2x64 : S_.BroadcastsInDim S2x64 (![] : Fin 0 → Fin S2x64.rank)
  reducesTo_S2x64_S_d0_1 : S2x64.ReducesTo [0, 1] S_
  bcast_S_S2x192x64 : S_.BroadcastsInDim S2x192x64 (![] : Fin 0 → Fin S2x192x64.rank)
  reducesTo_S2x192x64_S_d0_1_2 : S2x192x64.ReducesTo [0, 1, 2] S_
  bcast_S_S2x192 : S_.BroadcastsInDim S2x192 (![] : Fin 0 → Fin S2x192.rank)
  reducesTo_S2x192_S_d0_1 : S2x192.ReducesTo [0, 1] S_
  bcast_S_S2x1250000 : S_.BroadcastsInDim S2x1250000 (![] : Fin 0 → Fin S2x1250000.rank)
  reducesTo_S2x1250000_S_d0_1 : S2x1250000.ReducesTo [0, 1] S_

variable [Facts]

def fn_part2 {F : FTy → Type} [FloatOps F] (main_arg1 : IVec S2x1250000 32) (main_arg8 : FVec F S2x192 .f32) (main_v33 : IVec S_ 1) : IVec S_ 1 :=
  let main_v34 : FVec F S2x192 .f32 := Host.absf main_arg8
  let main_cst_12 : FVec F S_ .f32 := constant S_ .f32 0x7F800000#32
  let main_v35 : FVec F S2x192 .f32 := broadcastInDim S2x192 ![] bcast_S_S2x192 main_cst_12
  let main_v36 : IVec S2x192 1 := cmpf .olt main_v34 main_v35
  let main_c_13 : IVec S_ 1 := constantI S_ 1 1#1
  let main_v37 : IVec S_ 1 := (fun x v => Host.reduce IntOp.andi x v reducesTo_S2x192_S_d0_1 h_S_) main_v36 main_c_13
  let main_v38 : IVec S_ 1 := andi main_v33 main_v37
  let main_c_14 : IVec S_ 32 := constantI S_ 32 0#32
  let main_v39 : IVec S2x1250000 32 := broadcastInDim S2x1250000 ![] bcast_S_S2x1250000 main_c_14
  let main_v40 : IVec S2x1250000 1 := cmpi .sge main_arg1 main_v39
  let main_c_15 : IVec S_ 32 := constantI S_ 32 100000#32
  let main_v41 : IVec S2x1250000 32 := broadcastInDim S2x1250000 ![] bcast_S_S2x1250000 main_c_15
  let main_v42 : IVec S2x1250000 1 := cmpi .slt main_arg1 main_v41
  let main_v43 : IVec S2x1250000 1 := andi main_v40 main_v42
  let main_c_16 : IVec S_ 1 := constantI S_ 1 1#1
  let main_v44 : IVec S_ 1 := (fun x v => Host.reduce IntOp.andi x v reducesTo_S2x1250000_S_d0_1 h_S_) main_v43 main_c_16
  let main_v45 : IVec S_ 1 := andi main_v38 main_v44
  main_v45

def fn_part1 {F : FTy → Type} [FloatOps F] (main_arg1 : IVec S2x1250000 32) (main_arg5 : FVec F S2x192x64 .f32) (main_arg6 : FVec F S2x192 .f32) (main_arg7 : FVec F S2x192x64 .f32) (main_arg8 : FVec F S2x192 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x192x64 .f32 := Host.absf main_arg5
  let main_cst_6 : FVec F S_ .f32 := constant S_ .f32 0x7F800000#32
  let main_v20 : FVec F S2x192x64 .f32 := broadcastInDim S2x192x64 ![] bcast_S_S2x192x64 main_cst_6
  let main_v21 : IVec S2x192x64 1 := cmpf .olt main_v19 main_v20
  let main_c_7 : IVec S_ 1 := constantI S_ 1 1#1
  let main_v22 : IVec S_ 1 := (fun x v => Host.reduce IntOp.andi x v reducesTo_S2x192x64_S_d0_1_2 h_S_) main_v21 main_c_7
  let main_v23 : IVec S_ 1 := andi main_v18 main_v22
  let main_v24 : FVec F S2x192 .f32 := Host.absf main_arg6
  let main_cst_8 : FVec F S_ .f32 := constant S_ .f32 0x7F800000#32
  let main_v25 : FVec F S2x192 .f32 := broadcastInDim S2x192 ![] bcast_S_S2x192 main_cst_8
  let main_v26 : IVec S2x192 1 := cmpf .olt main_v24 main_v25
  let main_c_9 : IVec S_ 1 := constantI S_ 1 1#1
  let main_v27 : IVec S_ 1 := (fun x v => Host.reduce IntOp.andi x v reducesTo_S2x192_S_d0_1 h_S_) main_v26 main_c_9
  let main_v28 : IVec S_ 1 := andi main_v23 main_v27
  let main_v29 : FVec F S2x192x64 .f32 := Host.absf main_arg7
  let main_cst_10 : FVec F S_ .f32 := constant S_ .f32 0x7F800000#32
  let main_v30 : FVec F S2x192x64 .f32 := broadcastInDim S2x192x64 ![] bcast_S_S2x192x64 main_cst_10
  let main_v31 : IVec S2x192x64 1 := cmpf .olt main_v29 main_v30
  let main_c_11 : IVec S_ 1 := constantI S_ 1 1#1
  let main_v32 : IVec S_ 1 := (fun x v => Host.reduce IntOp.andi x v reducesTo_S2x192x64_S_d0_1_2 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S2x1250000 32) (main_arg2 : FVec F S1250000x1 .f32) (main_arg3 : FVec F S2x64x129 .f32) (main_arg4 : FVec F S2x64 .f32) (main_arg5 : FVec F S2x192x64 .f32) (main_arg6 : FVec F S2x192 .f32) (main_arg7 : FVec F S2x192x64 .f32) (main_arg8 : FVec F S2x192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x1 .f32 := Host.absf main_arg2
  let main_cst_0 : FVec F S_ .f32 := constant S_ .f32 0x7F800000#32
  let main_v5 : FVec F S1250000x1 .f32 := broadcastInDim S1250000x1 ![] bcast_S_S1250000x1 main_cst_0
  let main_v6 : IVec S1250000x1 1 := cmpf .olt main_v4 main_v5
  let main_c_1 : IVec S_ 1 := constantI S_ 1 1#1
  let main_v7 : IVec S_ 1 := (fun x v => Host.reduce IntOp.andi x v reducesTo_S1250000x1_S_d0_1 h_S_) main_v6 main_c_1
  let main_v8 : IVec S_ 1 := andi main_v3 main_v7
  let main_v9 : FVec F S2x64x129 .f32 := Host.absf main_arg3
  let main_cst_2 : FVec F S_ .f32 := constant S_ .f32 0x7F800000#32
  let main_v10 : FVec F S2x64x129 .f32 := broadcastInDim S2x64x129 ![] bcast_S_S2x64x129 main_cst_2
  let main_v11 : IVec S2x64x129 1 := cmpf .olt main_v9 main_v10
  let main_c_3 : IVec S_ 1 := constantI S_ 1 1#1
  let main_v12 : IVec S_ 1 := (fun x v => Host.reduce IntOp.andi x v reducesTo_S2x64x129_S_d0_1_2 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1250000 : Shape := ⟨2, ![2, 1250000]⟩
abbrev S1250000x1 : Shape := ⟨2, ![1250000, 1]⟩
abbrev S2x64x129 : Shape := ⟨3, ![2, 64, 129]⟩
abbrev S2x64 : Shape := ⟨2, ![2, 64]⟩
abbrev S2x192x64 : Shape := ⟨3, ![2, 192, 64]⟩
abbrev S2x192 : Shape := ⟨2, ![2, 192]⟩
abbrev S1x1250000 : Shape := ⟨2, ![1, 1250000]⟩
abbrev S1250000 : Shape := ⟨1, ![1250000]⟩
abbrev S_ : Shape := ⟨0, ![]⟩
abbrev S1 : Shape := ⟨1, ![1]⟩
abbrev S1x1 : Shape := ⟨2, ![1, 1]⟩
abbrev S1250000x64 : Shape := ⟨2, ![1250000, 64]⟩
abbrev S1x64x129 : Shape := ⟨3, ![1, 64, 129]⟩
abbrev S64x129 : Shape := ⟨2, ![64, 129]⟩
abbrev S64x64 : Shape := ⟨2, ![64, 64]⟩
abbrev S64x1 : Shape := ⟨2, ![64, 1]⟩
abbrev S1x64 : Shape := ⟨2, ![1, 64]⟩
abbrev S64 : Shape := ⟨1, ![64]⟩
abbrev S25000x64 : Shape := ⟨2, ![25000, 64]⟩
abbrev S25000x1 : Shape := ⟨2, ![25000, 1]⟩
abbrev S1x192x64 : Shape := ⟨3, ![1, 192, 64]⟩
abbrev S192x64 : Shape := ⟨2, ![192, 64]⟩
abbrev S64x192 : Shape := ⟨2, ![64, 192]⟩
abbrev S1x192 : Shape := ⟨2, ![1, 192]⟩
abbrev S192 : Shape := ⟨1, ![192]⟩
abbrev S5000x64 : Shape := ⟨2, ![5000, 64]⟩
abbrev S5000x192 : Shape := ⟨2, ![5000, 192]⟩

abbrev nBuf : Space → Nat
  | .hbm => 163
  | .vmem => 44
  | .smem => 0
  | _ => 0

abbrev hbmTy0_0 (i : Nat) : BufTy := match i % 128 with
  | 0 => ⟨S100000x64, .f32⟩
  | 1 => ⟨S2x1250000, .i32⟩
  | 2 => ⟨S1250000x1, .f32⟩
  | 3 => ⟨S2x64x129, .f32⟩
  | 4 => ⟨S2x64, .f32⟩
  | 5 => ⟨S2x192x64, .f32⟩
  | 6 => ⟨S2x192, .f32⟩
  | 7 => ⟨S2x192x64, .f32⟩
  | 8 => ⟨S2x192, .f32⟩
  | 9 => ⟨S1x1250000, .i32⟩
  | 10 => ⟨S1250000, .i32⟩
  | 11 => ⟨S1x1250000, .i32⟩
  | 12 => ⟨S1250000, .i32⟩
  | 13 => ⟨S_, .i32⟩
  | 14 => ⟨S1250000, .i32⟩
  | 15 => ⟨S1250000, .i1⟩
  | 16 => ⟨S_, .i32⟩
  | 17 => ⟨S1250000, .i32⟩
  | 18 => ⟨S1250000, .i32⟩
  | 19 => ⟨S1250000, .i32⟩
  | 20 => ⟨S1250000x1, .i32⟩
  | 21 => ⟨S1, .i32⟩
  | 22 => ⟨S_, .i32⟩
  | 23 => ⟨S1250000x1, .i32⟩
  | 24 => ⟨S1250000x1, .i1⟩
  | 25 => ⟨S1x1, .i32⟩
  | 26 => ⟨S1250000x1, .i32⟩
  | 27 => ⟨S1250000x1, .i1⟩
  | 28 => ⟨S1250000x1, .i1⟩
  | 29 => ⟨S_, .i1⟩
  | 30 => ⟨S1250000, .i1⟩
  | 31 => ⟨S1250000x64, .f32⟩
  | 32 => ⟨S1250000x64, .i1⟩
  | 33 => ⟨S_, .f32⟩
  | 34 => ⟨S1250000x64, .f32⟩
  | 35 => ⟨S1250000x64, .f32⟩
  | 36 => ⟨S_, .i32⟩
  | 37 => ⟨S1250000, .i32⟩
  | 38 => ⟨S1250000, .i1⟩
  | 39 => ⟨S_, .i32⟩
  | 40 => ⟨S1250000, .i32⟩
  | 41 => ⟨S1250000, .i32⟩
  | 42 => ⟨S1250000, .i32⟩
  | 43 => ⟨S1250000x1, .i32⟩
  | 44 => ⟨S1, .i32⟩
  | 45 => ⟨S_, .i32⟩
  | 46 => ⟨S1250000x1, .i32⟩
  | 47 => ⟨S1250000x1, .i1⟩
  | 48 => ⟨S1x1, .i32⟩
  | 49 => ⟨S1250000x1, .i32⟩
  | 50 => ⟨S1250000x1, .i1⟩
  | 51 => ⟨S1250000x1, .i1⟩
  | 52 => ⟨S_, .i1⟩
  | 53 => ⟨S1250000, .i1⟩
  | 54 => ⟨S1250000x64, .f32⟩
  | 55 => ⟨S1250000x64, .i1⟩
  | 56 => ⟨S_, .f32⟩
  | 57 => ⟨S1250000x64, .f32⟩
  | 58 => ⟨S1250000x64, .f32⟩
  | 59 => ⟨S1x64x129, .f32⟩
  | 60 => ⟨S64x129, .f32⟩
  | 61 => ⟨S64x64, .f32⟩
  | 62 => ⟨S64x64, .f32⟩
  | 63 => ⟨S64x64, .f32⟩
  | 64 => ⟨S64x64, .f32⟩
  | 65 => ⟨S64x1, .f32⟩
  | 66 => ⟨S1x64, .f32⟩
  | 67 => ⟨S1x64, .f32⟩
  | 68 => ⟨S64, .f32⟩
  | 69 => ⟨S1x64, .f32⟩
  | 70 => ⟨S1250000x64, .f32⟩
  | 71 => ⟨S_, .f32⟩
  | 72 => ⟨S100000x64, .f32⟩
  | 73 => ⟨S1250000x1, .i32⟩
  | 74 => ⟨S100000x64, .f32⟩
  | 75 => ⟨S1x192x64, .f32⟩
  | 76 => ⟨S192x64, .f32⟩
  | 77 => ⟨S64x192, .f32⟩
  | 78 => ⟨S1x192x64, .f32⟩
  | 79 => ⟨S192x64, .f32⟩
  | 80 => ⟨S64x192, .f32⟩
  | 81 => ⟨S1x192, .f32⟩
  | 82 => ⟨S192, .f32⟩
  | 83 => ⟨S1x192, .f32⟩
  | 84 => ⟨S1x192, .f32⟩
  | 85 => ⟨S192, .f32⟩
  | 86 => ⟨S1x192, .f32⟩
  | 87 => ⟨S100000x64, .f32⟩
  | 88 => ⟨S_, .i32⟩
  | 89 => ⟨S1250000, .i32⟩
  | 90 => ⟨S1250000, .i1⟩
  | 91 => ⟨S_, .i32⟩
  | 92 => ⟨S1250000, .i32⟩
  | 93 => ⟨S1250000, .i32⟩
  | 94 => ⟨S1250000, .i32⟩
  | 95 => ⟨S1250000x1, .i32⟩
  | 96 => ⟨S1, .i32⟩
  | 97 => ⟨S_, .i32⟩
  | 98 => ⟨S1250000x1, .i32⟩
  | 99 => ⟨S1250000x1, .i1⟩
  | 100 => ⟨S1x1, .i32⟩
  | 101 => ⟨S1250000x1, .i32⟩
  | 102 => ⟨S1250000x1, .i1⟩
  | 103 => ⟨S1250000x1, .i1⟩
  | 104 => ⟨S_, .i1⟩
  | 105 => ⟨S1250000, .i1⟩
  | 106 => ⟨S1250000x64, .f32⟩
  | 107 => ⟨S1250000x64, .i1⟩
  | 108 => ⟨S_, .f32⟩
  | 109 => ⟨S1250000x64, .f32⟩
  | 110 => ⟨S1250000x64, .f32⟩
  | 111 => ⟨S_, .i32⟩
  | 112 => ⟨S1250000, .i32⟩
  | 113 => ⟨S1250000, .i1⟩
  | 114 => ⟨S_, .i32⟩
  | 115 => ⟨S1250000, .i32⟩
  | 116 => ⟨S1250000, .i32⟩
  | 117 => ⟨S1250000, .i32⟩
  | 118 => ⟨S1250000x1, .i32⟩
  | 119 => ⟨S1, .i32⟩
  | 120 => ⟨S_, .i32⟩
  | 121 => ⟨S1250000x1, .i32⟩
  | 122 => ⟨S1250000x1, .i1⟩
  | 123 => ⟨S1x1, .i32⟩
  | 124 => ⟨S1250000x1, .i32⟩
  | 125 => ⟨S1250000x1, .i1⟩
  | 126 => ⟨S1250000x1, .i1⟩
  | 127 => ⟨S_, .i1⟩
  | _ => ⟨S100000x64, .f32⟩

abbrev hbmTy0_1 (i : Nat) : BufTy := match i % 128 with
  | 0 => ⟨S1250000, .i1⟩
  | 1 => ⟨S1250000x64, .f32⟩
  | 2 => ⟨S1250000x64, .i1⟩
  | 3 => ⟨S_, .f32⟩
  | 4 => ⟨S1250000x64, .f32⟩
  | 5 => ⟨S1250000x64, .f32⟩
  | 6 => ⟨S1x64x129, .f32⟩
  | 7 => ⟨S64x129, .f32⟩
  | 8 => ⟨S64x64, .f32⟩
  | 9 => ⟨S64x64, .f32⟩
  | 10 => ⟨S64x64, .f32⟩
  | 11 => ⟨S64x64, .f32⟩
  | 12 => ⟨S64x1, .f32⟩
  | 13 => ⟨S1x64, .f32⟩
  | 14 => ⟨S1x64, .f32⟩
  | 15 => ⟨S64, .f32⟩
  | 16 => ⟨S1x64, .f32⟩
  | 17 => ⟨S1250000x64, .f32⟩
  | 18 => ⟨S_, .f32⟩
  | 19 => ⟨S100000x64, .f32⟩
  | 20 => ⟨S1250000x1, .i32⟩
  | 21 => ⟨S100000x64, .f32⟩
  | 22 => ⟨S1x192x64, .f32⟩
  | 23 => ⟨S192x64, .f32⟩
  | 24 => ⟨S64x192, .f32⟩
  | 25 => ⟨S1x192x64, .f32⟩
  | 26 => ⟨S192x64, .f32⟩
  | 27 => ⟨S64x192, .f32⟩
  | 28 => ⟨S1x192, .f32⟩
  | 29 => ⟨S192, .f32⟩
  | 30 => ⟨S1x192, .f32⟩
  | 31 => ⟨S1x192, .f32⟩
  | 32 => ⟨S192, .f32⟩
  | 33 => ⟨S1x192, .f32⟩
  | 34 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S25000x64, .f32⟩
  | .local _ .vmem, ⟨1, _⟩ => ⟨S25000x64, .f32⟩
  | .local _ .vmem, ⟨2, _⟩ => ⟨S25000x64, .f32⟩
  | .local _ .vmem, ⟨3, _⟩ => ⟨S25000x64, .f32⟩
  | .local _ .vmem, ⟨4, _⟩ => ⟨S25000x1, .f32⟩
  | .local _ .vmem, ⟨5, _⟩ => ⟨S25000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S25000x64, .f32⟩
  | .local _ .vmem, ⟨11, _⟩ => ⟨S25000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x192, .f32⟩
  | .local _ .vmem, ⟨17, _⟩ => ⟨S1x192, .f32⟩
  | .local _ .vmem, ⟨18, _⟩ => ⟨S64x192, .f32⟩
  | .local _ .vmem, ⟨19, _⟩ => ⟨S1x192, .f32⟩
  | .local _ .vmem, ⟨20, _⟩ => ⟨S5000x64, .f32⟩
  | .local _ .vmem, ⟨21, _⟩ => ⟨S5000x64, .f32⟩
  | .local _ .vmem, ⟨22, _⟩ => ⟨S25000x64, .f32⟩
  | .local _ .vmem, ⟨23, _⟩ => ⟨S25000x64, .f32⟩
  | .local _ .vmem, ⟨24, _⟩ => ⟨S25000x64, .f32⟩
  | .local _ .vmem, ⟨25, _⟩ => ⟨S25000x64, .f32⟩
  | .local _ .vmem, ⟨26, _⟩ => ⟨S25000x1, .f32⟩
  | .local _ .vmem, ⟨27, _⟩ => ⟨S25000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S1x64, .f32⟩
  | .local _ .vmem, ⟨32, _⟩ => ⟨S25000x64, .f32⟩
  | .local _ .vmem, ⟨33, _⟩ => ⟨S25000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x192, .f32⟩
  | .local _ .vmem, ⟨39, _⟩ => ⟨S1x192, .f32⟩
  | .local _ .vmem, ⟨40, _⟩ => ⟨S64x192, .f32⟩
  | .local _ .vmem, ⟨41, _⟩ => ⟨S1x192, .f32⟩
  | .local _ .vmem, ⟨42, _⟩ => ⟨S5000x64, .f32⟩
  | .local _ .vmem, ⟨43, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_cst : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v34 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_cst_0 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S25000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S25000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S25000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S25000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S25000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  slices_S2x64x129_S1x64x129_0_0_0 : S2x64x129.Slices ![0, 0, 0] S1x64x129
  shapeCasts_S1x64x129_S64x129 : S1x64x129.ShapeCasts S64x129
  slices_S64x129_S64x64_0_0 : S64x129.Slices ![0, 0] S64x64
  transposes_S64x64_S64x64_1_0 : S64x64.Transposes [1, 0] S64x64
  slices_S64x129_S64x64_0_64 : S64x129.Slices ![0, 64] S64x64
  slices_S64x129_S64x1_0_128 : S64x129.Slices ![0, 128] S64x1
  transposes_S64x1_S1x64_1_0 : S64x1.Transposes [1, 0] S1x64
  slices_S2x64_S1x64_0_0 : S2x64.Slices ![0, 0] S1x64
  shapeCasts_S1x64_S64 : S1x64.ShapeCasts S64
  shapeCasts_S64_S1x64 : S64.ShapeCasts S1x64
  inb_S25000x64_S25000x64_0_0 : ∀ a, (![0, 0] : Fin 2 → Nat) a + S25000x64.size a ≤ S25000x64.size a
  h_S25000x64 : 0 < S25000x64.numel
  shapeCasts_S25000x64_S25000x64 : S25000x64.ShapeCasts S25000x64
  bitsLt_bf16_f32 : FTy.bits .bf16 < FTy.bits .f32
  inb_S25000x1_S25000x1_0_0 : ∀ a, (![0, 0] : Fin 2 → Nat) a + S25000x1.size a ≤ S25000x1.size a
  h_S25000x1 : 0 < S25000x1.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S25000x64 : S1x64.Broadcasts S25000x64
  bcast_S_S100000x64 : S_.BroadcastsInDim S100000x64 (![] : Fin 0 → Fin S100000x64.rank)
  slices_S2x192x64_S1x192x64_0_0_0 : S2x192x64.Slices ![0, 0, 0] S1x192x64
  shapeCasts_S1x192x64_S192x64 : S1x192x64.ShapeCasts S192x64
  transposes_S192x64_S64x192_1_0 : S192x64.Transposes [1, 0] S64x192
  slices_S2x192_S1x192_0_0 : S2x192.Slices ![0, 0] S1x192
  shapeCasts_S1x192_S192 : S1x192.ShapeCasts S192
  shapeCasts_S192_S1x192 : S192.ShapeCasts S1x192
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  slices_S2x64x129_S1x64x129_1_0_0 : S2x64x129.Slices ![1, 0, 0] S1x64x129
  slices_S2x64_S1x64_1_0 : S2x64.Slices ![1, 0] S1x64
  slices_S2x192x64_S1x192x64_1_0_0 : S2x192x64.Slices ![1, 0, 0] S1x192x64
  slices_S2x192_S1x192_1_0 : S2x192.Slices ![1, 0] S1x192
  gather_S100000x64_S1250000x1_S1250000x64_1_0_n_n_0_1_164_wf : GatherDims.WF S100000x64 S1250000x1 S1250000x64 [1] [0] [] [0] [] 1 ![1, 64]
  dot_S25000x64_S64x64_S25000x64_1_0_0_1_n_n_wf : DotDims.WF S25000x64 S64x64 S25000x64 [1] [0] [0] [1] [] []
  dot_S25000x1_S1x64_S25000x64_1_0_0_1_n_n_wf : DotDims.WF S25000x1 S1x64 S25000x64 [1] [0] [0] [1] [] []
  scatter_S100000x64_S1250000x1_S1250000x64_1_0_0_1_wf : ScatterDims.WF S100000x64 S1250000x1 S1250000x64 [1] [0] [0] 1
  dot_S5000x64_S64x192_S5000x192_1_0_0_1_n_n_wf : DotDims.WF S5000x64 S64x192 S5000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S1250000x64.size a
  hwx0_0 : ∀ i : grid0.Coords, EltTy.bits .f32 = 32 ∨ (Rect.block (s := S1250000x64) S25000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x64.size a ≤ S1250000x64.size a
  hwx0_1 : ∀ i : grid0.Coords, EltTy.bits .f32 = 32 ∨ (Rect.block (s := S1250000x64) S25000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x1.size a ≤ S1250000x1.size a
  hwx0_2 : ∀ i : grid0.Coords, EltTy.bits .f32 = 32 ∨ (Rect.block (s := S1250000x1) S25000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S25000x64.size a ≤ S1250000x64.size a
  hwx0_7 : ∀ i : grid0.Coords, EltTy.bits .f32 = 32 ∨ (Rect.block (s := S1250000x64) S25000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .f32 = 32 ∨ (Rect.block (s := S64x192) S64x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x64.size a ≤ S1250000x64.size a
  hwx2_0 : ∀ i : grid2.Coords, EltTy.bits .f32 = 32 ∨ (Rect.block (s := S1250000x64) S25000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S25000x64.size a ≤ S1250000x64.size a
  hwx2_1 : ∀ i : grid2.Coords, EltTy.bits .f32 = 32 ∨ (Rect.block (s := S1250000x64) S25000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x1.size a ≤ S1250000x1.size a
  hwx2_2 : ∀ i : grid2.Coords, EltTy.bits .f32 = 32 ∨ (Rect.block (s := S1250000x1) S25000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S25000x64.size a ≤ S1250000x64.size a
  hwx2_7 : ∀ i : grid2.Coords, EltTy.bits .f32 = 32 ∨ (Rect.block (s := S1250000x64) S25000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x192.size a ≤ S1x192.size a
  hwx3_3 : ∀ i : grid3.Coords, EltTy.bits .f32 = 32 ∨ (Rect.block (s := S1x192) S1x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x192.size a ≤ S64x192.size a
  hwx3_4 : ∀ i : grid3.Coords, EltTy.bits .f32 = 32 ∨ (Rect.block (s := S64x192) S64x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def dot_S25000x1_S1x64_S25000x64_1_0_0_1_n_n : DotDims S25000x1 S1x64 S25000x64 where
  lhsContracting := [1]
  rhsContracting := [0]
  lhsNonContracting := [0]
  rhsNonContracting := [1]
  lhsBatch := []
  rhsBatch := []
  wf := dot_S25000x1_S1x64_S25000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf

abbrev win0_0 : Pipeline.Window sig grid0 :=
  Pipeline.Window.ofSpec (Memref.whole main_v5) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S25000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S25000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S25000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S25000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S25000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S25000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S25000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S64x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x1 : Shape := ⟨2, ![1250000, 1]⟩
abbrev S2x64x129 : Shape := ⟨3, ![2, 64, 129]⟩
abbrev S2x64 : Shape := ⟨2, ![2, 64]⟩
abbrev S2x192x64 : Shape := ⟨3, ![2, 192, 64]⟩
abbrev S2x192 : Shape := ⟨2, ![2, 192]⟩
abbrev S1x1250000 : Shape := ⟨2, ![1, 1250000]⟩
abbrev S1250000 : Shape := ⟨1, ![1250000]⟩
abbrev S_ : Shape := ⟨0, ![]⟩
abbrev S1250000x64 : Shape := ⟨2, ![1250000, 64]⟩
abbrev S1250000x129 : Shape := ⟨2, ![1250000, 129]⟩
abbrev S1x64x129 : Shape := ⟨3, ![1, 64, 129]⟩
abbrev S64x129 : Shape := ⟨2, ![64, 129]⟩
abbrev S129x64 : Shape := ⟨2, ![129, 64]⟩
abbrev S1x64 : Shape := ⟨2, ![1, 64]⟩
abbrev S64 : Shape := ⟨1, ![64]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S64x192 : Shape := ⟨2, ![64, 192]⟩
abbrev S100000x192 : Shape := ⟨2, ![100000, 192]⟩

abbrev nBuf : Space → Nat
  | .hbm => 179
  | .vmem => 0
  | .smem => 0
  | _ => 0

abbrev hbmTy0_0 (i : Nat) : BufTy := match i % 128 with
  | 0 => ⟨S100000x64, .f32⟩
  | 1 => ⟨S2x1250000, .i32⟩
  | 2 => ⟨S1250000x1, .f32⟩
  | 3 => ⟨S2x64x129, .f32⟩
  | 4 => ⟨S2x64, .f32⟩
  | 5 => ⟨S2x192x64, .f32⟩
  | 6 => ⟨S2x192, .f32⟩
  | 7 => ⟨S2x192x64, .f32⟩
  | 8 => ⟨S2x192, .f32⟩
  | 9 => ⟨S1x1250000, .i32⟩
  | 10 => ⟨S1250000, .i32⟩
  | 11 => ⟨S1x1250000, .i32⟩
  | 12 => ⟨S1250000, .i32⟩
  | 13 => ⟨S_, .i32⟩
  | 14 => ⟨S1250000, .i32⟩
  | 15 => ⟨S1250000, .i1⟩
  | 16 => ⟨S_, .i32⟩
  | 17 => ⟨S1250000, .i32⟩
  | 18 => ⟨S1250000, .i32⟩
  | 19 => ⟨S1250000, .i32⟩
  | 20 => ⟨S1250000x1, .i32⟩
  | 21 => ⟨S1250000x64, .f32⟩
  | 22 => ⟨S_, .i32⟩
  | 23 => ⟨S1250000, .i32⟩
  | 24 => ⟨S1250000, .i1⟩
  | 25 => ⟨S_, .i32⟩
  | 26 => ⟨S1250000, .i32⟩
  | 27 => ⟨S1250000, .i32⟩
  | 28 => ⟨S1250000, .i32⟩
  | 29 => ⟨S1250000x1, .i32⟩
  | 30 => ⟨S1250000x64, .f32⟩
  | 31 => ⟨S1250000x129, .f32⟩
  | 32 => ⟨S1x64x129, .f32⟩
  | 33 => ⟨S64x129, .f32⟩
  | 34 => ⟨S129x64, .f32⟩
  | 35 => ⟨S1250000x64, .f32⟩
  | 36 => ⟨S1x64, .f32⟩
  | 37 => ⟨S64, .f32⟩
  | 38 => ⟨S1x64, .f32⟩
  | 39 => ⟨S1250000x64, .f32⟩
  | 40 => ⟨S1250000x64, .f32⟩
  | 41 => ⟨S_, .f32⟩
  | 42 => ⟨S100000x64, .f32⟩
  | 43 => ⟨S1250000x1, .i32⟩
  | 44 => ⟨S100000x64, .f32⟩
  | 45 => ⟨S1x192x64, .f32⟩
  | 46 => ⟨S192x64, .f32⟩
  | 47 => ⟨S1x192, .f32⟩
  | 48 => ⟨S192, .f32⟩
  | 49 => ⟨S1x192x64, .f32⟩
  | 50 => ⟨S192x64, .f32⟩
  | 51 => ⟨S1x192, .f32⟩
  | 52 => ⟨S192, .f32⟩
  | 53 => ⟨S64x192, .f32⟩
  | 54 => ⟨S100000x192, .f32⟩
  | 55 => ⟨S1x192, .f32⟩
  | 56 => ⟨S100000x192, .f32⟩
  | 57 => ⟨S100000x192, .f32⟩
  | 58 => ⟨S64x192, .f32⟩
  | 59 => ⟨S100000x192, .f32⟩
  | 60 => ⟨S1x192, .f32⟩
  | 61 => ⟨S100000x192, .f32⟩
  | 62 => ⟨S100000x192, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S_, .i32⟩
  | 97 => ⟨S1250000, .i32⟩
  | 98 => ⟨S1250000, .i1⟩
  | 99 => ⟨S_, .i32⟩
  | 100 => ⟨S1250000, .i32⟩
  | 101 => ⟨S1250000, .i32⟩
  | 102 => ⟨S1250000, .i32⟩
  | 103 => ⟨S1250000x1, .i32⟩
  | 104 => ⟨S1250000x64, .f32⟩
  | 105 => ⟨S_, .i32⟩
  | 106 => ⟨S1250000, .i32⟩
  | 107 => ⟨S1250000, .i1⟩
  | 108 => ⟨S_, .i32⟩
  | 109 => ⟨S1250000, .i32⟩
  | 110 => ⟨S1250000, .i32⟩
  | 111 => ⟨S1250000, .i32⟩
  | 112 => ⟨S1250000x1, .i32⟩
  | 113 => ⟨S1250000x64, .f32⟩
  | 114 => ⟨S1250000x129, .f32⟩
  | 115 => ⟨S1x64x129, .f32⟩
  | 116 => ⟨S64x129, .f32⟩
  | 117 => ⟨S129x64, .f32⟩
  | 118 => ⟨S1250000x64, .f32⟩
  | 119 => ⟨S1x64, .f32⟩
  | 120 => ⟨S64, .f32⟩
  | 121 => ⟨S1x64, .f32⟩
  | 122 => ⟨S1250000x64, .f32⟩
  | 123 => ⟨S1250000x64, .f32⟩
  | 124 => ⟨S_, .f32⟩
  | 125 => ⟨S100000x64, .f32⟩
  | 126 => ⟨S1250000x1, .i32⟩
  | 127 => ⟨S100000x64, .f32⟩
  | _ => ⟨S100000x64, .f32⟩

abbrev hbmTy0_1 (i : Nat) : BufTy := match i % 128 with
  | 0 => ⟨S1x192x64, .f32⟩
  | 1 => ⟨S192x64, .f32⟩
  | 2 => ⟨S1x192, .f32⟩
  | 3 => ⟨S192, .f32⟩
  | 4 => ⟨S1x192x64, .f32⟩
  | 5 => ⟨S192x64, .f32⟩
  | 6 => ⟨S1x192, .f32⟩
  | 7 => ⟨S192, .f32⟩
  | 8 => ⟨S64x192, .f32⟩
  | 9 => ⟨S100000x192, .f32⟩
  | 10 => ⟨S1x192, .f32⟩
  | 11 => ⟨S100000x192, .f32⟩
  | 12 => ⟨S100000x192, .f32⟩
  | 13 => ⟨S64x192, .f32⟩
  | 14 => ⟨S100000x192, .f32⟩
  | 15 => ⟨S1x192, .f32⟩
  | 16 => ⟨S100000x192, .f32⟩
  | 17 => ⟨S100000x192, .f32⟩
  | 18 => ⟨S100000x64, .f32⟩
  | 19 => ⟨S100000x64, .f32⟩
  | 20 => ⟨S100000x64, .f32⟩
  | 21 => ⟨S100000x64, .f32⟩
  | 22 => ⟨S100000x64, .f32⟩
  | 23 => ⟨S100000x64, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S100000x64, .f32⟩
  | 50 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_c_8 : Ref sig .tc := ⟨.hbm, 96, rfl⟩
abbrev main_v77 : Ref sig .tc := ⟨.hbm, 97, rfl⟩
abbrev main_v78 : Ref sig .tc := ⟨.hbm, 98, rfl⟩
abbrev main_c_9 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_10 : Ref sig .tc := ⟨.hbm, 105, rfl⟩
abbrev main_v84 : Ref sig .tc := ⟨.hbm, 106, rfl⟩
abbrev main_v85 : Ref sig .tc := ⟨.hbm, 107, rfl⟩
abbrev main_c_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_12 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_13 : Ref sig .tc := ⟨.hbm, 155, rfl⟩
abbrev main_v131 : Ref sig .tc := ⟨.hbm, 156, rfl⟩
abbrev main_v132 : Ref sig .tc := ⟨.hbm, 157, rfl⟩
abbrev main_cst_14 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_15 : Ref sig .tc := ⟨.hbm, 164, rfl⟩
abbrev main_v138 : Ref sig .tc := ⟨.hbm, 165, rfl⟩
abbrev main_v139 : Ref sig .tc := ⟨.hbm, 166, rfl⟩
abbrev main_cst_16 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_17 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x1_S1250000x129_d1 : Shape.Concatenates [S1250000x64, S1250000x64, S1250000x1] S1250000x129 1
  slices_S2x64x129_S1x64x129_0_0_0 : S2x64x129.Slices ![0, 0, 0] S1x64x129
  shapeCasts_S1x64x129_S64x129 : S1x64x129.ShapeCasts S64x129
  transposes_S64x129_S129x64_1_0 : S64x129.Transposes [1, 0] S129x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S1250000x64_0_1 : S1x64.BroadcastsInDim S1250000x64 (![0, 1] : Fin 2 → Fin S1250000x64.rank)
  bcast_S_S100000x64 : S_.BroadcastsInDim S100000x64 (![] : Fin 0 → Fin S100000x64.rank)
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S2x64x129_S1x64x129_1_0_0 : S2x64x129.Slices ![1, 0, 0] S1x64x129
  slices_S2x64_S1x64_1_0 : S2x64.Slices ![1, 0] S1x64
  slices_S2x192x64_S1x192x64_1_0_0 : S2x192x64.Slices ![1, 0, 0] S1x192x64
  slices_S2x192_S1x192_1_0 : S2x192.Slices ![1, 0] S1x192
  gather_S100000x64_S1250000x1_S1250000x64_1_0_n_n_0_1_164_wf : GatherDims.WF S100000x64 S1250000x1 S1250000x64 [1] [0] [] [0] [] 1 ![1, 64]
  dot_S1250000x129_S129x64_S1250000x64_1_0_0_1_n_n_wf : DotDims.WF S1250000x129 S129x64 S1250000x64 [1] [0] [0] [1] [] []
  scatter_S100000x64_S1250000x1_S1250000x64_1_0_0_1_wf : ScatterDims.WF S100000x64 S1250000x1 S1250000x64 [1] [0] [0] 1
  dot_S100000x64_S64x192_S100000x192_1_0_0_1_n_n_wf : DotDims.WF S100000x64 S64x192 S100000x192 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x129_S129x64_S1250000x64_1_0_0_1_n_n : DotDims S1250000x129 S129x64 S1250000x64 where
  lhsContracting := [1]
  rhsContracting := [0]
  lhsNonContracting := [0]
  rhsNonContracting := [1]
  lhsBatch := []
  rhsBatch := []
  wf := dot_S1250000x129_S129x64_S1250000x64_1_0_0_1_n_n_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.Spec.lean ====
/-
  One round of message passing on a graph, index by index over the extended reals.

  A round has two stages. The MESSAGE of edge `e` is an affine map of the concatenation of the destination node's
  features, the source node's features and the edge's one attribute: with `W` the round's `64 × 129` weight,
  `message e h = Σ_{k<64} dest e k · W h k + Σ_{k<64} src e k · W h (64+k) + Σ_{k<1} attr e k · W h (128+k) + b h`.
  The UPDATE of node `n` is a gated recurrent cell on the node's aggregated messages `a n` and its features `x n`:
  with `gi q = Σ_k a n k · Wih q k + bih q` and `gh q = Σ_k x n k · Whh q k + bhh q` for `q < 192`,
  `r = σ (gi h + gh h)`, `z = σ (gi (64+h) + gh (64+h))`, `c = tanh (gi (128+h) + r · gh (128+h))`, and the new
  feature is `(1 - z) · c + z · x n h`.  (`σ x = 1 / (1 + e^(-x))`.)
-/
import Idealize.ShloMosaic.PureOps.Ideal
import Idealize.ShloMosaic.Lib.ValueIdx

noncomputable section

namespace Cert.MessagePassing

open Idealize.ShloMosaic Idealize.ShloMosaic.ValueIdx

/-- Edge features `[1250000, 64]`. -/
abbrev SE64 : Shape := ⟨2, ![1250000, 64]⟩
/-- Edge attributes `[1250000, 1]`. -/
abbrev SE1 : Shape := ⟨2, ![1250000, 1]⟩
/-- Node features `[100000, 64]`. -/
abbrev SN64 : Shape := ⟨2, ![100000, 64]⟩
/-- Message weights of both rounds `[2, 64, 129]`. -/
abbrev SW : Shape := ⟨3, ![2, 64, 129]⟩
/-- Message biases of both rounds `[2, 64]`. -/
abbrev SB : Shape := ⟨2, ![2, 64]⟩
/-- Gate weights of both rounds `[2, 192, 64]`. -/
abbrev SG : Shape := ⟨3, ![2, 192, 64]⟩
/-- Gate biases of both rounds `[2, 192]`. -/
abbrev SGb : Shape := ⟨2, ![2, 192]⟩

/-- Column `64 + k` of the message weight: the source node's part. -/
abbrev srcCol (k : Fin 64) : Fin 129 := ⟨64 + k.val, by omega⟩
/-- Column `128 + k` of the message weight: the edge attribute's part. -/
abbrev attrCol (k : Fin 1) : Fin 129 := ⟨128 + k.val, by omega⟩
/-- Column `k` of the message weight: the destination node's part. -/
abbrev destCol (k : Fin 64) : Fin 129 := ⟨k.val, by omega⟩

/-- The message of edge `e` at feature `h` in round `t`. -/
def messageAt (t : Fin 2) (dest src : SE64.Idx → EReal) (attr : SE1.Idx → EReal) (W : SW.Idx → EReal) (B : SB.Idx → EReal)
    (e : Fin 1250000) (h : Fin 64) : EReal :=
  (((∑ k : Fin 64, dest (ix2 e k) * W (ix3 t h (destCol k))) + (∑ k : Fin 64, src (ix2 e k) * W (ix3 t h (srcCol k))))
    + (∑ k : Fin 1, attr (ix2 e k) * W (ix3 t h (attrCol k)))) + B (ix2 t h)

/-- All messages of round `t`. -/
def message (t : Fin 2) (dest src : SE64.Idx → EReal) (attr : SE1.Idx → EReal) (W : SW.Idx → EReal) (B : SB.Idx → EReal) :
    SE64.Idx → EReal :=
  fun j => messageAt t dest src attr W B (j 0) (j 1)

/-- Gate row `g · 64 + h` for `g < 3`: the reset, update and candidate rows of a feature. -/
abbrev gateRow (g : Fin 3) (h : Fin 64) : Fin 192 := ⟨g.val * 64 + h.val, by omega⟩

/-- The pre-activation `Σ_k v n k · M q k + b q` of gate row `q` at node `n`. -/
def gateAt (t : Fin 2) (v : SN64.Idx → EReal) (M : SG.Idx → EReal) (b : SGb.Idx → EReal) (n : Fin 100000) (q : Fin 192) : EReal :=
  (∑ k : Fin 64, v (ix2 n k) * M (ix3 t q k)) + b (ix2 t q)

/-- The updated feature `h` of node `n` in round `t`. -/
def updateAt (t : Fin 2) (agg x : SN64.Idx → EReal) (Wih Whh : SG.Idx → EReal) (Bih Bhh : SGb.Idx → EReal)
    (n : Fin 100000) (h : Fin 64) : EReal :=
  let gi := gateAt t agg Wih Bih n
  let gh := gateAt t x Whh Bhh n
  let r := Ideal.logistic (gi (gateRow 0 h) + gh (gateRow 0 h))
  let z := Ideal.logistic (gi (gateRow 1 h) + gh (gateRow 1 h))
  let c := Ideal.tanh (gi (gateRow 2 h) + r * gh (gateRow 2 h))
  (1 - z) * c + z * x (ix2 n h)

/-- All updated node features of round `t`. -/
def update (t : Fin 2) (agg x : SN64.Idx → EReal) (Wih Whh : SG.Idx → EReal) (Bih Bhh : SGb.Idx → EReal) : SN64.Idx → EReal :=
  fun j => updateAt t agg x Wih Whh Bih Bhh (j 0) (j 1)

/-! ## The two stages in terms of the arrays a kernel region's windows read

A message region reads the weight in three transposed pieces and the bias as a row; an update region reads the two gate
weights transposed and the two gate biases as rows. -/

/-- `[64, 64]`. -/
abbrev S64x64 : Shape := ⟨2, ![64, 64]⟩
/-- `[1, 64]`. -/
abbrev S1x64 : Shape := ⟨2, ![1, 64]⟩
/-- `[64, 192]`. -/
abbrev S64x192 : Shape := ⟨2, ![64, 192]⟩
/-- `[1, 192]`. -/
abbrev S1x192 : Shape := ⟨2, ![1, 192]⟩

/-- Edge `e`'s message at feature `h` from the transposed weight pieces `wd`, `ws`, `wa` and the bias row `b`. -/
def blockMessageAt (dest src : SE64.Idx → EReal) (attr : SE1.Idx → EReal) (wd ws : S64x64.Idx → EReal) (wa b : S1x64.Idx → EReal)
    (e : Fin 1250000) (h : Fin 64) : EReal :=
  (((∑ k : Fin 64, dest (ix2 e k) * wd (ix2 k h)) + (∑ k : Fin 64, src (ix2 e k) * ws (ix2 k h)))
    + (∑ k : Fin 1, attr (ix2 e k) * wa (ix2 k h))) + b (ix2 0 h)

/-- All messages from the transposed weight pieces. -/
def blockMessage (dest src : SE64.Idx → EReal) (attr : SE1.Idx → EReal) (wd ws : S64x64.Idx → EReal) (wa b : S1x64.Idx → EReal) :
    SE64.Idx → EReal :=
  fun j => blockMessageAt dest src attr wd ws wa b (j 0) (j 1)

/-- The pre-activation of gate row `q` at node `n` from a transposed gate weight `w` and a bias row `b`. -/
def blockGateAt (v : SN64.Idx → EReal) (w : S64x192.Idx → EReal) (b : S1x192.Idx → EReal) (n : Fin 100000) (q : Fin 192) : EReal :=
  (∑ k : Fin 64, v (ix2 n k) * w (ix2 k q)) + b (ix2 0 q)

/-- Node `n`'s updated feature `h` from the transposed gate weights and the bias rows. -/
def blockUpdateAt (agg x : SN64.Idx → EReal) (wi : S64x192.Idx → EReal) (bi : S1x192.Idx → EReal) (wh : S64x192.Idx → EReal)
    (bh : S1x192.Idx → EReal) (n : Fin 100000) (h : Fin 64) : EReal :=
  let gi := blockGateAt agg wi bi n
  let gh := blockGateAt x wh bh n
  let r := Ideal.logistic (gi (gateRow 0 h) + gh (gateRow 0 h))
  let z := Ideal.logistic (gi (gateRow 1 h) + gh (gateRow 1 h))
  let c := Ideal.tanh (gi (gateRow 2 h) + r * gh (gateRow 2 h))
  (1 - z) * c + z * x (ix2 n h)

/-- All updated node features from the transposed gate weights and the bias rows (window order: aggregate, features,
    input weight, input bias, hidden weight, hidden bias). -/
def blockUpdate (agg x : SN64.Idx → EReal) (wi : S64x192.Idx → EReal) (bi : S1x192.Idx → EReal) (wh : S64x192.Idx → EReal)
    (bh : S1x192.Idx → EReal) : SN64.Idx → EReal :=
  fun j => blockUpdateAt agg x wi bi wh bh (j 0) (j 1)

end Cert.MessagePassing

end
-- ==== Proof.KMsgRegion0.lean ====
/-
  The first message region as ONE function of the arrays its windows read.

  The region walks the edges in 50 blocks of 25000. At a block it loads the block's destination rows, source rows and
  attributes and the whole of the four small arrays, forms three matrix products into zero accumulators (the number formats
  it passes through on the way are the identity over the extended reals), adds them and the bias row, and stores the
  `25000 × 64` result as the block of the output. Block `t` covers rows `25000 t … 25000 t + 24999`, the blocks tile the
  output, and row `e`'s entry is `blockMessageAt` of the arrays at `e`.
-/
import proofs.«416006_j14628658610878_1_alg».proof.Proof.Gen.KernelIdeal.Frame
import proofs.«416006_j14628658610878_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgRegion0

open Idealize.ShloMosaic Idealize.ShloMosaic.TcCoe Idealize.SL.Sem Idealize.ShloMosaic.ValueIdx
open Cert.KernelIdeal Cert.KernelIdeal.Gen Cert.MessagePassing

/-! ## The three matrix products at an entry

Each product contracts the left operand's second axis with the right operand's first. Its two index maps, axis by axis:
the left index of output entry `(p, q)` at contraction position `k` is `(p, k)`, the right index is `(k, q)`. -/

theorem lhs_wide_0 (i : S25000x64.Idx) (k : dot_S25000x64_S64x64_S25000x64_1_0_0_1_n_n.contr.Idx) :
    (dot_S25000x64_S64x64_S25000x64_1_0_0_1_n_n.lhsIdx i k 0).val = (i 0).val := by
  unfold DotDims.lhsIdx
  rw [dif_neg (show ¬(0 : Fin S25000x64.rank) ∈ dot_S25000x64_S64x64_S25000x64_1_0_0_1_n_n.lhsBatch by decide),
    dif_pos (show (0 : Fin S25000x64.rank) ∈ dot_S25000x64_S64x64_S25000x64_1_0_0_1_n_n.lhsNonContracting by decide)]
  rfl
theorem lhs_wide_1 (i : S25000x64.Idx) (k : dot_S25000x64_S64x64_S25000x64_1_0_0_1_n_n.contr.Idx) :
    (dot_S25000x64_S64x64_S25000x64_1_0_0_1_n_n.lhsIdx i k 1).val = (k ⟨0, by decide⟩).val :=
  dot_S25000x64_S64x64_S25000x64_1_0_0_1_n_n.lhsIdx_val_of_single rfl i k
theorem rhs_wide_0 (i : S25000x64.Idx) (k : dot_S25000x64_S64x64_S25000x64_1_0_0_1_n_n.contr.Idx) :
    (dot_S25000x64_S64x64_S25000x64_1_0_0_1_n_n.rhsIdx i k 0).val = (k ⟨0, by decide⟩).val :=
  dot_S25000x64_S64x64_S25000x64_1_0_0_1_n_n.rhsIdx_val_of_single rfl i k
theorem rhs_wide_1 (i : S25000x64.Idx) (k : dot_S25000x64_S64x64_S25000x64_1_0_0_1_n_n.contr.Idx) :
    (dot_S25000x64_S64x64_S25000x64_1_0_0_1_n_n.rhsIdx i k 1).val = (i 1).val := by
  unfold DotDims.rhsIdx
  rw [dif_neg (show ¬(1 : Fin S64x64.rank) ∈ dot_S25000x64_S64x64_S25000x64_1_0_0_1_n_n.rhsBatch by decide),
    dif_pos (show (1 : Fin S64x64.rank) ∈ dot_S25000x64_S64x64_S25000x64_1_0_0_1_n_n.rhsNonContracting by decide)]
  rfl

theorem lhs_thin_0 (i : S25000x64.Idx) (k : dot_S25000x1_S1x64_S25000x64_1_0_0_1_n_n.contr.Idx) :
    (dot_S25000x1_S1x64_S25000x64_1_0_0_1_n_n.lhsIdx i k 0).val = (i 0).val := by
  unfold DotDims.lhsIdx
  rw [dif_neg (show ¬(0 : Fin S25000x1.rank) ∈ dot_S25000x1_S1x64_S25000x64_1_0_0_1_n_n.lhsBatch by decide),
    dif_pos (show (0 : Fin S25000x1.rank) ∈ dot_S25000x1_S1x64_S25000x64_1_0_0_1_n_n.lhsNonContracting by decide)]
  rfl
theorem lhs_thin_1 (i : S25000x64.Idx) (k : dot_S25000x1_S1x64_S25000x64_1_0_0_1_n_n.contr.Idx) :
    (dot_S25000x1_S1x64_S25000x64_1_0_0_1_n_n.lhsIdx i k 1).val = (k ⟨0, by decide⟩).val :=
  dot_S25000x1_S1x64_S25000x64_1_0_0_1_n_n.lhsIdx_val_of_single rfl i k
theorem rhs_thin_0 (i : S25000x64.Idx) (k : dot_S25000x1_S1x64_S25000x64_1_0_0_1_n_n.contr.Idx) :
    (dot_S25000x1_S1x64_S25000x64_1_0_0_1_n_n.rhsIdx i k 0).val = (k ⟨0, by decide⟩).val :=
  dot_S25000x1_S1x64_S25000x64_1_0_0_1_n_n.rhsIdx_val_of_single rfl i k
theorem rhs_thin_1 (i : S25000x64.Idx) (k : dot_S25000x1_S1x64_S25000x64_1_0_0_1_n_n.contr.Idx) :
    (dot_S25000x1_S1x64_S25000x64_1_0_0_1_n_n.rhsIdx i k 1).val = (i 1).val := by
  unfold DotDims.rhsIdx
  rw [dif_neg (show ¬(1 : Fin S1x64.rank) ∈ dot_S25000x1_S1x64_S25000x64_1_0_0_1_n_n.rhsBatch by decide),
    dif_pos (show (1 : Fin S1x64.rank) ∈ dot_S25000x1_S1x64_S25000x64_1_0_0_1_n_n.rhsNonContracting by decide)]
  rfl

/-- A `25000 × 64` by `64 × 64` product into the zero accumulator, at entry `(p, q)`: the sum over the 64 contracted
    positions. -/
theorem matmul_wide_apply {φ₁ φ₂ : FTy} (a : FVec Ideal S25000x64 φ₁) (b : FVec Ideal S64x64 φ₂) (p : Fin 25000) (q : Fin 64) :
    matmul dot_S25000x64_S64x64_S25000x64_1_0_0_1_n_n none a b (constant (F := Ideal) S25000x64 .f32 0x00000000#32) (ix2 p q)
      = ∑ k : Fin 64, a (ix2 p k) * b (ix2 k q) := by
  simp only [matmul]
  rw [Ideal.matmul_constant_zero_apply,
    ← Equiv.sum_comp (contrEquiv1 dot_S25000x64_S64x64_S25000x64_1_0_0_1_n_n 64 rfl rfl).symm]
  refine Finset.sum_congr rfl fun k _ => ?_
  have hk := contrEquiv1_symm_val dot_S25000x64_S64x64_S25000x64_1_0_0_1_n_n 64 rfl rfl k
  have el : dot_S25000x64_S64x64_S25000x64_1_0_0_1_n_n.lhsIdx (ix2 p q)
      ((contrEquiv1 dot_S25000x64_S64x64_S25000x64_1_0_0_1_n_n 64 rfl rfl).symm k) = ix2 p k := funext fun x => Fin.ext (by
    match x with
    | ⟨0, _⟩ => exact lhs_wide_0 _ _
    | ⟨1, _⟩ => exact (lhs_wide_1 _ _).trans hk)
  have er : dot_S25000x64_S64x64_S25000x64_1_0_0_1_n_n.rhsIdx (ix2 p q)
      ((contrEquiv1 dot_S25000x64_S64x64_S25000x64_1_0_0_1_n_n 64 rfl rfl).symm k) = ix2 k q := funext fun x => Fin.ext (by
    match x with
    | ⟨0, _⟩ => exact (rhs_wide_0 _ _).trans hk
    | ⟨1, _⟩ => exact rhs_wide_1 _ _)
  rw [el, er]

/-- A `25000 × 1` by `1 × 64` product into the zero accumulator, at entry `(p, q)`: the sum over the one contracted
    position. -/
theorem matmul_thin_apply {φ₁ φ₂ : FTy} (a : FVec Ideal S25000x1 φ₁) (b : FVec Ideal S1x64 φ₂) (p : Fin 25000) (q : Fin 64) :
    matmul dot_S25000x1_S1x64_S25000x64_1_0_0_1_n_n none a b (constant (F := Ideal) S25000x64 .f32 0x00000000#32) (ix2 p q)
      = ∑ k : Fin 1, a (ix2 p k) * b (ix2 k q) := by
  simp only [matmul]
  rw [Ideal.matmul_constant_zero_apply,
    ← Equiv.sum_comp (contrEquiv1 dot_S25000x1_S1x64_S25000x64_1_0_0_1_n_n 1 rfl rfl).symm]
  refine Finset.sum_congr rfl fun k _ => ?_
  have hk := contrEquiv1_symm_val dot_S25000x1_S1x64_S25000x64_1_0_0_1_n_n 1 rfl rfl k
  have el : dot_S25000x1_S1x64_S25000x64_1_0_0_1_n_n.lhsIdx (ix2 p q)
      ((contrEquiv1 dot_S25000x1_S1x64_S25000x64_1_0_0_1_n_n 1 rfl rfl).symm k) = ix2 p k := funext fun x => Fin.ext (by
    match x with
    | ⟨0, _⟩ => exact lhs_thin_0 _ _
    | ⟨1, _⟩ => exact (lhs_thin_1 _ _).trans hk)
  have er : dot_S25000x1_S1x64_S25000x64_1_0_0_1_n_n.rhsIdx (ix2 p q)
      ((contrEquiv1 dot_S25000x1_S1x64_S25000x64_1_0_0_1_n_n 1 rfl rfl).symm k) = ix2 k q := funext fun x => Fin.ext (by
    match x with
    | ⟨0, _⟩ => exact (rhs_thin_0 _ _).trans hk
    | ⟨1, _⟩ => exact rhs_thin_1 _ _)
  rw [el, er]

/-! ## The body's arithmetic at an entry -/

/-- The block the body stores, at row `p` and feature `q`, from the seven blocks it loaded: the three sums and the bias
    row's entry. The casts to the same shape and the format changes on the way are the identity. -/
theorem pay_apply (x0 x1 : Vec Ideal S25000x64 .f32) (x2 : Vec Ideal S25000x1 .f32) (x3 x4 : Vec Ideal S64x64 .f32)
    (x5 x6 : Vec Ideal S1x64 .f32) (p : Fin 25000) (q : Fin 64) :
    k0_pay1 (F := Ideal) x0 x1 x2 x3 x4 x5 x6 (ix2 p q)
      = (((∑ k : Fin 64, x0 (ix2 p k) * x3 (ix2 k q)) + (∑ k : Fin 64, x1 (ix2 p k) * x4 (ix2 k q)))
          + (∑ k : Fin 1, x2 (ix2 p k) * x5 (ix2 k q))) + x6 (ix2 0 q) := by
  unfold k0_pay1
  simp only [shapeCast_self]
  rw [addf_apply, addf_apply, addf_apply, matmul_wide_apply, matmul_wide_apply, matmul_thin_apply,
    broadcastTo_1b_ab_apply]
  rfl

/-! ## The blocks a point reads, as rows of the arrays -/

variable (V : (c : Dev nD) → (b : Ref sig .tc) → Buf (Elt Ideal) ((c : Thread nD τ).loc b))

/-- The seven arrays the input windows read, as the region finds them, at their literal types. -/
abbrev destArr (c : Dev nD) : Vec Ideal S1250000x64 .f32 := V c main_v5
abbrev srcArr (c : Dev nD) : Vec Ideal S1250000x64 .f32 := V c main_v4
abbrev attrArr (c : Dev nD) : Vec Ideal S1250000x1 .f32 := V c main_arg2
abbrev wdArr (c : Dev nD) : Vec Ideal S64x64 .f32 := V c main_v9
abbrev wsArr (c : Dev nD) : Vec Ideal S64x64 .f32 := V c main_v11
abbrev waArr (c : Dev nD) : Vec Ideal S1x64 .f32 := V c main_v13
abbrev biasArr (c : Dev nD) : Vec Ideal S1x64 .f32 := V c main_v16

/-- Their blocks at point `t`, at their literal types. -/
abbrev destBlk (c : Dev nD) (t : Fin cfg0.N) : Vec Ideal S25000x64 .f32 := iblk0 V c 0 t
abbrev srcBlk (c : Dev nD) (t : Fin cfg0.N) : Vec Ideal S25000x64 .f32 := iblk0 V c 1 t
abbrev attrBlk (c : Dev nD) (t : Fin cfg0.N) : Vec Ideal S25000x1 .f32 := iblk0 V c 2 t
abbrev wdBlk (c : Dev nD) (t : Fin cfg0.N) : Vec Ideal S64x64 .f32 := iblk0 V c 3 t
abbrev wsBlk (c : Dev nD) (t : Fin cfg0.N) : Vec Ideal S64x64 .f32 := iblk0 V c 4 t
abbrev waBlk (c : Dev nD) (t : Fin cfg0.N) : Vec Ideal S1x64 .f32 := iblk0 V c 5 t
abbrev biasBlk (c : Dev nD) (t : Fin cfg0.N) : Vec Ideal S1x64 .f32 := iblk0 V c 6 t

theorem offsets_zero : (![0, 0] : Fin 2 → Nat) = fun _ => 0 := funext fun a => by
  match a with
  | ⟨0, _⟩ => rfl
  | ⟨1, _⟩ => rfl

/-- The printed index maps over the grid: at point `t` the three edge windows and the output window are at row block
    `t`, column block 0; the four small windows are at block `(0, 0)`; and every point writes its output block back. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 50
    ∧ win0_7.flush t = true :=
  (by decide +kernel : ∀ t : Fin grid0.N, _)

/-- Row `p` of the destination block at point `t` is row `25000 t + p` of the destination array. -/
theorem destBlk_apply (c : Dev nD) (t : Fin cfg0.N) (p : Fin 25000) (k : Fin 64) (e : Fin 1250000)
    (he : e.val = t.val * 25000 + p.val) : destBlk V c t (ix2 p k) = destArr V c (ix2 e k) := by
  show V c main_v5 (((cfg0.win 0).blk t).view.emb (ix2 p k)) = V c main_v5 (ix2 e k)
  refine congrArg _ (funext fun a => Fin.ext ?_)
  obtain ⟨f0, f1, -⟩ := index_facts t
  match a with
  | ⟨0, _⟩ => show win0_0.index t (0 : Fin 2) * 25000 + 1 * p.val = e.val; omega
  | ⟨1, _⟩ => show win0_0.index t (1 : Fin 2) * 64 + 1 * k.val = k.val; omega
/-- Row `p` of the source block at point `t` is row `25000 t + p` of the source array. -/
theorem srcBlk_apply (c : Dev nD) (t : Fin cfg0.N) (p : Fin 25000) (k : Fin 64) (e : Fin 1250000)
    (he : e.val = t.val * 25000 + p.val) : srcBlk V c t (ix2 p k) = srcArr V c (ix2 e k) := by
  show V c main_v4 (((cfg0.win 1).blk t).view.emb (ix2 p k)) = V c main_v4 (ix2 e k)
  refine congrArg _ (funext fun a => Fin.ext ?_)
  obtain ⟨-, -, f0, f1, -⟩ := index_facts t
  match a with
  | ⟨0, _⟩ => show win0_1.index t (0 : Fin 2) * 25000 + 1 * p.val = e.val; omega
  | ⟨1, _⟩ => show win0_1.index t (1 : Fin 2) * 64 + 1 * k.val = k.val; omega

/-- Row `p` of the attribute block at point `t` is row `25000 t + p` of the attribute array. -/
theorem attrBlk_apply (c : Dev nD) (t : Fin cfg0.N) (p : Fin 25000) (k : Fin 1) (e : Fin 1250000)
    (he : e.val = t.val * 25000 + p.val) : attrBlk V c t (ix2 p k) = attrArr V c (ix2 e k) := by
  show V c main_arg2 (((cfg0.win 2).blk t).view.emb (ix2 p k)) = V c main_arg2 (ix2 e k)
  refine congrArg _ (funext fun a => Fin.ext ?_)
  obtain ⟨-, -, -, -, f0, f1, -⟩ := index_facts t
  match a with
  | ⟨0, _⟩ => show win0_2.index t (0 : Fin 2) * 25000 + 1 * p.val = e.val; omega
  | ⟨1, _⟩ => show win0_2.index t (1 : Fin 2) * 1 + 1 * k.val = k.val; omega

/-- The block of a small array at any point is the whole array. -/
theorem wdBlk_eq (c : Dev nD) (t : Fin cfg0.N) : wdBlk V c t = wdArr V c := by
  funext j
  show V c main_v9 (((cfg0.win 3).blk t).view.emb j) = V c main_v9 j
  refine congrArg _ (funext fun a => Fin.ext ?_)
  obtain ⟨-, -, -, -, -, -, f0, f1, -⟩ := index_facts t
  match a with
  | ⟨0, _⟩ => show win0_3.index t (0 : Fin 2) * 64 + 1 * (j 0).val = (j 0).val; omega
  | ⟨1, _⟩ => show win0_3.index t (1 : Fin 2) * 64 + 1 * (j 1).val = (j 1).val; omega
theorem wsBlk_eq (c : Dev nD) (t : Fin cfg0.N) : wsBlk V c t = wsArr V c := by
  funext j
  show V c main_v11 (((cfg0.win 4).blk t).view.emb j) = V c main_v11 j
  refine congrArg _ (funext fun a => Fin.ext ?_)
  obtain ⟨-, -, -, -, -, -, -, -, f0, f1, -⟩ := index_facts t
  match a with
  | ⟨0, _⟩ => show win0_4.index t (0 : Fin 2) * 64 + 1 * (j 0).val = (j 0).val; omega
  | ⟨1, _⟩ => show win0_4.index t (1 : Fin 2) * 64 + 1 * (j 1).val = (j 1).val; omega
theorem waBlk_eq (c : Dev nD) (t : Fin cfg0.N) : waBlk V c t = waArr V c := by
  funext j
  show V c main_v13 (((cfg0.win 5).blk t).view.emb j) = V c main_v13 j
  refine congrArg _ (funext fun a => Fin.ext ?_)
  obtain ⟨-, -, -, -, -, -, -, -, -, -, f0, f1, -⟩ := index_facts t
  match a with
  | ⟨0, _⟩ => show win0_5.index t (0 : Fin 2) * 1 + 1 * (j 0).val = (j 0).val; omega
  | ⟨1, _⟩ => show win0_5.index t (1 : Fin 2) * 64 + 1 * (j 1).val = (j 1).val; omega
theorem biasBlk_eq (c : Dev nD) (t : Fin cfg0.N) : biasBlk V c t = biasArr V c := by
  funext j
  show V c main_v16 (((cfg0.win 6).blk t).view.emb j) = V c main_v16 j
  refine congrArg _ (funext fun a => Fin.ext ?_)
  obtain ⟨-, -, -, -, -, -, -, -, -, -, -, -, f0, f1, -⟩ := index_facts t
  match a with
  | ⟨0, _⟩ => show win0_6.index t (0 : Fin 2) * 1 + 1 * (j 0).val = (j 0).val; omega
  | ⟨1, _⟩ => show win0_6.index t (1 : Fin 2) * 64 + 1 * (j 1).val = (j 1).val; omega

/-! ## What a point writes back -/

/-- The body's result at point `t`, at row `p` and feature `q`, is edge `25000 t + p`'s message at `q`. -/
theorem row_apply (c : Dev nD) (t : Fin cfg0.N) (p : Fin 25000) (q : Fin 64) (e : Fin 1250000) (h : Fin 64)
    (he : e.val = t.val * 25000 + p.val) (hh : h.val = q.val) :
    k0_pay1 (F := Ideal) (destBlk V c t) (srcBlk V c t) (attrBlk V c t) (wdBlk V c t) (wsBlk V c t) (waBlk V c t)
        (biasBlk V c t) (ix2 p q)
      = blockMessageAt (destArr V c) (srcArr V c) (attrArr V c) (wdArr V c) (wsArr V c) (waArr V c) (biasArr V c) e h := by
  obtain rfl : h = q := Fin.ext hh
  refine (pay_apply (destBlk V c t) (srcBlk V c t) (attrBlk V c t) (wdBlk V c t) (wsBlk V c t) (waBlk V c t)
    (biasBlk V c t) p h).trans ?_
  rw [wdBlk_eq, wsBlk_eq, waBlk_eq, biasBlk_eq]
  unfold blockMessageAt
  simp only [destBlk_apply V c t _ _ e he, srcBlk_apply V c t _ _ e he, attrBlk_apply V c t _ _ e he]

/-- WHAT POINT `t` WRITES BACK is block `t` of the messages of the arrays as the region finds them. -/
theorem flushed_eq (c : Dev nD) (t : Fin cfg0.N) :
    (dat0 (F := Ideal) V c).flushed 7 t = ((cfg0.win 7).blk t).view.read (Elt Ideal)
      (blockMessage (V c main_v5) (V c main_v4) (V c main_arg2) (V c main_v9) (V c main_v11) (V c main_v13) (V c main_v16)) := by
  show (cfg0.win 7).cut (grid0.coords t) ((dat0 (F := Ideal) V c).after 7 t) = _
  rw [after0_7]
  unfold out0_7
  rw [View.canon_unit_zero offsets_zero]
  simp only [View.ld_unit_zero (S := S25000x64) offsets_zero, View.ld_unit_zero (S := S25000x1) offsets_zero,
    View.ld_unit_zero (S := S64x64) offsets_zero, View.ld_unit_zero (S := S1x64) offsets_zero]
  funext j
  obtain ⟨p, q, rfl⟩ : ∃ (p : Fin 25000) (q : Fin 64), j = ix2 p q := ⟨j 0, j 1, eq_ix2 j⟩
  obtain ⟨-, -, -, -, -, -, -, -, -, -, -, -, -, -, f0, f1, -⟩ := index_facts t
  show _ = blockMessageAt (destArr V c) (srcArr V c) (attrArr V c) (wdArr V c) (wsArr V c) (waArr V c) (biasArr V c)
    ((((cfg0.win 7).blk t).view.emb (ix2 p q)) 0) ((((cfg0.win 7).blk t).view.emb (ix2 p q)) 1)
  exact row_apply V c t p q _ _
    (by show win0_7.index t (0 : Fin 2) * 25000 + 1 * p.val = t.val * 25000 + p.val; omega)
    (by show win0_7.index t (1 : Fin 2) * 64 + 1 * q.val = q.val; omega)

/-! ## From the blocks to the array -/

/-- An edge row is in point `t`'s output block iff each coordinate is in the block's range on its axis. -/
theorem mem_blk (t : Fin cfg0.N) (i : S1250000x64.Idx) :
    i ∈ ((cfg0.win 7).blk t).view.set ↔ ∀ a : Fin 2, win0_7.index t a * S25000x64.size a ≤ (i a).val
      ∧ (i a).val < win0_7.index t a * S25000x64.size a + S25000x64.size a := by
  show i ∈ ((View.whole (Pipeline.arrRef spec0 7)).slice (win0_7.rect t)).set ↔ _
  rw [View.set_slice_whole, Rect.mem_set_unit]
  exact Iff.rfl

/-- The output blocks cover the array: row `e` is in the block of point `e / 25000`. -/
theorem covered (i : S1250000x64.Idx) :
    ∃ t : Fin cfg0.N, (cfg0.win 7).flush t = true ∧ i ∈ ((cfg0.win 7).blk t).view.set := by
  have hi0 : (i 0).val < 1250000 := (i 0).isLt
  have hi1 : (i 1).val < 64 := (i 1).isLt
  have hN : (i 0).val / 25000 < cfg0.N := by show (i 0).val / 25000 < 50; omega
  obtain ⟨-, -, -, -, -, -, -, -, -, -, -, -, -, -, f0, f1, -, ff⟩ := index_facts ⟨(i 0).val / 25000, hN⟩
  have g0 : win0_7.index ⟨(i 0).val / 25000, hN⟩ (0 : Fin 2) = (i 0).val / 25000 := f0
  refine ⟨⟨(i 0).val / 25000, hN⟩, ff, ?_⟩
  rw [mem_blk]
  intro a
  match a with
  | ⟨0, _⟩ =>
    show win0_7.index ⟨(i 0).val / 25000, hN⟩ (0 : Fin 2) * 25000 ≤ (i 0).val
      ∧ (i 0).val < win0_7.index ⟨(i 0).val / 25000, hN⟩ (0 : Fin 2) * 25000 + 25000
    omega
  | ⟨1, _⟩ =>
    show win0_7.index ⟨(i 0).val / 25000, hN⟩ (1 : Fin 2) * 64 ≤ (i 1).val
      ∧ (i 1).val < win0_7.index ⟨(i 0).val / 25000, hN⟩ (1 : Fin 2) * 64 + 64
    omega

/-- After the region, its output array is `blockMessage` of the seven arrays its input windows read, as the region
    found them. -/
theorem final (c : Dev nD) :
    (dat0 (F := Ideal) V c).arrAt 7 cfg0.N
      = blockMessage (V c main_v5) (V c main_v4) (V c main_arg2) (V c main_v9) (V c main_v11) (V c main_v13) (V c main_v16) := by
  exact (dat0 (F := Ideal) V c).arrAt_eq_of_cover 7
    (blockMessage (V c main_v5) (V c main_v4) (V c main_arg2) (V c main_v9) (V c main_v11) (V c main_v13) (V c main_v16))
    (fun t _ => flushed_eq V c t) covered

end Cert.KernelIdeal.MsgRegion0

end
-- ==== Proof.KGruRegion1.lean ====
/-
  The first update region as ONE function of the arrays its windows read.

  The region walks the nodes in 20 blocks of 5000. At a block it loads the block's aggregated messages and features and the
  whole of the two transposed gate weights and the two bias rows, forms the two `5000 × 192` gate products into zero
  accumulators plus the bias rows, cuts each into its three `64`-wide gates, and stores
  `(1 - z) · tanh (gi_n + r · gh_n) + z · x` as the block of the output. Block `t` covers rows `5000 t … 5000 t + 4999`, the
  blocks tile the output, and row `n`'s entry is `blockUpdateAt` of the arrays at `n`.
-/
import proofs.«416006_j14628658610878_1_alg».proof.Proof.Gen.KernelIdeal.Frame
import proofs.«416006_j14628658610878_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.GruRegion1

open Idealize.ShloMosaic Idealize.ShloMosaic.TcCoe Idealize.SL.Sem Idealize.ShloMosaic.ValueIdx
open Cert.KernelIdeal Cert.KernelIdeal.Gen Cert.MessagePassing

variable (V : (c : Dev nD) → (b : Ref sig .tc) → Buf (Elt Ideal) ((c : Thread nD τ).loc b))

/-! ## The gate products' operand indices -/

theorem lhs_axis0 (i : S5000x192.Idx) (q : dot_S5000x64_S64x192_S5000x192_1_0_0_1_n_n.contr.Idx) :
    (dot_S5000x64_S64x192_S5000x192_1_0_0_1_n_n.lhsIdx i q 0).val = (i 0).val := by
  unfold DotDims.lhsIdx
  rw [dif_neg (show ¬(0 : Fin S5000x64.rank) ∈ dot_S5000x64_S64x192_S5000x192_1_0_0_1_n_n.lhsBatch by decide),
    dif_pos (show (0 : Fin S5000x64.rank) ∈ dot_S5000x64_S64x192_S5000x192_1_0_0_1_n_n.lhsNonContracting by decide)]
  rfl

theorem lhs_axis1 (i : S5000x192.Idx) (q : dot_S5000x64_S64x192_S5000x192_1_0_0_1_n_n.contr.Idx) :
    (dot_S5000x64_S64x192_S5000x192_1_0_0_1_n_n.lhsIdx i q 1).val = (q ⟨0, by decide⟩).val :=
  dot_S5000x64_S64x192_S5000x192_1_0_0_1_n_n.lhsIdx_val_of_single rfl i q

theorem rhs_axis0 (i : S5000x192.Idx) (q : dot_S5000x64_S64x192_S5000x192_1_0_0_1_n_n.contr.Idx) :
    (dot_S5000x64_S64x192_S5000x192_1_0_0_1_n_n.rhsIdx i q 0).val = (q ⟨0, by decide⟩).val :=
  dot_S5000x64_S64x192_S5000x192_1_0_0_1_n_n.rhsIdx_val_of_single rfl i q

theorem rhs_axis1 (i : S5000x192.Idx) (q : dot_S5000x64_S64x192_S5000x192_1_0_0_1_n_n.contr.Idx) :
    (dot_S5000x64_S64x192_S5000x192_1_0_0_1_n_n.rhsIdx i q 1).val = (i 1).val := by
  unfold DotDims.rhsIdx
  rw [dif_neg (show ¬(1 : Fin S64x192.rank) ∈ dot_S5000x64_S64x192_S5000x192_1_0_0_1_n_n.rhsBatch by decide),
    dif_pos (show (1 : Fin S64x192.rank) ∈ dot_S5000x64_S64x192_S5000x192_1_0_0_1_n_n.rhsNonContracting by decide)]
  rfl

/-- A gate product into the zero accumulator, at row `p` and gate column `g`: the row of the left block against the
    column of the weight. -/
theorem gateProduct_apply (l : FVec Ideal S5000x64 .bf16) (r : FVec Ideal S64x192 .bf16) (p : Fin 5000) (g : Fin 192) :
    matmul dot_S5000x64_S64x192_S5000x192_1_0_0_1_n_n none l r (constant (F := Ideal) S5000x192 .f32 0x00000000#32) (ix2 p g)
      = ∑ k : Fin 64, l (ix2 p k) * r (ix2 k g) := by
  simp only [matmul]
  rw [Ideal.matmul_constant_zero_apply,
    ← Equiv.sum_comp (contrEquiv1 dot_S5000x64_S64x192_S5000x192_1_0_0_1_n_n 64 rfl rfl).symm]
  refine Finset.sum_congr rfl fun k _ => ?_
  have hk := contrEquiv1_symm_val dot_S5000x64_S64x192_S5000x192_1_0_0_1_n_n 64 rfl rfl k
  have el : dot_S5000x64_S64x192_S5000x192_1_0_0_1_n_n.lhsIdx (ix2 p g)
      ((contrEquiv1 dot_S5000x64_S64x192_S5000x192_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x192_S5000x192_1_0_0_1_n_n.rhsIdx (ix2 p g)
      ((contrEquiv1 dot_S5000x64_S64x192_S5000x192_1_0_0_1_n_n 64 rfl rfl).symm k) = ix2 k g := funext fun a => Fin.ext (by
    match a with
    | ⟨0, _⟩ => exact (rhs_axis0 _ _).trans hk
    | ⟨1, _⟩ => exact rhs_axis1 _ _)
  rw [el, er]

/-! ## The cell on a block, entry by entry -/

/-- The pre-activation of gate column `g` at row `p` of a block: the row against the weight's column plus the bias. -/
def rowGate (v : S5000x64.Idx → EReal) (w : S64x192.Idx → EReal) (b : S1x192.Idx → EReal) (p : Fin 5000) (g : Fin 192) : EReal :=
  (∑ k : Fin 64, v (ix2 p k) * w (ix2 k g)) + b (ix2 0 g)

/-- The updated feature `h` of row `p` of a block. -/
def rowUpdate (a x : S5000x64.Idx → EReal) (wi : S64x192.Idx → EReal) (bi : S1x192.Idx → EReal) (wh : S64x192.Idx → EReal)
    (bh : S1x192.Idx → EReal) (p : Fin 5000) (h : Fin 64) : EReal :=
  let gi := rowGate a wi bi p
  let gh := rowGate x wh bh p
  let r := Ideal.logistic (gi (gateRow 0 h) + gh (gateRow 0 h))
  let z := Ideal.logistic (gi (gateRow 1 h) + gh (gateRow 1 h))
  let c := Ideal.tanh (gi (gateRow 2 h) + r * gh (gateRow 2 h))
  (1 - z) * c + z * x (ix2 p h)

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- The three cuts of a `5000 × 192` gate array into its `64`-wide gates. -/
theorem cut_reset (G : FVec Ideal S5000x192 .f32) (p : Fin 5000) (h : Fin 64) :
    extractStridedSlice S5000x64 ![0, 0] G slices_S5000x192_o0_0_S5000x64 (ix2 p h) = G (ix2 p (gateRow 0 h)) :=
  slice2_axis1_apply 0 G slices_S5000x192_o0_0_S5000x64 p h (gateRow 0 h) (by show 0 * 64 + h.val = 0 + h.val; omega)
theorem cut_update (G : FVec Ideal S5000x192 .f32) (p : Fin 5000) (h : Fin 64) :
    extractStridedSlice S5000x64 ![0, 64] G slices_S5000x192_o0_64_S5000x64 (ix2 p h) = G (ix2 p (gateRow 1 h)) :=
  slice2_axis1_apply 64 G slices_S5000x192_o0_64_S5000x64 p h (gateRow 1 h) (by show 1 * 64 + h.val = 64 + h.val; omega)
theorem cut_candidate (G : FVec Ideal S5000x192 .f32) (p : Fin 5000) (h : Fin 64) :
    extractStridedSlice S5000x64 ![0, 128] G slices_S5000x192_o0_128_S5000x64 (ix2 p h) = G (ix2 p (gateRow 2 h)) :=
  slice2_axis1_apply 128 G slices_S5000x192_o0_128_S5000x64 p h (gateRow 2 h) (by show 2 * 64 + h.val = 128 + h.val; omega)

/-- The body's arithmetic at entry `(p, h)` of the block (the features block is read twice: as the hidden product's left
    operand and as the carried state). -/
theorem payload_apply (a x : Vec Ideal S5000x64 .f32) (wi wh : Vec Ideal S64x192 .f32) (bi bh : Vec Ideal S1x192 .f32)
    (p : Fin 5000) (h : Fin 64) :
    k1_pay1 a x wi wh bi bh x (ix2 p h) = rowUpdate a x wi bi wh bh p h := by
  unfold k1_pay1
  simp only [shapeCast_self, addf_apply, mulf_apply, subf_apply, broadcast_apply, logistic_at, tanh_at, cut_reset, cut_update,
    cut_candidate, gateProduct_apply, truncf_apply, broadcastTo_1b_ab_apply, Ideal.ofBits_def, Ideal.ofBits_one_f32]
  rfl

/-! ## From the blocks to the array -/

theorem zero_offsets : (![0, 0] : Fin 2 → Nat) = fun _ => 0 :=
  funext fun a => by match a with | ⟨0, _⟩ => rfl | ⟨1, _⟩ => rfl

/-- The printed index maps over the grid: the two node windows and the output window sit at block `(t, 0)`, the four small
    windows at block `(0, 0)`, and the output window is written back at every point. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ win1_6.flush t = true :=
  (by decide +kernel : ∀ t : Fin grid1.N, _)

/-- Row `p` of the aggregate's block at point `t` is row `5000 t + p` of the aggregate. -/
theorem aggregate_block (c : Dev nD) (t : Fin cfg1.N) (p : Fin 5000) (k : Fin 64) (n : Fin 100000)
    (hn : n.val = t.val * 5000 + p.val) :
    (iblk1 V c 0 t : Vec Ideal S5000x64 .f32) (ix2 p k) = (V c main_v20 : S100000x64.Idx → EReal) (ix2 n k) := by
  obtain ⟨⟨e0, e1⟩, -⟩ := index_facts t
  unfold iblk1
  rw [View.read_apply]
  show V c main_v20 _ = V c main_v20 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- Row `p` of the features' block at point `t` is row `5000 t + p` of the features. -/
theorem features_block (c : Dev nD) (t : Fin cfg1.N) (p : Fin 5000) (k : Fin 64) (n : Fin 100000)
    (hn : n.val = t.val * 5000 + p.val) :
    (iblk1 V c 1 t : Vec Ideal S5000x64 .f32) (ix2 p k) = (V c main_arg0 : S100000x64.Idx → EReal) (ix2 n k) := by
  obtain ⟨-, ⟨e0, e1⟩, -⟩ := index_facts t
  unfold iblk1
  rw [View.read_apply]
  show V c main_arg0 _ = V c main_arg0 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

/-- The input weight's block at any point is the whole weight. -/
theorem input_weight_block (c : Dev nD) (t : Fin cfg1.N) :
    (iblk1 V c 2 t : Vec Ideal S64x192 .f32) = (V c main_v23 : S64x192.Idx → EReal) := by
  obtain ⟨-, -, ⟨e0, e1⟩, -⟩ := index_facts t
  funext j
  unfold iblk1
  rw [View.read_apply]
  show V c main_v23 _ = V c main_v23 _
  congr 1
  funext a
  apply Fin.ext
  match a with
  | ⟨0, _⟩ => show win1_2.index t (0 : Fin 2) * 64 + 1 * (j 0).val = (j 0).val; rw [e0]; omega
  | ⟨1, _⟩ => show win1_2.index t (1 : Fin 2) * 192 + 1 * (j 1).val = (j 1).val; rw [e1]; omega

/-- The input bias row's block at any point is the whole row. -/
theorem input_bias_block (c : Dev nD) (t : Fin cfg1.N) :
    (iblk1 V c 3 t : Vec Ideal S1x192 .f32) = (V c main_v29 : S1x192.Idx → EReal) := by
  obtain ⟨-, -, -, ⟨e0, e1⟩, -⟩ := index_facts t
  funext j
  unfold iblk1
  rw [View.read_apply]
  show V c main_v29 _ = V c main_v29 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 192 + 1 * (j 1).val = (j 1).val; rw [e1]; omega

/-- The hidden weight's block at any point is the whole weight. -/
theorem hidden_weight_block (c : Dev nD) (t : Fin cfg1.N) :
    (iblk1 V c 4 t : Vec Ideal S64x192 .f32) = (V c main_v26 : S64x192.Idx → EReal) := by
  obtain ⟨-, -, -, -, ⟨e0, e1⟩, -⟩ := index_facts t
  funext j
  unfold iblk1
  rw [View.read_apply]
  show V c main_v26 _ = V c main_v26 _
  congr 1
  funext a
  apply Fin.ext
  match a with
  | ⟨0, _⟩ => show win1_4.index t (0 : Fin 2) * 64 + 1 * (j 0).val = (j 0).val; rw [e0]; omega
  | ⟨1, _⟩ => show win1_4.index t (1 : Fin 2) * 192 + 1 * (j 1).val = (j 1).val; rw [e1]; omega

/-- The hidden bias row's block at any point is the whole row. -/
theorem hidden_bias_block (c : Dev nD) (t : Fin cfg1.N) :
    (iblk1 V c 5 t : Vec Ideal S1x192 .f32) = (V c main_v32 : S1x192.Idx → EReal) := by
  obtain ⟨-, -, -, -, -, ⟨e0, e1⟩, -⟩ := index_facts t
  funext j
  unfold iblk1
  rw [View.read_apply]
  show V c main_v32 _ = V c main_v32 _
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 192 + 1 * (j 1).val = (j 1).val; rw [e1]; omega

/-- An entry of the body's result on blocks that are rows `5000 T …` of two node arrays and the whole of the four small
    arrays is the cell's entry of those arrays at the row the block's row stands for. -/
theorem block_entry (A X : S100000x64.Idx → EReal) (Wi Wh : S64x192.Idx → EReal) (Bi Bh : S1x192.Idx → EReal)
    (a x : Vec Ideal S5000x64 .f32) (wi wh : Vec Ideal S64x192 .f32) (bi bh : Vec Ideal S1x192 .f32) (T : Nat)
    (ha : ∀ (p : Fin 5000) (k : Fin 64) (n : Fin 100000), n.val = T * 5000 + p.val → a (ix2 p k) = A (ix2 n k))
    (hx : ∀ (p : Fin 5000) (k : Fin 64) (n : Fin 100000), n.val = T * 5000 + p.val → x (ix2 p k) = X (ix2 n k))
    (hwi : wi = Wi) (hbi : bi = Bi) (hwh : wh = Wh) (hbh : bh = Bh)
    (y : S5000x64.Idx) (i : S100000x64.Idx) (h0 : (i 0).val = T * 5000 + (y 0).val) (h1 : (i 1).val = (y 1).val) :
    k1_pay1 a x wi wh bi bh x y = blockUpdate A X Wi Bi Wh Bh i := by
  obtain ⟨p, q, rfl⟩ : ∃ (p : Fin 5000) (q : Fin 64), y = ix2 p q := ⟨y 0, y 1, eq_ix2 y⟩
  obtain ⟨n, q', rfl⟩ : ∃ (n : Fin 100000) (q' : Fin 64), i = ix2 n q' := ⟨i 0, i 1, eq_ix2 i⟩
  obtain rfl : q' = q := Fin.ext h1
  subst hwi hbi hwh hbh
  rw [payload_apply]
  unfold rowUpdate rowGate blockUpdate blockUpdateAt blockGateAt
  simp only [ha p _ n h0, hx p _ n h0]

/-- What point `t` writes back is block `t` of the cell's array of the six arrays. -/
theorem flushed_eq (c : Dev nD) (t : Fin cfg1.N) :
    (dat1 (F := Ideal) V c).flushed 6 t
      = ((cfg1.win 6).blk t).view.read (Elt Ideal)
          (blockUpdate (V c main_v20) (V c main_arg0) (V c main_v23) (V c main_v29) (V c main_v26) (V c main_v32)) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S64x192) zero_offsets,
    View.ld_unit_zero (S := S1x192) zero_offsets]
  obtain ⟨-, -, -, -, -, -, ⟨e0, e1⟩, -⟩ := index_facts t
  funext j
  rw [View.read_apply]
  refine block_entry (V c main_v20) (V c main_arg0) (V c main_v23) (V c main_v26) (V c main_v29) (V c main_v32)
    (iblk1 V c 0 t) (iblk1 V c 1 t) (iblk1 V c 2 t) (iblk1 V c 4 t) (iblk1 V c 3 t) (iblk1 V c 5 t) t.val
    (aggregate_block V c t) (features_block V c t) (input_weight_block V c t) (input_bias_block V c t)
    (hidden_weight_block V c t) (hidden_bias_block V c t) _ _ ?_ ?_
  · show win1_6.index t (0 : Fin 2) * 5000 + 1 * (j 0).val = t.val * 5000 + (j 0).val
    rw [e0]; omega
  · show win1_6.index t (1 : Fin 2) * 64 + 1 * (j 1).val = (j 1).val
    rw [e1]; omega

/-- Row `n` of the output lies in the block of point `n / 5000`. -/
theorem cover (i : S100000x64.Idx) :
    ∃ t : Fin cfg1.N, (cfg1.win 6).flush t = true ∧ i ∈ ((cfg1.win 6).blk t).view.set := by
  have h0 : (i 0).val < 100000 := (i 0).isLt
  have h1 : (i 1).val < 64 := (i 1).isLt
  obtain ⟨t, ht⟩ : ∃ t : Fin cfg1.N, t.val = (i 0).val / 5000 := ⟨⟨(i 0).val / 5000, by show _ < 20; omega⟩, rfl⟩
  obtain ⟨-, -, -, -, -, -, ⟨e0, e1⟩, hf⟩ := index_facts t
  refine ⟨t, hf, ?_⟩
  rw [show ((cfg1.win 6).blk t).view.set = (win1_6.rect t).set from View.set_slice_whole _ _, Rect.mem_set_unit]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 64 ≤ (i 1).val ∧ (i 1).val < win1_6.index t (1 : Fin 2) * 64 + 64
    rw [e1]; omega

/-- After the region, its output array is `blockUpdate` of the six arrays its input windows read, as the region found
    them (window order: aggregate, features, input weight, input bias, hidden weight, hidden bias). -/
theorem final (c : Dev nD) :
    (dat1 (F := Ideal) V c).arrAt 6 cfg1.N
      = blockUpdate (V c main_v20) (V c main_arg0) (V c main_v23) (V c main_v29) (V c main_v26) (V c main_v32) :=
  (dat1 (F := Ideal) V c).arrAt_eq_of_cover 6 _ (fun t _ => flushed_eq V c t) cover

end Cert.KernelIdeal.GruRegion1

end
-- ==== Proof.KernelTerms.lean ====
/-
  The host side of the idealized kernel program, as named functions of the argument arrays.

  Between its four kernel regions the program computes, on the host: the two index vectors (the rows of the edge list), a
  gather of node-feature rows at an index vector — with a negative index wrapped by the table's height, and every row whose
  wrapped index lies outside `[0, 99999]` replaced by a fill word —, the segment sum of the messages by the first index vector,
  and, per round, the slabs of the weights and biases the regions' windows read (slices, squeezes and transposes).
-/
import proofs.«416006_j14628658610878_1_alg».proof.Proof.Gen.KernelIdeal
import Idealize.ShloMosaic.PureOps.Ideal

noncomputable section

namespace Cert.KernelIdeal.Terms

open Idealize.ShloMosaic Cert.KernelIdeal Cert.KernelIdeal.Gen

/-- The first row of the edge list: each edge's source node (also the segment of its message). -/
def rowIdx (E : IVec S2x1250000 32) : IVec S1250000 32 :=
  shapeCast _ (extractStridedSlice S1x1250000 ![0, 0] E slices_S2x1250000_S1x1250000_0_0) shapeCasts_S1x1250000_S1250000
/-- The second row of the edge list: each edge's destination node. -/
def colIdx (E : IVec S2x1250000 32) : IVec S1250000 32 :=
  shapeCast _ (extractStridedSlice S1x1250000 ![1, 0] E slices_S2x1250000_S1x1250000_1_0) shapeCasts_S1x1250000_S1250000

/-- An index vector with its negative entries wrapped by the table's height `100000`. -/
def wrap (i : IVec S1250000 32) : IVec S1250000 32 :=
  select (cmpi .slt i (broadcastInDim S1250000 ![] bcast_S_S1250000 (constantI S_ 32 0#32)))
    (addi i (broadcastInDim S1250000 ![] bcast_S_S1250000 (constantI S_ 32 100000#32))) i
/-- The wrapped index vector as a column of start indices. -/
def starts (i : IVec S1250000 32) : IVec S1250000x1 32 :=
  broadcastInDim S1250000x1 ![0] bcast_S1250000_S1250000x1_0 (wrap i)
/-- The rows of the table `x` at the wrapped indices. -/
def rows (x : FVec Ideal S100000x64 .f32) (i : IVec S1250000 32) : FVec Ideal S1250000x64 .f32 :=
  Host.gather gather_S100000x64_S1250000x1_S1250000x64_1_0_n_n_0_1_164 x (starts i)
/-- Per edge: is the wrapped index within `[0, 99999]`? -/
def inRange (i : IVec S1250000 32) : IVec S1250000 1 :=
  Host.reduce IntOp.andi
    (andi (cmpi .sge (starts i) (broadcastInDim S1250000x1 ![] bcast_S_S1250000x1 (constantI S_ 32 0#32)))
      (cmpi .sle (starts i) (broadcastInDim S1250000x1 ![0, 1] bcast_S1x1_S1250000x1_0_1
        (broadcastInDim S1x1 ![1] bcast_S1_S1x1_1 (constantI S1 32 99999#32)))))
    (constantI S_ 1 1#1) reducesTo_S1250000x1_S1250000_d1 h_S_
/-- The gather as the kernel program computes it: out-of-range rows replaced by the fill word. -/
def takeRows (x : FVec Ideal S100000x64 .f32) (i : IVec S1250000 32) : FVec Ideal S1250000x64 .f32 :=
  select (broadcastInDim S1250000x64 ![0] bcast_S1250000_S1250000x64_0 (inRange i)) (rows x i)
    (broadcastInDim S1250000x64 ![] bcast_S_S1250000x64 (constant (F := Ideal) S_ .f32 0x7FC00000#32))

/-- The messages summed per segment (the node each edge's first index names), from zero. -/
def segmentSum (i : IVec S1250000 32) (msgs : FVec Ideal S1250000x64 .f32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 i) msgs

/-- Round 0's message weight, a `64 × 129` slab of the stacked weights. -/
def wSlab0 (W : FVec Ideal S2x64x129 .f32) : FVec Ideal S64x129 .f32 :=
  shapeCast _ (extractStridedSlice S1x64x129 ![0, 0, 0] W slices_S2x64x129_S1x64x129_0_0_0) shapeCasts_S1x64x129_S64x129
/-- Round 1's message weight. -/
def wSlab1 (W : FVec Ideal S2x64x129 .f32) : FVec Ideal S64x129 .f32 :=
  shapeCast _ (extractStridedSlice S1x64x129 ![1, 0, 0] W slices_S2x64x129_S1x64x129_1_0_0) shapeCasts_S1x64x129_S64x129
/-- The destination part of a message weight (columns `0 … 63`), transposed. -/
def destT (Wt : FVec Ideal S64x129 .f32) : FVec Ideal S64x64 .f32 :=
  transpose S64x64 [1, 0] (extractStridedSlice S64x64 ![0, 0] Wt slices_S64x129_S64x64_0_0) transposes_S64x64_S64x64_1_0
/-- The source part of a message weight (columns `64 … 127`), transposed. -/
def srcT (Wt : FVec Ideal S64x129 .f32) : FVec Ideal S64x64 .f32 :=
  transpose S64x64 [1, 0] (extractStridedSlice S64x64 ![0, 64] Wt slices_S64x129_S64x64_0_64) transposes_S64x64_S64x64_1_0
/-- The edge-attribute part of a message weight (column `128`), transposed. -/
def attrT (Wt : FVec Ideal S64x129 .f32) : FVec Ideal S1x64 .f32 :=
  transpose S1x64 [1, 0] (extractStridedSlice S64x1 ![0, 128] Wt slices_S64x129_S64x1_0_128) transposes_S64x1_S1x64_1_0
/-- Round 0's message bias as a row. -/
def bRow0 (B : FVec Ideal S2x64 .f32) : FVec Ideal S1x64 .f32 :=
  shapeCast _ (shapeCast _ (extractStridedSlice S1x64 ![0, 0] B slices_S2x64_S1x64_0_0) shapeCasts_S1x64_S64) shapeCasts_S64_S1x64
/-- Round 1's message bias as a row. -/
def bRow1 (B : FVec Ideal S2x64 .f32) : FVec Ideal S1x64 .f32 :=
  shapeCast _ (shapeCast _ (extractStridedSlice S1x64 ![1, 0] B slices_S2x64_S1x64_1_0) shapeCasts_S1x64_S64) shapeCasts_S64_S1x64
/-- Round 0's slab of a stacked gate weight, transposed to `64 × 192`. -/
def gateT0 (G : FVec Ideal S2x192x64 .f32) : FVec Ideal S64x192 .f32 :=
  transpose S64x192 [1, 0] (shapeCast _ (extractStridedSlice S1x192x64 ![0, 0, 0] G slices_S2x192x64_S1x192x64_0_0_0) shapeCasts_S1x192x64_S192x64) transposes_S192x64_S64x192_1_0
/-- Round 1's slab of a stacked gate weight, transposed. -/
def gateT1 (G : FVec Ideal S2x192x64 .f32) : FVec Ideal S64x192 .f32 :=
  transpose S64x192 [1, 0] (shapeCast _ (extractStridedSlice S1x192x64 ![1, 0, 0] G slices_S2x192x64_S1x192x64_1_0_0) shapeCasts_S1x192x64_S192x64) transposes_S192x64_S64x192_1_0
/-- Round 0's gate bias as a row. -/
def gateBias0 (b : FVec Ideal S2x192 .f32) : FVec Ideal S1x192 .f32 :=
  shapeCast _ (shapeCast _ (extractStridedSlice S1x192 ![0, 0] b slices_S2x192_S1x192_0_0) shapeCasts_S1x192_S192) shapeCasts_S192_S1x192
/-- Round 1's gate bias as a row. -/
def gateBias1 (b : FVec Ideal S2x192 .f32) : FVec Ideal S1x192 .f32 :=
  shapeCast _ (shapeCast _ (extractStridedSlice S1x192 ![1, 0] b slices_S2x192_S1x192_1_0) shapeCasts_S1x192_S192) shapeCasts_S192_S1x192

end Cert.KernelIdeal.Terms

end
-- ==== Proof.KernelReadsA.lean ====
/-
  What the first round's two regions find in the arrays their windows read.

  The buffer contents at a region's entry are a fold through the program: host stretches apply their operations, an earlier
  region leaves its arrays at what its write-backs left and every other buffer alone. Read at a window's array the fold walks
  back to the host operations that wrote the array (and, through them, to the launch contents of the arguments or to an
  earlier region's output); no later segment before the region's entry writes it.
-/
import proofs.«416006_j14628658610878_1_alg».proof.Proof.Gen.KernelIdeal.Frame
import proofs.«416006_j14628658610878_1_alg».proof.Proof.KernelTerms
import Idealize.ShloMosaic.Lib.StableHlo.Run

set_option maxRecDepth 16384

noncomputable section

namespace Cert.KernelIdeal.Reads

open Idealize.ShloMosaic Idealize.ShloMosaic.TcCoe Idealize.SL.Sem
open Cert.KernelIdeal Cert.KernelIdeal.Gen Cert.KernelIdeal.Terms

variable (m : (ℓ : Loc nD τ sig) → Buf (Elt Ideal) ℓ) (ρ : Dev nD → PrngReg)

/-! ## The references each host stretch writes, and what a stretch leaves alone -/

/-- One operation's written set lies in a list of references that names its result. -/
local macro "one_write" : tactic => `(tactic|
  (simp only [StableHlo.nullary_writes, StableHlo.unary_writes, StableHlo.binary_writes, StableHlo.ternary_writes,
     StableHlo.quaternary_writes, StableHlo.reshape_writes, StableHlo.binaryIndexed_writes,
     Finset.singleton_subset_iff, List.mem_toFinset]
   exact List.mem_map_of_mem (by decide)))

private abbrev ops0_W : List (Ref sig .tc) := [main_v0, main_v1, main_v2, main_v3]
private theorem ops0_writes : (hostOps0 : List (HloOp τ sig (Elt Ideal))).Forall fun op => op.writes ⊆ (ops0_W.map (Proc.devRef (τ := τ) .tc)).toFinset := by
  simp only [List.Forall]
  repeat' apply And.intro
  all_goals one_write

private abbrev ops0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
private theorem ops0_1_writes : (hostOps0_1 : List (HloOp τ sig (Elt Ideal))).Forall fun op => op.writes ⊆ (ops0_1_W.map (Proc.devRef (τ := τ) .tc)).toFinset := by
  simp only [List.Forall]
  repeat' apply And.intro
  all_goals one_write

private abbrev ops0_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
private theorem ops0_2_writes : (hostOps0_2 : List (HloOp τ sig (Elt Ideal))).Forall fun op => op.writes ⊆ (ops0_2_W.map (Proc.devRef (τ := τ) .tc)).toFinset := by
  simp only [List.Forall]
  repeat' apply And.intro
  all_goals one_write

private abbrev ops0_3_W : List (Ref sig .tc) := [main_v6, main_v7, main_v8, main_v9, main_v10, main_v11, main_v12, main_v13, main_v14, main_v15, main_v16]
private theorem ops0_3_writes : (hostOps0_3 : List (HloOp τ sig (Elt Ideal))).Forall fun op => op.writes ⊆ (ops0_3_W.map (Proc.devRef (τ := τ) .tc)).toFinset := by
  simp only [List.Forall]
  repeat' apply And.intro
  all_goals one_write

private abbrev ops1_W : List (Ref sig .tc) := [main_cst, main_v18, main_v19, main_v20, main_v21, main_v22, main_v23, main_v24, main_v25, main_v26, main_v27, main_v28, main_v29, main_v30, main_v31, main_v32]
private theorem ops1_writes : (hostOps1 : List (HloOp τ sig (Elt Ideal))).Forall fun op => op.writes ⊆ (ops1_W.map (Proc.devRef (τ := τ) .tc)).toFinset := by
  simp only [List.Forall]
  repeat' apply And.intro
  all_goals one_write

/-- A reference outside a stretch's written list reads, after the stretch, what it read before. -/
private theorem W1_of (c : Dev nD) (r : Ref sig .tc) (h : r ∉ ops0_W) : W1 m ρ c (Proc.devRef .tc r) = W0 m ρ c (Proc.devRef .tc r) :=
  StableHlo.after_of_writes_sub hostOps0 _ ops0_writes h
private theorem W2_of (c : Dev nD) (r : Ref sig .tc) (h : r ∉ ops0_1_W) : W2 m ρ c (Proc.devRef .tc r) = W1 m ρ c (Proc.devRef .tc r) :=
  StableHlo.after_of_writes_sub hostOps0_1 _ ops0_1_writes h
private theorem W3_of (c : Dev nD) (r : Ref sig .tc) (h : r ∉ ops0_2_W) : W3 m ρ c (Proc.devRef .tc r) = W2 m ρ c (Proc.devRef .tc r) :=
  StableHlo.after_of_writes_sub hostOps0_2 _ ops0_2_writes h
private theorem W4_of (c : Dev nD) (r : Ref sig .tc) (h : r ∉ ops0_3_W) : W4 m ρ c (Proc.devRef .tc r) = W3 m ρ c (Proc.devRef .tc r) :=
  StableHlo.after_of_writes_sub hostOps0_3 _ ops0_3_writes h
private theorem W6_of (c : Dev nD) (r : Ref sig .tc) (h : r ∉ ops1_W) : W6 m ρ c (Proc.devRef .tc r) = W5 m ρ c (Proc.devRef .tc r) :=
  StableHlo.after_of_writes_sub hostOps1 _ ops1_writes h

/-- Contents carried to a typed reference's buffer and back are the contents. -/
private theorem ofBuf_toBuf {T : BufTy} (x : StableHlo.TRef sig T) (v : T.Contents (Elt Ideal)) :
    x.ofBuf (x.toBuf v) = v := by
  obtain ⟨r, rfl, _, _⟩ := x
  rfl

/-- Through the four stretches before the first message region, a reference none of them writes reads its launch contents. -/
private theorem W4_launch (c : Dev nD) (r : Ref sig .tc) (h0 : r ∉ ops0_W) (h1 : r ∉ ops0_1_W) (h2 : r ∉ ops0_2_W)
    (h3 : r ∉ ops0_3_W) : W4 m ρ c (Proc.devRef .tc r) = W0 m ρ c (Proc.devRef .tc r) :=
  (W4_of m ρ c r h3).trans ((W3_of m ρ c r h2).trans ((W2_of m ρ c r h1).trans (W1_of m ρ c r h0)))
private theorem W3_launch (c : Dev nD) (r : Ref sig .tc) (h0 : r ∉ ops0_W) (h1 : r ∉ ops0_1_W) (h2 : r ∉ ops0_2_W) :
    W3 m ρ c (Proc.devRef .tc r) = W0 m ρ c (Proc.devRef .tc r) :=
  (W3_of m ρ c r h2).trans ((W2_of m ρ c r h1).trans (W1_of m ρ c r h0))
private theorem W2_launch (c : Dev nD) (r : Ref sig .tc) (h0 : r ∉ ops0_W) (h1 : r ∉ ops0_1_W) :
    W2 m ρ c (Proc.devRef .tc r) = W0 m ρ c (Proc.devRef .tc r) :=
  (W2_of m ρ c r h1).trans (W1_of m ρ c r h0)

/-! ## The two index vectors: rows of the edge list, written by the first stretch -/

private theorem W1_v1 (c : Dev nD) : W1 m ρ c (Proc.devRef .tc main_v1) = rowIdx (m ((c : Thread nD τ).loc main_arg1)) := by
  show StableHlo.after hostOps0 (W0 m ρ c) (Proc.devRef .tc main_v1) = _
  after_results
  rfl
private theorem W1_v3 (c : Dev nD) : W1 m ρ c (Proc.devRef .tc main_v3) = colIdx (m ((c : Thread nD τ).loc main_arg1)) := by
  show StableHlo.after hostOps0 (W0 m ρ c) (Proc.devRef .tc main_v3) = _
  after_results
  rfl
private theorem W4_v1 (c : Dev nD) : W4 m ρ c (Proc.devRef .tc main_v1) = rowIdx (m ((c : Thread nD τ).loc main_arg1)) :=
  (W4_of m ρ c main_v1 (by decide)).trans ((W3_of m ρ c main_v1 (by decide)).trans
    ((W2_of m ρ c main_v1 (by decide)).trans (W1_v1 m ρ c)))

/-! ## At the first message region's entry -/

theorem V4_dest (c : Dev nD) : V4 m ρ c main_v5 = takeRows (m ((c : Thread nD τ).loc main_arg0)) (colIdx (m ((c : Thread nD τ).loc main_arg1))) := by
  have ex : W2 m ρ c (Proc.devRef .tc main_arg0) = m ((c : Thread nD τ).loc main_arg0) :=
    (W2_launch m ρ c main_arg0 (by decide) (by decide)).trans rfl
  have ei : W2 m ρ c (Proc.devRef .tc main_v3) = colIdx (m ((c : Thread nD τ).loc main_arg1)) :=
    (W2_of m ρ c main_v3 (by decide)).trans (W1_v3 m ρ c)
  show W4 m ρ c (Proc.devRef .tc main_v5) = _
  rw [W4_of m ρ c main_v5 (by decide)]
  show StableHlo.after hostOps0_2 (W2 m ρ c) (Proc.devRef .tc main_v5) = _
  generalize W2 m ρ c = U at ex ei ⊢
  -- the typed references of the gather call carry contents to a buffer's own type and back: the identity at a literal reference
  have ex' : ∀ h1 h2 h3, (StableHlo.TRef.of main_arg0 h1 h2 h3 : StableHlo.TRef sig ⟨S100000x64, .f32⟩).ofBuf
      (U (Proc.devRef .tc main_arg0)) = m ((c : Thread nD τ).loc main_arg0) := fun _ _ _ => ex
  have ei' : ∀ h1 h2 h3, (StableHlo.TRef.of main_v3 h1 h2 h3 : StableHlo.TRef sig ⟨S1250000, .i32⟩).ofBuf
      (U (Proc.devRef .tc main_v3)) = colIdx (m ((c : Thread nD τ).loc main_arg1)) := fun _ _ _ => ei
  have eo : ∀ h1 h2 h3 (v : FVec Ideal S1250000x64 .f32),
      (StableHlo.TRef.of main_v5 h1 h2 h3 : StableHlo.TRef sig ⟨S1250000x64, .f32⟩).toBuf (Val := Elt Ideal) v = v := by
    intro h1 h2 h3 v; rfl
  after_results_simp
  simp only [ofBuf_toBuf, ex', ei']
  rw [eo]
  unfold takeRows inRange rows starts wrap
  rfl
theorem V4_src (c : Dev nD) : V4 m ρ c main_v4 = takeRows (m ((c : Thread nD τ).loc main_arg0)) (rowIdx (m ((c : Thread nD τ).loc main_arg1))) := by
  have ex : W1 m ρ c (Proc.devRef .tc main_arg0) = m ((c : Thread nD τ).loc main_arg0) :=
    (W1_of m ρ c main_arg0 (by decide)).trans rfl
  have ei : W1 m ρ c (Proc.devRef .tc main_v1) = rowIdx (m ((c : Thread nD τ).loc main_arg1)) :=
    W1_v1 m ρ c
  show W4 m ρ c (Proc.devRef .tc main_v4) = _
  rw [W4_of m ρ c main_v4 (by decide), W3_of m ρ c main_v4 (by decide)]
  show StableHlo.after hostOps0_1 (W1 m ρ c) (Proc.devRef .tc main_v4) = _
  generalize W1 m ρ c = U at ex ei ⊢
  -- the typed references of the gather call carry contents to a buffer's own type and back: the identity at a literal reference
  have ex' : ∀ h1 h2 h3, (StableHlo.TRef.of main_arg0 h1 h2 h3 : StableHlo.TRef sig ⟨S100000x64, .f32⟩).ofBuf
      (U (Proc.devRef .tc main_arg0)) = m ((c : Thread nD τ).loc main_arg0) := fun _ _ _ => ex
  have ei' : ∀ h1 h2 h3, (StableHlo.TRef.of main_v1 h1 h2 h3 : StableHlo.TRef sig ⟨S1250000, .i32⟩).ofBuf
      (U (Proc.devRef .tc main_v1)) = rowIdx (m ((c : Thread nD τ).loc main_arg1)) := fun _ _ _ => ei
  have eo : ∀ h1 h2 h3 (v : FVec Ideal S1250000x64 .f32),
      (StableHlo.TRef.of main_v4 h1 h2 h3 : StableHlo.TRef sig ⟨S1250000x64, .f32⟩).toBuf (Val := Elt Ideal) v = v := by
    intro h1 h2 h3 v; rfl
  after_results_simp
  simp only [ofBuf_toBuf, ex', ei']
  rw [eo]
  unfold takeRows inRange rows starts wrap
  rfl
theorem V4_attr (c : Dev nD) : V4 m ρ c main_arg2 = (m ((c : Thread nD τ).loc main_arg2)) :=
  (W4_launch m ρ c main_arg2 (by decide) (by decide) (by decide) (by decide)).trans rfl
theorem V4_wd (c : Dev nD) : V4 m ρ c main_v9 = destT (wSlab0 (m ((c : Thread nD τ).loc main_arg3))) := by
  have e : W3 m ρ c (Proc.devRef .tc main_arg3) = m ((c : Thread nD τ).loc main_arg3) :=
    (W3_launch m ρ c main_arg3 (by decide) (by decide) (by decide)).trans rfl
  show StableHlo.after hostOps0_3 (W3 m ρ c) (Proc.devRef .tc main_v9) = _
  generalize W3 m ρ c = U at e ⊢
  after_results
  rw [e]
  rfl
theorem V4_ws (c : Dev nD) : V4 m ρ c main_v11 = srcT (wSlab0 (m ((c : Thread nD τ).loc main_arg3))) := by
  have e : W3 m ρ c (Proc.devRef .tc main_arg3) = m ((c : Thread nD τ).loc main_arg3) :=
    (W3_launch m ρ c main_arg3 (by decide) (by decide) (by decide)).trans rfl
  show StableHlo.after hostOps0_3 (W3 m ρ c) (Proc.devRef .tc main_v11) = _
  generalize W3 m ρ c = U at e ⊢
  after_results
  rw [e]
  rfl
theorem V4_wa (c : Dev nD) : V4 m ρ c main_v13 = attrT (wSlab0 (m ((c : Thread nD τ).loc main_arg3))) := by
  have e : W3 m ρ c (Proc.devRef .tc main_arg3) = m ((c : Thread nD τ).loc main_arg3) :=
    (W3_launch m ρ c main_arg3 (by decide) (by decide) (by decide)).trans rfl
  show StableHlo.after hostOps0_3 (W3 m ρ c) (Proc.devRef .tc main_v13) = _
  generalize W3 m ρ c = U at e ⊢
  after_results
  rw [e]
  rfl
theorem V4_b (c : Dev nD) : V4 m ρ c main_v16 = bRow0 (m ((c : Thread nD τ).loc main_arg4)) := by
  have e : W3 m ρ c (Proc.devRef .tc main_arg4) = m ((c : Thread nD τ).loc main_arg4) :=
    (W3_launch m ρ c main_arg4 (by decide) (by decide) (by decide)).trans rfl
  show StableHlo.after hostOps0_3 (W3 m ρ c) (Proc.devRef .tc main_v16) = _
  generalize W3 m ρ c = U at e ⊢
  after_results
  rw [e]
  rfl

/-! ## At the first update region's entry (the first message region's output is `W5 … main_v17`) -/

/-- Through the first message region too, for a reference that is none of the region's arrays. -/
private theorem W5_launch (c : Dev nD) (r : Ref sig .tc) (h0 : r ∉ ops0_W) (h1 : r ∉ ops0_1_W) (h2 : r ∉ ops0_2_W)
    (h3 : r ∉ ops0_3_W) (hr : ∀ w, Pipeline.arrRef spec0 w ≠ r) :
    W5 m ρ c (Proc.devRef .tc r) = W0 m ρ c (Proc.devRef .tc r) :=
  (W5_of_ne m ρ c r hr).trans (W4_launch m ρ c r h0 h1 h2 h3)

theorem V6_agg (c : Dev nD) : V6 m ρ c main_v20 = segmentSum (rowIdx (m ((c : Thread nD τ).loc main_arg1))) (W5 m ρ c (Proc.devRef .tc main_v17)) := by
  have e : W5 m ρ c (Proc.devRef .tc main_v1) = rowIdx (m ((c : Thread nD τ).loc main_arg1)) :=
    (W5_of_ne m ρ c main_v1 (by decide)).trans (W4_v1 m ρ c)
  show StableHlo.after hostOps1 (W5 m ρ c) (Proc.devRef .tc main_v20) = _
  generalize W5 m ρ c = U at e ⊢
  after_results
  rw [e]
  rfl
theorem V6_x (c : Dev nD) : V6 m ρ c main_arg0 = (m ((c : Thread nD τ).loc main_arg0)) :=
  (W6_of m ρ c main_arg0 (by decide)).trans
    ((W5_launch m ρ c main_arg0 (by decide) (by decide) (by decide) (by decide) (by decide)).trans rfl)
theorem V6_wih (c : Dev nD) : V6 m ρ c main_v23 = gateT0 (m ((c : Thread nD τ).loc main_arg5)) := by
  have e : W5 m ρ c (Proc.devRef .tc main_arg5) = m ((c : Thread nD τ).loc main_arg5) :=
    (W5_launch m ρ c main_arg5 (by decide) (by decide) (by decide) (by decide) (by decide)).trans rfl
  show StableHlo.after hostOps1 (W5 m ρ c) (Proc.devRef .tc main_v23) = _
  generalize W5 m ρ c = U at e ⊢
  after_results
  rw [e]
  rfl
theorem V6_bih (c : Dev nD) : V6 m ρ c main_v29 = gateBias0 (m ((c : Thread nD τ).loc main_arg6)) := by
  have e : W5 m ρ c (Proc.devRef .tc main_arg6) = m ((c : Thread nD τ).loc main_arg6) :=
    (W5_launch m ρ c main_arg6 (by decide) (by decide) (by decide) (by decide) (by decide)).trans rfl
  show StableHlo.after hostOps1 (W5 m ρ c) (Proc.devRef .tc main_v29) = _
  generalize W5 m ρ c = U at e ⊢
  after_results
  rw [e]
  rfl
theorem V6_whh (c : Dev nD) : V6 m ρ c main_v26 = gateT0 (m ((c : Thread nD τ).loc main_arg7)) := by
  have e : W5 m ρ c (Proc.devRef .tc main_arg7) = m ((c : Thread nD τ).loc main_arg7) :=
    (W5_launch m ρ c main_arg7 (by decide) (by decide) (by decide) (by decide) (by decide)).trans rfl
  show StableHlo.after hostOps1 (W5 m ρ c) (Proc.devRef .tc main_v26) = _
  generalize W5 m ρ c = U at e ⊢
  after_results
  rw [e]
  rfl
theorem V6_bhh (c : Dev nD) : V6 m ρ c main_v32 = gateBias0 (m ((c : Thread nD τ).loc main_arg8)) := by
  have e : W5 m ρ c (Proc.devRef .tc main_arg8) = m ((c : Thread nD τ).loc main_arg8) :=
    (W5_launch m ρ c main_arg8 (by decide) (by decide) (by decide) (by decide) (by decide)).trans rfl
  show StableHlo.after hostOps1 (W5 m ρ c) (Proc.devRef .tc main_v32) = _
  generalize W5 m ρ c = U at e ⊢
  after_results
  rw [e]
  rfl

end Cert.KernelIdeal.Reads

end
-- ==== Proof.KernelReadsB.lean ====
/-
  What the second round's two regions find in the arrays their windows read.

  As in the first round, with the node features now the first update region's output `W7 … main_v33`: the fold at a
  window's array walks back to the host operations that wrote it, and through them to the launch contents of the
  arguments or to an earlier region's output.
-/
import proofs.«416006_j14628658610878_1_alg».proof.Proof.Gen.KernelIdeal.Frame
import proofs.«416006_j14628658610878_1_alg».proof.Proof.KernelTerms
import Idealize.ShloMosaic.Lib.StableHlo.Run

set_option maxRecDepth 16384

noncomputable section

namespace Cert.KernelIdeal.Reads2

open Idealize.ShloMosaic Idealize.ShloMosaic.TcCoe Idealize.SL.Sem
open Cert.KernelIdeal Cert.KernelIdeal.Gen Cert.KernelIdeal.Terms

variable (m : (ℓ : Loc nD τ sig) → Buf (Elt Ideal) ℓ) (ρ : Dev nD → PrngReg)

/-! ## The buffers a host stretch leaves alone

Every operation of a stretch writes one literal reference, so "no operation of the stretch writes `b`" is a conjunction
of inequalities between literal references, each decided. -/

/-- No operation of the named stretch writes the buffer the expected type names. -/
local macro "nw " ops:ident : term =>
  `(List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- The named stretch leaves the buffer as it found it. -/
local macro "hskip " ops:ident : term => `(StableHlo.after_of_forall_not_mem _ _ (nw $ops))

/-! ## Typed references

The gather calls are printed over typed references, whose operations move a value between the reference's own buffer
type and the carried type along an equation that is the identity at a literal reference. -/

/-- A typed reference's two transports cancel. -/
private theorem ofBuf_toBuf {T : BufTy} (x : StableHlo.TRef sig T) (v : T.Contents (Elt Ideal)) :
    x.ofBuf (x.toBuf v) = v := by
  obtain ⟨r, rfl, _, _⟩ := x; rfl

private theorem ofBuf_v1 (h1 h2 h3) (v : (main_v1 : Ref sig .tc).ty.Contents (Elt Ideal)) :
    (StableHlo.TRef.of main_v1 h1 h2 h3 : StableHlo.TRef sig ⟨S1250000, .i32⟩).ofBuf v = v := rfl
private theorem ofBuf_v3 (h1 h2 h3) (v : (main_v3 : Ref sig .tc).ty.Contents (Elt Ideal)) :
    (StableHlo.TRef.of main_v3 h1 h2 h3 : StableHlo.TRef sig ⟨S1250000, .i32⟩).ofBuf v = v := rfl
private theorem ofBuf_v33 (h1 h2 h3) (v : (main_v33 : Ref sig .tc).ty.Contents (Elt Ideal)) :
    (StableHlo.TRef.of main_v33 h1 h2 h3 : StableHlo.TRef sig ⟨S100000x64, .f32⟩).ofBuf v = v := rfl
private theorem toBuf_v34 (h1 h2 h3) (v : (⟨S1250000x64, .f32⟩ : BufTy).Contents (Elt Ideal)) :
    (StableHlo.TRef.of main_v34 h1 h2 h3 : StableHlo.TRef sig ⟨S1250000x64, .f32⟩).toBuf v = v := rfl
private theorem toBuf_v35 (h1 h2 h3) (v : (⟨S1250000x64, .f32⟩ : BufTy).Contents (Elt Ideal)) :
    (StableHlo.TRef.of main_v35 h1 h2 h3 : StableHlo.TRef sig ⟨S1250000x64, .f32⟩).toBuf v = v := rfl

/-! ## What each host stretch writes, at any entry contents `V` -/

section Stretches

variable (V : Valuation τ sig (Elt Ideal))

/-- The first stretch splits the edge list into its two rows. -/
private theorem h0_v1 : StableHlo.after hostOps0 V (Proc.devRef .tc main_v1) = rowIdx (V (Proc.devRef .tc main_arg1)) := by
  after_results; rfl
private theorem h0_v3 : StableHlo.after hostOps0 V (Proc.devRef .tc main_v3) = colIdx (V (Proc.devRef .tc main_arg1)) := by
  after_results; rfl

/-- The third gather call: the rows of `main_v33` at the first index vector. -/
private theorem h2_v34 : StableHlo.after hostOps2 V (Proc.devRef .tc main_v34)
    = takeRows (V (Proc.devRef .tc main_v33)) (V (Proc.devRef .tc main_v1)) := by
  after_results_simp
  simp only [ofBuf_toBuf, ofBuf_v1, ofBuf_v33, toBuf_v34]
  rfl
/-- The fourth gather call: the rows of `main_v33` at the second index vector. -/
private theorem h21_v35 : StableHlo.after hostOps2_1 V (Proc.devRef .tc main_v35)
    = takeRows (V (Proc.devRef .tc main_v33)) (V (Proc.devRef .tc main_v3)) := by
  after_results_simp
  simp only [ofBuf_toBuf, ofBuf_v3, ofBuf_v33, toBuf_v35]
  rfl

/-- The round-1 pieces of the message weight and bias. -/
private theorem h22_v39 : StableHlo.after hostOps2_2 V (Proc.devRef .tc main_v39) = destT (wSlab1 (V (Proc.devRef .tc main_arg3))) := by
  after_results; rfl
private theorem h22_v41 : StableHlo.after hostOps2_2 V (Proc.devRef .tc main_v41) = srcT (wSlab1 (V (Proc.devRef .tc main_arg3))) := by
  after_results; rfl
private theorem h22_v43 : StableHlo.after hostOps2_2 V (Proc.devRef .tc main_v43) = attrT (wSlab1 (V (Proc.devRef .tc main_arg3))) := by
  after_results; rfl
private theorem h22_v46 : StableHlo.after hostOps2_2 V (Proc.devRef .tc main_v46) = bRow1 (V (Proc.devRef .tc main_arg4)) := by
  after_results; rfl

/-- The last stretch: the segment sum of the second message region's output, and the round-1 gate slabs. -/
private theorem h3_v50 : StableHlo.after hostOps3 V (Proc.devRef .tc main_v50)
    = segmentSum (V (Proc.devRef .tc main_v1)) (V (Proc.devRef .tc main_v47)) := by
  after_results; rfl
private theorem h3_v53 : StableHlo.after hostOps3 V (Proc.devRef .tc main_v53) = gateT1 (V (Proc.devRef .tc main_arg5)) := by
  after_results; rfl
private theorem h3_v59 : StableHlo.after hostOps3 V (Proc.devRef .tc main_v59) = gateBias1 (V (Proc.devRef .tc main_arg6)) := by
  after_results; rfl
private theorem h3_v56 : StableHlo.after hostOps3 V (Proc.devRef .tc main_v56) = gateT1 (V (Proc.devRef .tc main_arg7)) := by
  after_results; rfl
private theorem h3_v62 : StableHlo.after hostOps3 V (Proc.devRef .tc main_v62) = gateBias1 (V (Proc.devRef .tc main_arg8)) := by
  after_results; rfl

end Stretches

/-! ## The fold at a buffer no region holds as an array: back one boundary at a time -/

section Walks

variable (c : Dev nD) (b : Ref sig .tc)

/-- From the second message region's exit back to the first update region's exit. -/
private theorem W11_eq_W7 (a2 : ∀ w, Pipeline.arrRef spec2 w ≠ b)
    (k22 : ∀ op ∈ (hostOps2_2 : List (HloOp τ sig (Elt Ideal))), Proc.devRef (τ := τ) .tc b ∉ op.writes)
    (k21 : ∀ op ∈ (hostOps2_1 : List (HloOp τ sig (Elt Ideal))), Proc.devRef (τ := τ) .tc b ∉ op.writes)
    (k2 : ∀ op ∈ (hostOps2 : List (HloOp τ sig (Elt Ideal))), Proc.devRef (τ := τ) .tc b ∉ op.writes) :
    W11 m ρ c (Proc.devRef .tc b) = W7 m ρ c (Proc.devRef .tc b) :=
  calc W11 m ρ c (Proc.devRef .tc b)
    _ = W10 m ρ c (Proc.devRef .tc b) := W11_of_ne m ρ c b a2
    _ = W9 m ρ c (Proc.devRef .tc b) := StableHlo.after_of_forall_not_mem _ _ k22
    _ = W8 m ρ c (Proc.devRef .tc b) := StableHlo.after_of_forall_not_mem _ _ k21
    _ = W7 m ρ c (Proc.devRef .tc b) := StableHlo.after_of_forall_not_mem _ _ k2

/-- Across the two gather calls of the second round. -/
private theorem W9_eq_W7
    (k21 : ∀ op ∈ (hostOps2_1 : List (HloOp τ sig (Elt Ideal))), Proc.devRef (τ := τ) .tc b ∉ op.writes)
    (k2 : ∀ op ∈ (hostOps2 : List (HloOp τ sig (Elt Ideal))), Proc.devRef (τ := τ) .tc b ∉ op.writes) :
    W9 m ρ c (Proc.devRef .tc b) = W7 m ρ c (Proc.devRef .tc b) :=
  calc W9 m ρ c (Proc.devRef .tc b)
    _ = W8 m ρ c (Proc.devRef .tc b) := StableHlo.after_of_forall_not_mem _ _ k21
    _ = W7 m ρ c (Proc.devRef .tc b) := StableHlo.after_of_forall_not_mem _ _ k2

/-- From the first update region's exit back through the first round to the end of the first host stretch. -/
private theorem W7_eq_W1 (a1 : ∀ w, Pipeline.arrRef spec1 w ≠ b) (a0 : ∀ w, Pipeline.arrRef spec0 w ≠ b)
    (k1 : ∀ op ∈ (hostOps1 : List (HloOp τ sig (Elt Ideal))), Proc.devRef (τ := τ) .tc b ∉ op.writes)
    (k03 : ∀ op ∈ (hostOps0_3 : List (HloOp τ sig (Elt Ideal))), Proc.devRef (τ := τ) .tc b ∉ op.writes)
    (k02 : ∀ op ∈ (hostOps0_2 : List (HloOp τ sig (Elt Ideal))), Proc.devRef (τ := τ) .tc b ∉ op.writes)
    (k01 : ∀ op ∈ (hostOps0_1 : List (HloOp τ sig (Elt Ideal))), Proc.devRef (τ := τ) .tc b ∉ op.writes) :
    W7 m ρ c (Proc.devRef .tc b) = W1 m ρ c (Proc.devRef .tc b) :=
  calc W7 m ρ c (Proc.devRef .tc b)
    _ = W6 m ρ c (Proc.devRef .tc b) := W7_of_ne m ρ c b a1
    _ = W5 m ρ c (Proc.devRef .tc b) := StableHlo.after_of_forall_not_mem _ _ k1
    _ = W4 m ρ c (Proc.devRef .tc b) := W5_of_ne m ρ c b a0
    _ = W3 m ρ c (Proc.devRef .tc b) := StableHlo.after_of_forall_not_mem _ _ k03
    _ = W2 m ρ c (Proc.devRef .tc b) := StableHlo.after_of_forall_not_mem _ _ k02
    _ = W1 m ρ c (Proc.devRef .tc b) := StableHlo.after_of_forall_not_mem _ _ k01

/-- A buffer the first stretch does not write holds its launch contents after it. -/
private theorem W1_launch
    (k0 : ∀ op ∈ (hostOps0 : List (HloOp τ sig (Elt Ideal))), Proc.devRef (τ := τ) .tc b ∉ op.writes) :
    W1 m ρ c (Proc.devRef .tc b) = m ((c : Thread nD τ).loc b) :=
  (StableHlo.after_of_forall_not_mem _ _ k0).trans rfl

/-- A buffer that nothing before the first update region's exit writes holds its launch contents there. -/
private theorem W7_launch (a1 : ∀ w, Pipeline.arrRef spec1 w ≠ b) (a0 : ∀ w, Pipeline.arrRef spec0 w ≠ b)
    (k1 : ∀ op ∈ (hostOps1 : List (HloOp τ sig (Elt Ideal))), Proc.devRef (τ := τ) .tc b ∉ op.writes)
    (k03 : ∀ op ∈ (hostOps0_3 : List (HloOp τ sig (Elt Ideal))), Proc.devRef (τ := τ) .tc b ∉ op.writes)
    (k02 : ∀ op ∈ (hostOps0_2 : List (HloOp τ sig (Elt Ideal))), Proc.devRef (τ := τ) .tc b ∉ op.writes)
    (k01 : ∀ op ∈ (hostOps0_1 : List (HloOp τ sig (Elt Ideal))), Proc.devRef (τ := τ) .tc b ∉ op.writes)
    (k0 : ∀ op ∈ (hostOps0 : List (HloOp τ sig (Elt Ideal))), Proc.devRef (τ := τ) .tc b ∉ op.writes) :
    W7 m ρ c (Proc.devRef .tc b) = m ((c : Thread nD τ).loc b) :=
  (W7_eq_W1 m ρ c b a1 a0 k1 k03 k02 k01).trans (W1_launch m ρ c b k0)

end Walks

/-- The walk from the first update region's exit to the launch, at a literal argument. -/
local macro "w7launch " b:ident : term =>
  `(W7_launch _ _ _ $b (by decide) (by decide) (nw hostOps1) (nw hostOps0_3) (nw hostOps0_2) (nw hostOps0_1) (nw hostOps0))
/-- The walk from the first update region's exit to the end of the first stretch, at a literal buffer. -/
local macro "w7to1 " b:ident : term =>
  `(W7_eq_W1 _ _ _ $b (by decide) (by decide) (nw hostOps1) (nw hostOps0_3) (nw hostOps0_2) (nw hostOps0_1))
/-- The walk across the second round's host stretches and message region, at a literal buffer. -/
local macro "w11to7 " b:ident : term =>
  `(W11_eq_W7 _ _ _ $b (by decide) (nw hostOps2_2) (nw hostOps2_1) (nw hostOps2))
local macro "w9to7 " b:ident : term => `(W9_eq_W7 _ _ _ $b (nw hostOps2_1) (nw hostOps2))

/-! ## The arguments and the index vectors, where the second round reads them -/

section Reads

variable (c : Dev nD)

private theorem W7_arg3 : W7 m ρ c (Proc.devRef .tc main_arg3) = m ((c : Thread nD τ).loc main_arg3) := w7launch main_arg3
private theorem W7_arg4 : W7 m ρ c (Proc.devRef .tc main_arg4) = m ((c : Thread nD τ).loc main_arg4) := w7launch main_arg4
private theorem W7_arg5 : W7 m ρ c (Proc.devRef .tc main_arg5) = m ((c : Thread nD τ).loc main_arg5) := w7launch main_arg5
private theorem W7_arg6 : W7 m ρ c (Proc.devRef .tc main_arg6) = m ((c : Thread nD τ).loc main_arg6) := w7launch main_arg6
private theorem W7_arg7 : W7 m ρ c (Proc.devRef .tc main_arg7) = m ((c : Thread nD τ).loc main_arg7) := w7launch main_arg7
private theorem W7_arg8 : W7 m ρ c (Proc.devRef .tc main_arg8) = m ((c : Thread nD τ).loc main_arg8) := w7launch main_arg8

/-- The two index vectors are the edge list's rows, from the first stretch on. -/
private theorem W7_v1 : W7 m ρ c (Proc.devRef .tc main_v1) = rowIdx (m ((c : Thread nD τ).loc main_arg1)) :=
  (w7to1 main_v1).trans (h0_v1 (W0 m ρ c))
private theorem W7_v3 : W7 m ρ c (Proc.devRef .tc main_v3) = colIdx (m ((c : Thread nD τ).loc main_arg1)) :=
  (w7to1 main_v3).trans (h0_v3 (W0 m ρ c))

private theorem W9_arg3 : W9 m ρ c (Proc.devRef .tc main_arg3) = m ((c : Thread nD τ).loc main_arg3) :=
  (w9to7 main_arg3).trans (W7_arg3 m ρ c)
private theorem W9_arg4 : W9 m ρ c (Proc.devRef .tc main_arg4) = m ((c : Thread nD τ).loc main_arg4) :=
  (w9to7 main_arg4).trans (W7_arg4 m ρ c)

private theorem W11_arg5 : W11 m ρ c (Proc.devRef .tc main_arg5) = m ((c : Thread nD τ).loc main_arg5) :=
  (w11to7 main_arg5).trans (W7_arg5 m ρ c)
private theorem W11_arg6 : W11 m ρ c (Proc.devRef .tc main_arg6) = m ((c : Thread nD τ).loc main_arg6) :=
  (w11to7 main_arg6).trans (W7_arg6 m ρ c)
private theorem W11_arg7 : W11 m ρ c (Proc.devRef .tc main_arg7) = m ((c : Thread nD τ).loc main_arg7) :=
  (w11to7 main_arg7).trans (W7_arg7 m ρ c)
private theorem W11_arg8 : W11 m ρ c (Proc.devRef .tc main_arg8) = m ((c : Thread nD τ).loc main_arg8) :=
  (w11to7 main_arg8).trans (W7_arg8 m ρ c)
private theorem W11_v1 : W11 m ρ c (Proc.devRef .tc main_v1) = rowIdx (m ((c : Thread nD τ).loc main_arg1)) :=
  (w11to7 main_v1).trans (W7_v1 m ρ c)

end Reads

/-! ## At the second message region's entry (the first update region's output is `W7 … main_v33`) -/

theorem V10_dest (c : Dev nD) : V10 m ρ c main_v35 = takeRows (W7 m ρ c (Proc.devRef .tc main_v33)) (colIdx (m ((c : Thread nD τ).loc main_arg1))) :=
  calc W10 m ρ c (Proc.devRef .tc main_v35)
    _ = W9 m ρ c (Proc.devRef .tc main_v35) := hskip hostOps2_2
    _ = takeRows (W8 m ρ c (Proc.devRef .tc main_v33)) (W8 m ρ c (Proc.devRef .tc main_v3)) := h21_v35 (W8 m ρ c)
    _ = takeRows (W7 m ρ c (Proc.devRef .tc main_v33)) (W7 m ρ c (Proc.devRef .tc main_v3)) :=
          congrArg₂ takeRows (hskip hostOps2) (hskip hostOps2)
    _ = takeRows (W7 m ρ c (Proc.devRef .tc main_v33)) (colIdx (m ((c : Thread nD τ).loc main_arg1))) :=
          congrArg (takeRows _) (W7_v3 m ρ c)
theorem V10_src (c : Dev nD) : V10 m ρ c main_v34 = takeRows (W7 m ρ c (Proc.devRef .tc main_v33)) (rowIdx (m ((c : Thread nD τ).loc main_arg1))) :=
  calc W10 m ρ c (Proc.devRef .tc main_v34)
    _ = W9 m ρ c (Proc.devRef .tc main_v34) := hskip hostOps2_2
    _ = W8 m ρ c (Proc.devRef .tc main_v34) := hskip hostOps2_1
    _ = takeRows (W7 m ρ c (Proc.devRef .tc main_v33)) (W7 m ρ c (Proc.devRef .tc main_v1)) := h2_v34 (W7 m ρ c)
    _ = takeRows (W7 m ρ c (Proc.devRef .tc main_v33)) (rowIdx (m ((c : Thread nD τ).loc main_arg1))) :=
          congrArg (takeRows _) (W7_v1 m ρ c)
theorem V10_attr (c : Dev nD) : V10 m ρ c main_arg2 = (m ((c : Thread nD τ).loc main_arg2)) :=
  calc W10 m ρ c (Proc.devRef .tc main_arg2)
    _ = W9 m ρ c (Proc.devRef .tc main_arg2) := hskip hostOps2_2
    _ = W7 m ρ c (Proc.devRef .tc main_arg2) := w9to7 main_arg2
    _ = W6 m ρ c (Proc.devRef .tc main_arg2) := W7_of_ne m ρ c main_arg2 (by decide)
    _ = W5 m ρ c (Proc.devRef .tc main_arg2) := hskip hostOps1
    _ = W4 m ρ c (Proc.devRef .tc main_arg2) :=
          (W5_arr m ρ c 2).trans (((dat0 (V4 m ρ) c).arrAt_in 2 rfl _).trans (A_eq0 (V4 m ρ) c 2))
    _ = W3 m ρ c (Proc.devRef .tc main_arg2) := hskip hostOps0_3
    _ = W2 m ρ c (Proc.devRef .tc main_arg2) := hskip hostOps0_2
    _ = W1 m ρ c (Proc.devRef .tc main_arg2) := hskip hostOps0_1
    _ = m ((c : Thread nD τ).loc main_arg2) := W1_launch m ρ c main_arg2 (nw hostOps0)
theorem V10_wd (c : Dev nD) : V10 m ρ c main_v39 = destT (wSlab1 (m ((c : Thread nD τ).loc main_arg3))) :=
  (h22_v39 (W9 m ρ c)).trans (congrArg (fun x => destT (wSlab1 x)) (W9_arg3 m ρ c))
theorem V10_ws (c : Dev nD) : V10 m ρ c main_v41 = srcT (wSlab1 (m ((c : Thread nD τ).loc main_arg3))) :=
  (h22_v41 (W9 m ρ c)).trans (congrArg (fun x => srcT (wSlab1 x)) (W9_arg3 m ρ c))
theorem V10_wa (c : Dev nD) : V10 m ρ c main_v43 = attrT (wSlab1 (m ((c : Thread nD τ).loc main_arg3))) :=
  (h22_v43 (W9 m ρ c)).trans (congrArg (fun x => attrT (wSlab1 x)) (W9_arg3 m ρ c))
theorem V10_b (c : Dev nD) : V10 m ρ c main_v46 = bRow1 (m ((c : Thread nD τ).loc main_arg4)) :=
  (h22_v46 (W9 m ρ c)).trans (congrArg bRow1 (W9_arg4 m ρ c))

/-! ## At the second update region's entry (the second message region's output is `W11 … main_v47`) -/

theorem V12_agg (c : Dev nD) : V12 m ρ c main_v50 = segmentSum (rowIdx (m ((c : Thread nD τ).loc main_arg1))) (W11 m ρ c (Proc.devRef .tc main_v47)) :=
  (h3_v50 (W11 m ρ c)).trans (congrArg (fun x => segmentSum x _) (W11_v1 m ρ c))
theorem V12_x (c : Dev nD) : V12 m ρ c main_v33 = W7 m ρ c (Proc.devRef .tc main_v33) :=
  calc W12 m ρ c (Proc.devRef .tc main_v33)
    _ = W11 m ρ c (Proc.devRef .tc main_v33) := hskip hostOps3
    _ = W7 m ρ c (Proc.devRef .tc main_v33) := w11to7 main_v33
theorem V12_wih (c : Dev nD) : V12 m ρ c main_v53 = gateT1 (m ((c : Thread nD τ).loc main_arg5)) :=
  (h3_v53 (W11 m ρ c)).trans (congrArg gateT1 (W11_arg5 m ρ c))
theorem V12_bih (c : Dev nD) : V12 m ρ c main_v59 = gateBias1 (m ((c : Thread nD τ).loc main_arg6)) :=
  (h3_v59 (W11 m ρ c)).trans (congrArg gateBias1 (W11_arg6 m ρ c))
theorem V12_whh (c : Dev nD) : V12 m ρ c main_v56 = gateT1 (m ((c : Thread nD τ).loc main_arg7)) :=
  (h3_v56 (W11 m ρ c)).trans (congrArg gateT1 (W11_arg7 m ρ c))
theorem V12_bhh (c : Dev nD) : V12 m ρ c main_v62 = gateBias1 (m ((c : Thread nD τ).loc main_arg8)) :=
  (h3_v62 (W11 m ρ c)).trans (congrArg gateBias1 (W11_arg8 m ρ c))

end Cert.KernelIdeal.Reads2

end
-- ==== Proof.KernelLayout.lean ====
/-
  The weight pieces a region's windows read, read back to the stacked weights.

  The kernel program hands a message region the round's `64 × 129` weight cut into three column ranges, each transposed, and
  the bias as a row; it hands an update region the round's two `192 × 64` gate weights transposed and the gate biases as rows.
  Entry `(k, h)` of a transposed piece is entry `(h, offset + k)` of the round's slab, so a region's function of its window
  arrays is the round's stage of the stacked weights.
-/
import proofs.«416006_j14628658610878_1_alg».proof.Proof.KernelTerms
import proofs.«416006_j14628658610878_1_alg».proof.Proof.Spec
import Idealize.ShloMosaic.Lib.Pipeline.Value
import Idealize.ShloMosaic.Lib.ValueIdx
import Idealize.ShloMosaic.Lib.ValueLayout

noncomputable section

namespace Cert.KernelIdeal.Layout

open Idealize.ShloMosaic Idealize.ShloMosaic.ValueIdx
open Cert.KernelIdeal Cert.KernelIdeal.Gen Cert.KernelIdeal.Terms Cert.MessagePassing

/-! ## Each weight piece read at an index -/

/-- Round 0's slab at `(h, c)` is the stacked weight at `(0, h, c)`. -/
private theorem wSlab0_apply (W : FVec Ideal S2x64x129 .f32) (h : Fin 64) (c : Fin 129) :
    wSlab0 W (ix2 h c) = W (ix3 (0 : Fin 2) h c) := by
  unfold wSlab0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Round 1's slab at `(h, c)` is the stacked weight at `(1, h, c)`. -/
private theorem wSlab1_apply (W : FVec Ideal S2x64x129 .f32) (h : Fin 64) (c : Fin 129) :
    wSlab1 W (ix2 h c) = W (ix3 (1 : Fin 2) h c) := by
  unfold wSlab1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The destination piece at `(k, h)` is the slab at `(h, k)`. -/
private theorem destT_apply (Wt : FVec Ideal S64x129 .f32) (k h : Fin 64) :
    destT Wt (ix2 k h) = Wt (ix2 h (destCol k)) := by
  unfold destT
  rw [transpose_ix2_apply]
  exact slice2_axis1_apply 0 Wt _ h k (destCol k) (Nat.zero_add _).symm

/-- The source piece at `(k, h)` is the slab at `(h, 64 + k)`. -/
private theorem srcT_apply (Wt : FVec Ideal S64x129 .f32) (k h : Fin 64) :
    srcT Wt (ix2 k h) = Wt (ix2 h (srcCol k)) := by
  unfold srcT
  rw [transpose_ix2_apply]
  exact slice2_axis1_apply 64 Wt _ h k (srcCol k) rfl

/-- The attribute piece at `(k, h)` is the slab at `(h, 128 + k)`. -/
private theorem attrT_apply (Wt : FVec Ideal S64x129 .f32) (k : Fin 1) (h : Fin 64) :
    attrT Wt (ix2 k h) = Wt (ix2 h (attrCol k)) := by
  unfold attrT
  rw [transpose_ix2_apply]
  exact slice2_axis1_apply 128 Wt _ h k (attrCol k) rfl

/-- Round 0's bias row at `(0, h)` is the stacked bias at `(0, h)`. -/
private theorem bRow0_apply (B : FVec Ideal S2x64 .f32) (h : Fin 64) :
    bRow0 B (ix2 (0 : Fin 1) h) = B (ix2 (0 : Fin 2) h) := by
  unfold bRow0
  rw [shapeCast_a_1a_apply, shapeCast_1a_a_apply]
  exact slice2_axis0_apply 0 B _ (0 : Fin 1) h (0 : Fin 2) rfl

/-- Round 1's bias row at `(0, h)` is the stacked bias at `(1, h)`. -/
private theorem bRow1_apply (B : FVec Ideal S2x64 .f32) (h : Fin 64) :
    bRow1 B (ix2 (0 : Fin 1) h) = B (ix2 (1 : Fin 2) h) := by
  unfold bRow1
  rw [shapeCast_a_1a_apply, shapeCast_1a_a_apply]
  exact slice2_axis0_apply 1 B _ (0 : Fin 1) h (1 : Fin 2) rfl

/-- Round 0's transposed gate weight at `(k, q)` is the stacked gate weight at `(0, q, k)`. -/
private theorem gateT0_apply (G : FVec Ideal S2x192x64 .f32) (k : Fin 64) (q : Fin 192) :
    gateT0 G (ix2 k q) = G (ix3 (0 : Fin 2) q k) := by
  unfold gateT0
  rw [transpose_ix2_apply, shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Round 1's transposed gate weight at `(k, q)` is the stacked gate weight at `(1, q, k)`. -/
private theorem gateT1_apply (G : FVec Ideal S2x192x64 .f32) (k : Fin 64) (q : Fin 192) :
    gateT1 G (ix2 k q) = G (ix3 (1 : Fin 2) q k) := by
  unfold gateT1
  rw [transpose_ix2_apply, shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Round 0's gate bias row at `(0, q)` is the stacked gate bias at `(0, q)`. -/
private theorem gateBias0_apply (b : FVec Ideal S2x192 .f32) (q : Fin 192) :
    gateBias0 b (ix2 (0 : Fin 1) q) = b (ix2 (0 : Fin 2) q) := by
  unfold gateBias0
  rw [shapeCast_a_1a_apply, shapeCast_1a_a_apply]
  exact slice2_axis0_apply 0 b _ (0 : Fin 1) q (0 : Fin 2) rfl

/-- Round 1's gate bias row at `(0, q)` is the stacked gate bias at `(1, q)`. -/
private theorem gateBias1_apply (b : FVec Ideal S2x192 .f32) (q : Fin 192) :
    gateBias1 b (ix2 (0 : Fin 1) q) = b (ix2 (1 : Fin 2) q) := by
  unfold gateBias1
  rw [shapeCast_a_1a_apply, shapeCast_1a_a_apply]
  exact slice2_axis0_apply 1 b _ (0 : Fin 1) q (1 : Fin 2) rfl

/-! ## The stages from the pieces -/

/-- A gate's pre-activation from round 0's transposed weight and bias row is the round's pre-activation. -/
private theorem blockGateAt_round0 (v : FVec Ideal S100000x64 .f32) (M : FVec Ideal S2x192x64 .f32) (b : FVec Ideal S2x192 .f32)
    (n : Fin 100000) (q : Fin 192) :
    blockGateAt v (gateT0 M) (gateBias0 b) n q = gateAt 0 v M b n q := by
  unfold blockGateAt gateAt
  rw [gateBias0_apply]
  exact congrArg (· + b (ix2 (0 : Fin 2) q)) (Finset.sum_congr rfl fun k _ => by rw [gateT0_apply])

/-- A gate's pre-activation from round 1's transposed weight and bias row is the round's pre-activation. -/
private theorem blockGateAt_round1 (v : FVec Ideal S100000x64 .f32) (M : FVec Ideal S2x192x64 .f32) (b : FVec Ideal S2x192 .f32)
    (n : Fin 100000) (q : Fin 192) :
    blockGateAt v (gateT1 M) (gateBias1 b) n q = gateAt 1 v M b n q := by
  unfold blockGateAt gateAt
  rw [gateBias1_apply]
  exact congrArg (· + b (ix2 (1 : Fin 2) q)) (Finset.sum_congr rfl fun k _ => by rw [gateT1_apply])

theorem blockMessage_round0 (d s : FVec Ideal S1250000x64 .f32) (a : FVec Ideal S1250000x1 .f32) (W : FVec Ideal S2x64x129 .f32)
    (B : FVec Ideal S2x64 .f32) :
    blockMessage d s a (destT (wSlab0 W)) (srcT (wSlab0 W)) (attrT (wSlab0 W)) (bRow0 B) = message 0 d s a W B := by
  funext j
  obtain ⟨p, q, rfl⟩ : ∃ (p : Fin 1250000) (q : Fin 64), j = ix2 p q := ⟨j 0, j 1, eq_ix2 j⟩
  show blockMessageAt d s a (destT (wSlab0 W)) (srcT (wSlab0 W)) (attrT (wSlab0 W)) (bRow0 B) p q = messageAt 0 d s a W B p q
  simp only [blockMessageAt, messageAt, destT_apply, srcT_apply, attrT_apply, wSlab0_apply, bRow0_apply]

theorem blockMessage_round1 (d s : FVec Ideal S1250000x64 .f32) (a : FVec Ideal S1250000x1 .f32) (W : FVec Ideal S2x64x129 .f32)
    (B : FVec Ideal S2x64 .f32) :
    blockMessage d s a (destT (wSlab1 W)) (srcT (wSlab1 W)) (attrT (wSlab1 W)) (bRow1 B) = message 1 d s a W B := by
  funext j
  obtain ⟨p, q, rfl⟩ : ∃ (p : Fin 1250000) (q : Fin 64), j = ix2 p q := ⟨j 0, j 1, eq_ix2 j⟩
  show blockMessageAt d s a (destT (wSlab1 W)) (srcT (wSlab1 W)) (attrT (wSlab1 W)) (bRow1 B) p q = messageAt 1 d s a W B p q
  simp only [blockMessageAt, messageAt, destT_apply, srcT_apply, attrT_apply, wSlab1_apply, bRow1_apply]

theorem blockUpdate_round0 (agg x : FVec Ideal S100000x64 .f32) (Wih Whh : FVec Ideal S2x192x64 .f32) (Bih Bhh : FVec Ideal S2x192 .f32) :
    blockUpdate agg x (gateT0 Wih) (gateBias0 Bih) (gateT0 Whh) (gateBias0 Bhh) = update 0 agg x Wih Whh Bih Bhh := by
  funext j
  obtain ⟨n, h, rfl⟩ : ∃ (n : Fin 100000) (h : Fin 64), j = ix2 n h := ⟨j 0, j 1, eq_ix2 j⟩
  show blockUpdateAt agg x (gateT0 Wih) (gateBias0 Bih) (gateT0 Whh) (gateBias0 Bhh) n h = updateAt 0 agg x Wih Whh Bih Bhh n h
  simp only [blockUpdateAt, updateAt, blockGateAt_round0]

theorem blockUpdate_round1 (agg x : FVec Ideal S100000x64 .f32) (Wih Whh : FVec Ideal S2x192x64 .f32) (Bih Bhh : FVec Ideal S2x192 .f32) :
    blockUpdate agg x (gateT1 Wih) (gateBias1 Bih) (gateT1 Whh) (gateBias1 Bhh) = update 1 agg x Wih Whh Bih Bhh := by
  funext j
  obtain ⟨n, h, rfl⟩ : ∃ (n : Fin 100000) (h : Fin 64), j = ix2 n h := ⟨j 0, j 1, eq_ix2 j⟩
  show blockUpdateAt agg x (gateT1 Wih) (gateBias1 Bih) (gateT1 Whh) (gateBias1 Bhh) n h = updateAt 1 agg x Wih Whh Bih Bhh n h
  simp only [blockUpdateAt, updateAt, blockGateAt_round1]

end Cert.KernelIdeal.Layout

end
-- ==== Proof.IndexRange.lean ====
/-
  The edge list names nodes: every entry of it lies in `[0, 100000)`, so no gathered row is replaced.

  The precondition's last conjunct says that every entry `i` of the edge list has `0 ≤ i` and `i < 100000` as signed
  words. For such an entry the wrap leaves it alone (`i` is not negative), and the wrapped index passes both of the
  gather's range tests (`0 ≤ i` and `i ≤ 99999`), so the select after the gather keeps every gathered row: the kernel
  program's gather IS the plain gather of rows, whatever table it reads.
-/
import proofs.«416006_j14628658610878_1_alg».proof.Proof.KernelTerms
import proofs.«416006_j14628658610878_1_alg».proof.Proof.Gen.Pre_finite_inputs
import Idealize.ShloMosaic.Lib.StableHlo.Predicate
import Idealize.ShloMosaic.Lib.ReduceAll
import Idealize.ShloMosaic.Lib.ValueIdx

noncomputable section

namespace Cert.KernelIdeal.IndexRange

open Idealize.ShloMosaic Idealize.ShloMosaic.ValueIdx
open Cert.KernelIdeal Cert.KernelIdeal.Gen Cert.KernelIdeal.Terms

variable (x : FVec Ideal S100000x64 .f32) (E : IVec S2x1250000 32) (a : FVec Ideal S1250000x1 .f32) (W : FVec Ideal S2x64x129 .f32)
  (B : FVec Ideal S2x64 .f32) (Wih : FVec Ideal S2x192x64 .f32) (Bih : FVec Ideal S2x192 .f32) (Whh : FVec Ideal S2x192x64 .f32)
  (Bhh : FVec Ideal S2x192 .f32)

/-- The scalar shape has exactly one index. -/
private instance : Subsingleton Cert.Pre_finite_inputs.S_.Idx := ⟨fun _ _ => funext fun d => d.elim0⟩

/-- A left fold by `and` that starts at 1 and meets only 1s is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduction by `and` from 1 of an array of 1s is 1 at every result index. -/
private theorem reduce_andi_ones {s t u : Shape} {axes : List (Fin s.rank)} (p : s.Idx → BitVec 1) (init : u.Idx → BitVec 1)
    (h : s.ReducesTo axes t) (hu : 0 < u.numel) (hinit : ∀ k, init k = 1#1) (hp : ∀ i, p i = 1#1) (j : t.Idx) :
    Host.reduce IntOp.andi p init h hu j = 1#1 := by
  rw [Host.reduce_eq_foldl, hinit]
  exact foldl_andi_ones p hp _

/-- The two literals the range tests compare with, read as signed integers. -/
private theorem toInt_zero : (0#32 : BitVec 32).toInt = 0 := by decide
private theorem toInt_100000 : (100000#32 : BitVec 32).toInt = 100000 := by decide
private theorem toInt_99999 : (99999#32 : BitVec 32).toInt = 99999 := by decide

/-- THE PRECONDITION'S LAST CONJUNCT, DECODED: every entry of the edge list lies in `[0, 100000)` as a signed word. -/
theorem edge_range (hpre : Cert.Pre_finite_inputs.fn (F := Ideal) x E a W B Wih Bih Whh Bhh = fun _ => 1#1)
    (j : S2x1250000.Idx) : 0 ≤ (E j).toInt ∧ (E j).toInt < 100000 := by
  have e := congrFun hpre ix0
  dsimp only [Cert.Pre_finite_inputs.fn, Cert.Pre_finite_inputs.fn_part1, Cert.Pre_finite_inputs.fn_part2] at e
  obtain ⟨-, hall⟩ := IntOp.andi_eq_one.1 e
  obtain ⟨hge, hlt⟩ := IntOp.andi_eq_one.1 (Host.reduce_andi_all _ _ _ _ _ hall j)
  have h0 : (0#32 : BitVec 32).toInt ≤ (E j).toInt := IntOp.cmpi_sge.1 hge
  have h1 : (E j).toInt < (100000#32 : BitVec 32).toInt := IntOp.cmpi_slt.1 hlt
  rw [toInt_zero] at h0
  rw [toInt_100000] at h1
  exact ⟨h0, h1⟩

section Middle

variable (i : IVec S1250000 32) (hi : ∀ k, 0 ≤ (i k).toInt ∧ (i k).toInt < 100000)
include hi

/-- An index that is not negative is left alone by the wrap. -/
theorem wrap_apply (k : S1250000.Idx) : wrap i k = i k := by
  have hc : IntOp.cmpi .slt (i k) 0#32 = 0#1 := eq_zero_of_ne_one fun h => by
    have h' := IntOp.cmpi_slt.1 h
    rw [toInt_zero] at h'
    have := (hi k).1
    omega
  show Scalar.select (IntOp.cmpi .slt (i k) 0#32) (IntOp.addi (i k) 100000#32) (i k) = i k
  rw [hc, select_zero]

/-- Every entry of the column of start indices is an entry of the index vector itself. -/
theorem starts_apply (p : S1250000x1.Idx) : ∃ k, starts i p = i k := ⟨_, wrap_apply i hi _⟩

/-- Every edge passes both range tests of the gather. -/
theorem inRange_apply (k : S1250000.Idx) : inRange i k = 1#1 := by
  unfold inRange
  refine reduce_andi_ones _ _ _ _ (fun _ => rfl) (fun p => ?_) k
  obtain ⟨k', hk'⟩ := starts_apply i hi p
  show IntOp.andi (IntOp.cmpi .sge (starts i p) 0#32) (IntOp.cmpi .sle (starts i p) 99999#32) = 1#1
  rw [hk', IntOp.andi_eq_one, IntOp.cmpi_sge, IntOp.cmpi_sle, toInt_zero, toInt_99999]
  have := hi k'
  omega

/-- THE MIDDLE LEMMA: at an index vector whose entries all lie in `[0, 100000)` the select after the gather keeps every
    gathered row, so the kernel program's gather is the plain gather. -/
theorem takeRows_eq_rows (y : FVec Ideal S100000x64 .f32) : takeRows y i = rows y i := by
  funext j
  have hb : broadcastInDim S1250000x64 ![0] bcast_S1250000_S1250000x64_0 (inRange i) j = 1#1 := by
    unfold broadcastInDim
    exact inRange_apply i hi _
  unfold takeRows
  rw [select_apply, hb, select_one]

end Middle

/-- Under the precondition the gather at the edges' source nodes keeps every row, whatever table `y` it reads. -/
theorem takeRows_row (hpre : Cert.Pre_finite_inputs.fn (F := Ideal) x E a W B Wih Bih Whh Bhh = fun _ => 1#1)
    (y : FVec Ideal S100000x64 .f32) : takeRows y (rowIdx E) = rows y (rowIdx E) :=
  takeRows_eq_rows (rowIdx E) (fun _ => edge_range x E a W B Wih Bih Whh Bhh hpre _) y

/-- Under the precondition the gather at the edges' destination nodes keeps every row, whatever table `y` it reads. -/
theorem takeRows_col (hpre : Cert.Pre_finite_inputs.fn (F := Ideal) x E a W B Wih Bih Whh Bhh = fun _ => 1#1)
    (y : FVec Ideal S100000x64 .f32) : takeRows y (colIdx E) = rows y (colIdx E) :=
  takeRows_eq_rows (colIdx E) (fun _ => edge_range x E a W B Wih Bih Whh Bhh hpre _) y

end Cert.KernelIdeal.IndexRange

end
-- ==== Proof.KernelValue.lean ====
/-
  The idealized kernel program's result is the two rounds' stages of its arguments.

  Round by round: the first message region leaves the round-0 messages of the gathered rows of the features; the host sums them
  per segment; the first update region leaves the round-0 update of that aggregate and the features; the second message region
  leaves the round-1 messages of the gathered rows of the UPDATED features; the host sums them; the second update region
  leaves the round-1 update, which is the program's result. Each region's output is its function of the arrays its windows
  read, those arrays are the host terms of the arguments (or of the previous region's output), the gathers keep every row because
  the edge list names nodes, and a region's function of the weight pieces is the round's stage of the stacked weights.
-/
import proofs.«416006_j14628658610878_1_alg».proof.Proof.KernelRun
import proofs.«416006_j14628658610878_1_alg».proof.Proof.KMsgRegion0
import proofs.«416006_j14628658610878_1_alg».proof.Proof.KMsgRegion2
import proofs.«416006_j14628658610878_1_alg».proof.Proof.KGruRegion1
import proofs.«416006_j14628658610878_1_alg».proof.Proof.KGruRegion3
import proofs.«416006_j14628658610878_1_alg».proof.Proof.KernelReadsA
import proofs.«416006_j14628658610878_1_alg».proof.Proof.KernelReadsB
import proofs.«416006_j14628658610878_1_alg».proof.Proof.KernelLayout
import proofs.«416006_j14628658610878_1_alg».proof.Proof.IndexRange

set_option maxRecDepth 16384

noncomputable section

namespace Cert.KernelIdeal.Value

open Idealize.ShloMosaic Idealize.ShloMosaic.TcCoe Idealize.SL.Sem
open Cert.KernelIdeal Cert.KernelIdeal.Gen Cert.KernelIdeal.Terms Cert.MessagePassing

/-! ## The two rounds as functions of the argument arrays -/

section Pipeline
variable (X : FVec Ideal S100000x64 .f32) (E : IVec S2x1250000 32) (A : FVec Ideal S1250000x1 .f32) (W : FVec Ideal S2x64x129 .f32)
  (B : FVec Ideal S2x64 .f32) (Wih : FVec Ideal S2x192x64 .f32) (Bih : FVec Ideal S2x192 .f32) (Whh : FVec Ideal S2x192x64 .f32)
  (Bhh : FVec Ideal S2x192 .f32)

/-- Round 0's messages. -/
def messages0 : FVec Ideal S1250000x64 .f32 := message 0 (rows X (colIdx E)) (rows X (rowIdx E)) A W B
/-- The features after round 0. -/
def features1 : FVec Ideal S100000x64 .f32 := update 0 (segmentSum (rowIdx E) (messages0 X E A W B)) X Wih Whh Bih Bhh
/-- Round 1's messages, of the features after round 0. -/
def messages1 : FVec Ideal S1250000x64 .f32 :=
  message 1 (rows (features1 X E A W B Wih Bih Whh Bhh) (colIdx E)) (rows (features1 X E A W B Wih Bih Whh Bhh) (rowIdx E)) A W B
/-- The features after round 1: the result. -/
def features2 : FVec Ideal S100000x64 .f32 :=
  update 1 (segmentSum (rowIdx E) (messages1 X E A W B Wih Bih Whh Bhh)) (features1 X E A W B Wih Bih Whh Bhh) Wih Whh Bih Bhh

end Pipeline

/-! ## The regions' outputs, in order -/

variable (m : (ℓ : Loc nD τ sig) → Buf (Elt Ideal) ℓ) (ρ : Dev nD → PrngReg)

/-- The precondition at core `c`: the printed predicate of the argument arrays is all ones. -/
abbrev PreAt (c : Dev nD) : Prop :=
  Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1

/-- The first message region's output is round 0's messages. -/
theorem region0 (c : Dev nD) (hpre : PreAt m c) :
    W5 m ρ c (Proc.devRef .tc main_v17) = messages0 (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 7).trans ((MsgRegion0.final (V4 m ρ) c).trans ?_)
  rw [Reads.V4_dest m ρ c, Reads.V4_src m ρ c, Reads.V4_attr m ρ c, Reads.V4_wd m ρ c, Reads.V4_ws m ρ c, Reads.V4_wa m ρ c,
    Reads.V4_b m ρ c, IndexRange.takeRows_col _ _ _ _ _ _ _ _ _ hpre, IndexRange.takeRows_row _ _ _ _ _ _ _ _ _ hpre,
    Layout.blockMessage_round0]
  rfl

/-- The first update region's output is the features after round 0. -/
theorem region1 (c : Dev nD) (hpre : PreAt m c) :
    W7 m ρ c (Proc.devRef .tc main_v33) = features1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 6).trans ((GruRegion1.final (V6 m ρ) c).trans ?_)
  rw [Reads.V6_agg m ρ c, Reads.V6_x m ρ c, Reads.V6_wih m ρ c, Reads.V6_bih m ρ c, Reads.V6_whh m ρ c, Reads.V6_bhh m ρ c,
    region0 m ρ c hpre, Layout.blockUpdate_round0]
  rfl

/-- The second message region's output is round 1's messages. -/
theorem region2 (c : Dev nD) (hpre : PreAt m c) :
    W11 m ρ c (Proc.devRef .tc main_v47) = messages1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 7).trans ((MsgRegion2.final (V10 m ρ) c).trans ?_)
  rw [Reads2.V10_dest m ρ c, Reads2.V10_src m ρ c, Reads2.V10_attr m ρ c, Reads2.V10_wd m ρ c, Reads2.V10_ws m ρ c,
    Reads2.V10_wa m ρ c, Reads2.V10_b m ρ c, IndexRange.takeRows_col _ _ _ _ _ _ _ _ _ hpre, IndexRange.takeRows_row _ _ _ _ _ _ _ _ _ hpre,
    region1 m ρ c hpre, Layout.blockMessage_round1]
  rfl

/-- The second update region's output — the program's result — is the features after round 1. -/
theorem region3 (c : Dev nD) (hpre : PreAt m c) :
    W13 m ρ c (Proc.devRef .tc main_v63) = features2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 6).trans ((GruRegion3.final (V12 m ρ) c).trans ?_)
  rw [Reads2.V12_agg m ρ c, Reads2.V12_x m ρ c, Reads2.V12_wih m ρ c, Reads2.V12_bih m ρ c, Reads2.V12_whh m ρ c, Reads2.V12_bhh m ρ c,
    region2 m ρ c hpre, region1 m ρ c hpre, Layout.blockUpdate_round1]
  rfl

end Cert.KernelIdeal.Value

end
-- ==== Proof.RefTerms.lean ====
/-
  The reference program's stages, as named functions of arrays.

  The reference computes each round with whole-array host operations: the two gathers of node-feature rows (a negative index
  wrapped by the table's height), their concatenation with the edge attribute along the feature axis, ONE product with the
  round's transposed `129 × 64` weight plus the bias, the segment sum, the two gate products plus biases, and the cell's
  elementwise arithmetic with the logistic function spelled `1 / (1 + e^(-v))`.
-/
import proofs.«416006_j14628658610878_1_alg».proof.Proof.Gen.ReferenceIdeal
import Idealize.ShloMosaic.PureOps.Ideal

noncomputable section

namespace Cert.ReferenceIdeal.Terms

open Idealize.ShloMosaic Cert.ReferenceIdeal Cert.ReferenceIdeal.Gen

/-- The first row of the edge list. -/
def rowIdx (E : IVec S2x1250000 32) : IVec S1250000 32 :=
  shapeCast _ (extractStridedSlice S1x1250000 ![0, 0] E slices_S2x1250000_S1x1250000_0_0) shapeCasts_S1x1250000_S1250000
/-- The second row of the edge list. -/
def colIdx (E : IVec S2x1250000 32) : IVec S1250000 32 :=
  shapeCast _ (extractStridedSlice S1x1250000 ![1, 0] E slices_S2x1250000_S1x1250000_1_0) shapeCasts_S1x1250000_S1250000
/-- The rows of the table `x` at an index vector, negative entries wrapped by `100000`. -/
def rows (x : FVec Ideal S100000x64 .f32) (i : IVec S1250000 32) : FVec Ideal S1250000x64 .f32 :=
  Host.gather gather_S100000x64_S1250000x1_S1250000x64_1_0_n_n_0_1_164 x
    (broadcastInDim S1250000x1 ![0] bcast_S1250000_S1250000x1_0
      (select (cmpi .slt i (broadcastInDim S1250000 ![] bcast_S_S1250000 (constantI S_ 32 0#32)))
        (addi i (broadcastInDim S1250000 ![] bcast_S_S1250000 (constantI S_ 32 100000#32))) i))
/-- The messages summed per segment, from zero. -/
def segmentSum (i : IVec S1250000 32) (msgs : FVec Ideal S1250000x64 .f32) : FVec Ideal S100000x64 .f32 :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 i) msgs

/-- Round 0's messages: the concatenated inputs times the transposed weight, plus the bias. -/
def message0 (dest src : FVec Ideal S1250000x64 .f32) (attr : FVec Ideal S1250000x1 .f32) (W : FVec Ideal S2x64x129 .f32)
    (B : FVec Ideal S2x64 .f32) : FVec Ideal S1250000x64 .f32 :=
  addf (Host.dotGeneral dot_S1250000x129_S129x64_S1250000x64_1_0_0_1_n_n none
      (concatenate S1250000x129 1 [⟨S1250000x64, dest⟩, ⟨S1250000x64, src⟩, ⟨S1250000x1, attr⟩] concatenates_S1250000x64_S1250000x64_S1250000x1_S1250000x129_d1)
      (transpose S129x64 [1, 0] (shapeCast _ (extractStridedSlice S1x64x129 ![0, 0, 0] W slices_S2x64x129_S1x64x129_0_0_0) shapeCasts_S1x64x129_S64x129) transposes_S64x129_S129x64_1_0))
    (broadcastInDim S1250000x64 ![0, 1] bcast_S1x64_S1250000x64_0_1 (broadcastInDim S1x64 ![1] bcast_S64_S1x64_1
      (shapeCast _ (extractStridedSlice S1x64 ![0, 0] B slices_S2x64_S1x64_0_0) shapeCasts_S1x64_S64)))
/-- Round 1's messages. -/
def message1 (dest src : FVec Ideal S1250000x64 .f32) (attr : FVec Ideal S1250000x1 .f32) (W : FVec Ideal S2x64x129 .f32)
    (B : FVec Ideal S2x64 .f32) : FVec Ideal S1250000x64 .f32 :=
  addf (Host.dotGeneral dot_S1250000x129_S129x64_S1250000x64_1_0_0_1_n_n none
      (concatenate S1250000x129 1 [⟨S1250000x64, dest⟩, ⟨S1250000x64, src⟩, ⟨S1250000x1, attr⟩] concatenates_S1250000x64_S1250000x64_S1250000x1_S1250000x129_d1)
      (transpose S129x64 [1, 0] (shapeCast _ (extractStridedSlice S1x64x129 ![1, 0, 0] W slices_S2x64x129_S1x64x129_1_0_0) shapeCasts_S1x64x129_S64x129) transposes_S64x129_S129x64_1_0))
    (broadcastInDim S1250000x64 ![0, 1] bcast_S1x64_S1250000x64_0_1 (broadcastInDim S1x64 ![1] bcast_S64_S1x64_1
      (shapeCast _ (extractStridedSlice S1x64 ![1, 0] B slices_S2x64_S1x64_1_0) shapeCasts_S1x64_S64)))

/-- Round 0's gate pre-activations of `v`: `v` times the transposed gate weight, plus the gate bias. -/
def gate0 (v : FVec Ideal S100000x64 .f32) (G : FVec Ideal S2x192x64 .f32) (b : FVec Ideal S2x192 .f32) : FVec Ideal S100000x192 .f32 :=
  addf (Host.dotGeneral dot_S100000x64_S64x192_S100000x192_1_0_0_1_n_n none v
      (transpose S64x192 [1, 0] (shapeCast _ (extractStridedSlice S1x192x64 ![0, 0, 0] G slices_S2x192x64_S1x192x64_0_0_0) shapeCasts_S1x192x64_S192x64) transposes_S192x64_S64x192_1_0))
    (broadcastInDim S100000x192 ![0, 1] bcast_S1x192_S100000x192_0_1 (broadcastInDim S1x192 ![1] bcast_S192_S1x192_1
      (shapeCast _ (extractStridedSlice S1x192 ![0, 0] b slices_S2x192_S1x192_0_0) shapeCasts_S1x192_S192)))
/-- Round 1's gate pre-activations. -/
def gate1 (v : FVec Ideal S100000x64 .f32) (G : FVec Ideal S2x192x64 .f32) (b : FVec Ideal S2x192 .f32) : FVec Ideal S100000x192 .f32 :=
  addf (Host.dotGeneral dot_S100000x64_S64x192_S100000x192_1_0_0_1_n_n none v
      (transpose S64x192 [1, 0] (shapeCast _ (extractStridedSlice S1x192x64 ![1, 0, 0] G slices_S2x192x64_S1x192x64_1_0_0) shapeCasts_S1x192x64_S192x64) transposes_S192x64_S64x192_1_0))
    (broadcastInDim S100000x192 ![0, 1] bcast_S1x192_S100000x192_0_1 (broadcastInDim S1x192 ![1] bcast_S192_S1x192_1
      (shapeCast _ (extractStridedSlice S1x192 ![1, 0] b slices_S2x192_S1x192_1_0) shapeCasts_S1x192_S192)))

/-- The logistic function as the reference spells it: `1 / (1 + e^(-v))`. -/
def sigmoid (v : FVec Ideal S100000x64 .f32) : FVec Ideal S100000x64 .f32 :=
  Host.divf (broadcastInDim S100000x64 ![] bcast_S_S100000x64 (constant (F := Ideal) S_ .f32 0x3F800000#32))
    (addf (broadcastInDim S100000x64 ![] bcast_S_S100000x64 (constant (F := Ideal) S_ .f32 0x3F800000#32)) (Host.exp (Host.negf v)))
/-- The update gate `z` from the two gate pre-activations. -/
def zGate (gi gh : FVec Ideal S100000x192 .f32) : FVec Ideal S100000x64 .f32 :=
  sigmoid (addf (extractStridedSlice S100000x64 ![0, 64] gi slices_S100000x192_S100000x64_0_64) (extractStridedSlice S100000x64 ![0, 64] gh slices_S100000x192_S100000x64_0_64))
/-- The cell: `(1 - z) · tanh (gi_n + r · gh_n) + z · x`. -/
def cell (gi gh : FVec Ideal S100000x192 .f32) (x : FVec Ideal S100000x64 .f32) : FVec Ideal S100000x64 .f32 :=
  addf (mulf (subf (broadcastInDim S100000x64 ![] bcast_S_S100000x64 (constant (F := Ideal) S_ .f32 0x3F800000#32)) (zGate gi gh))
      (Host.tanh (addf (extractStridedSlice S100000x64 ![0, 128] gi slices_S100000x192_S100000x64_0_128)
        (mulf (sigmoid (addf (extractStridedSlice S100000x64 ![0, 0] gi slices_S100000x192_S100000x64_0_0) (extractStridedSlice S100000x64 ![0, 0] gh slices_S100000x192_S100000x64_0_0)))
          (extractStridedSlice S100000x64 ![0, 128] gh slices_S100000x192_S100000x64_0_128)))))
    (mulf (zGate gi gh) x)

/-- The features after round 0, as the reference computes them. -/
def round0 (X : FVec Ideal S100000x64 .f32) (E : IVec S2x1250000 32) (A : FVec Ideal S1250000x1 .f32) (W : FVec Ideal S2x64x129 .f32)
    (B : FVec Ideal S2x64 .f32) (Wih : FVec Ideal S2x192x64 .f32) (Bih : FVec Ideal S2x192 .f32) (Whh : FVec Ideal S2x192x64 .f32)
    (Bhh : FVec Ideal S2x192 .f32) : FVec Ideal S100000x64 .f32 :=
  cell (gate0 (segmentSum (rowIdx E) (message0 (rows X (colIdx E)) (rows X (rowIdx E)) A W B)) Wih Bih) (gate0 X Whh Bhh) X
/-- The features after round 1 from those after round 0, as the reference computes them. -/
def round1 (X1 : FVec Ideal S100000x64 .f32) (E : IVec S2x1250000 32) (A : FVec Ideal S1250000x1 .f32) (W : FVec Ideal S2x64x129 .f32)
    (B : FVec Ideal S2x64 .f32) (Wih : FVec Ideal S2x192x64 .f32) (Bih : FVec Ideal S2x192 .f32) (Whh : FVec Ideal S2x192x64 .f32)
    (Bhh : FVec Ideal S2x192 .f32) : FVec Ideal S100000x64 .f32 :=
  cell (gate1 (segmentSum (rowIdx E) (message1 (rows X1 (colIdx E)) (rows X1 (rowIdx E)) A W B)) Wih Bih) (gate1 X1 Whh Bhh) X1

end Cert.ReferenceIdeal.Terms

end
-- ==== Proof.RefMessage.lean ====
/-
  The reference's message stage is the round's message function.

  The reference multiplies the `1250000 × 129` concatenation `[dest | src | attr]` by the round's transposed weight and adds
  the bias. Entry `(e, h)` of the product is a sum over the `129` columns; the columns `0 … 63` read `dest`, `64 … 127` read
  `src` and `128` reads `attr`, so the sum splits into the three sums of `messageAt` (addition of extended reals is
  commutative and associative, which is all the splitting uses).
-/
import proofs.«416006_j14628658610878_1_alg».proof.Proof.RefTerms
import proofs.«416006_j14628658610878_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Mathlib.Algebra.BigOperators.Fin

noncomputable section

namespace Cert.ReferenceIdeal.RefMessage

open Idealize.ShloMosaic Idealize.ShloMosaic.ValueIdx
open Cert.ReferenceIdeal Cert.ReferenceIdeal.Gen Cert.ReferenceIdeal.Terms Cert.MessagePassing

/-- A sum over the `129` columns is the sum over the destination's `64`, the source's `64` and the attribute's one. -/
private theorem sum_split (f : Fin 129 → EReal) :
    ∑ k, f k = (∑ k : Fin 64, f (destCol k)) + (∑ k : Fin 64, f (srcCol k)) + ∑ k : Fin 1, f (attrCol k) := by
  show ∑ k : Fin (64 + 64 + 1), f k = _
  rw [Fin.sum_univ_add, Fin.sum_univ_add]
  rfl

/-- The product's dimension numbers are the plain ones: rows by contraction times contraction by columns. -/
private theorem dot_eq : dot_S1250000x129_S129x64_S1250000x64_1_0_0_1_n_n = DotDims.plain 1250000 129 64 := rfl

/-- The product at `(e, h)` is the sum over the `129` columns. -/
private theorem dot_apply (X : FVec Ideal S1250000x129 .f32) (Y : FVec Ideal S129x64 .f32) (e : Fin 1250000) (h : Fin 64) :
    Host.dotGeneral dot_S1250000x129_S129x64_S1250000x64_1_0_0_1_n_n none X Y (ix2 e h)
      = ∑ c : Fin 129, X (ix2 e c) * Y (ix2 c h) := by
  rw [dot_eq]
  exact StackMember.dotGeneral_plain_apply none X Y e h

section Concat
variable (d s : FVec Ideal S1250000x64 .f32) (a : FVec Ideal S1250000x1 .f32)

/-- The concatenation `[dest | src | attr]` along the columns. -/
private abbrev cat : FVec Ideal S1250000x129 .f32 :=
  concatenate S1250000x129 1 [⟨S1250000x64, d⟩, ⟨S1250000x64, s⟩, ⟨S1250000x1, a⟩]
    concatenates_S1250000x64_S1250000x64_S1250000x1_S1250000x129_d1

/-- Columns `0 … 63` of the concatenation read the destination's features. -/
private theorem cat_dest (e : Fin 1250000) (k : Fin 64) : cat d s a (ix2 e (destCol k)) = d (ix2 e k) := by
  refine concatenate_apply_piece (1 : Fin 2) [⟨S1250000x64, d⟩, ⟨S1250000x64, s⟩, ⟨S1250000x1, a⟩] _ (ix2 e (destCol k)) 0 (show (0 : ℕ) < 3 by omega) S1250000x64 d rfl rfl 0 rfl (ix2 e k) ?_ ?_
  · intro b hb
    match b, hb with
    | ⟨0, _⟩, _ => rfl
    | ⟨1, _⟩, hb => exact absurd rfl hb
  · exact Nat.zero_add _

/-- Columns `64 … 127` read the source's features. -/
private theorem cat_src (e : Fin 1250000) (k : Fin 64) : cat d s a (ix2 e (srcCol k)) = s (ix2 e k) := by
  refine concatenate_apply_piece (1 : Fin 2) [⟨S1250000x64, d⟩, ⟨S1250000x64, s⟩, ⟨S1250000x1, a⟩] _ (ix2 e (srcCol k)) 1 (show (1 : ℕ) < 3 by omega) S1250000x64 s rfl rfl 64 rfl (ix2 e k) ?_ ?_
  · intro b hb
    match b, hb with
    | ⟨0, _⟩, _ => rfl
    | ⟨1, _⟩, hb => exact absurd rfl hb
  · rfl

/-- Column `128` reads the attribute. -/
private theorem cat_attr (e : Fin 1250000) (k : Fin 1) : cat d s a (ix2 e (attrCol k)) = a (ix2 e k) := by
  refine concatenate_apply_piece (1 : Fin 2) [⟨S1250000x64, d⟩, ⟨S1250000x64, s⟩, ⟨S1250000x1, a⟩] _ (ix2 e (attrCol k)) 2 (show (2 : ℕ) < 3 by omega) S1250000x1 a rfl rfl 128 rfl (ix2 e k) ?_ ?_
  · intro b hb
    match b, hb with
    | ⟨0, _⟩, _ => rfl
    | ⟨1, _⟩, hb => exact absurd rfl hb
  · rfl

end Concat

section Weight
variable (W : FVec Ideal S2x64x129 .f32)

/-- Round `0`'s transposed weight at `(c, h)` is the weight at `(0, h, c)`. -/
private theorem weight0 (c : Fin 129) (h : Fin 64) :
    transpose S129x64 [1, 0] (shapeCast _ (extractStridedSlice S1x64x129 ![0, 0, 0] W slices_S2x64x129_S1x64x129_0_0_0)
      shapeCasts_S1x64x129_S64x129) transposes_S64x129_S129x64_1_0 (ix2 c h) = W (ix3 0 h c) := by
  rw [transpose_ix2_apply, shapeCast_1ab_ab_apply]
  refine extractStridedSlice_apply _ W _ _ (ix3 (0 : Fin 2) h c) fun b => ?_
  match b with
  | ⟨0, _⟩ => rfl
  | ⟨1, _⟩ => exact (Nat.zero_add _).symm
  | ⟨2, _⟩ => exact (Nat.zero_add _).symm

/-- Round `1`'s transposed weight at `(c, h)` is the weight at `(1, h, c)`. -/
private theorem weight1 (c : Fin 129) (h : Fin 64) :
    transpose S129x64 [1, 0] (shapeCast _ (extractStridedSlice S1x64x129 ![1, 0, 0] W slices_S2x64x129_S1x64x129_1_0_0)
      shapeCasts_S1x64x129_S64x129) transposes_S64x129_S129x64_1_0 (ix2 c h) = W (ix3 1 h c) := by
  rw [transpose_ix2_apply, shapeCast_1ab_ab_apply]
  refine extractStridedSlice_apply _ W _ _ (ix3 (1 : Fin 2) h c) fun b => ?_
  match b with
  | ⟨0, _⟩ => rfl
  | ⟨1, _⟩ => exact (Nat.zero_add _).symm
  | ⟨2, _⟩ => exact (Nat.zero_add _).symm

end Weight

section Bias
variable (B : FVec Ideal S2x64 .f32)

/-- A bias row broadcast over the edges reads, at `(e, h)`, the row's entry `h`. -/
private theorem bias_bcast (v : FVec Ideal S64 .f32) (e : Fin 1250000) (h : Fin 64) :
    broadcastInDim S1250000x64 ![0, 1] bcast_S1x64_S1250000x64_0_1 (broadcastInDim S1x64 ![1] bcast_S64_S1x64_1 v) (ix2 e h)
      = v (ix1 h) := by
  refine (broadcastInDim_apply _ _ _ (ix2 e h) (ix2 (0 : Fin 1) h) fun b => ?_).trans ?_
  · match b with
    | ⟨0, _⟩ => rfl
    | ⟨1, _⟩ => rfl
  · refine broadcastInDim_apply _ _ v (ix2 (0 : Fin 1) h) (ix1 h) fun b => ?_
    match b with
    | ⟨0, _⟩ => rfl

/-- Round `0`'s bias row at `h`. -/
private theorem bias0 (h : Fin 64) :
    shapeCast S64 (extractStridedSlice S1x64 ![0, 0] B slices_S2x64_S1x64_0_0) shapeCasts_S1x64_S64 (ix1 h) = B (ix2 0 h) := by
  rw [shapeCast_1a_a_apply]
  refine extractStridedSlice_apply _ B _ _ (ix2 (0 : Fin 2) h) fun b => ?_
  match b with
  | ⟨0, _⟩ => rfl
  | ⟨1, _⟩ => exact (Nat.zero_add _).symm

/-- Round `1`'s bias row at `h`. -/
private theorem bias1 (h : Fin 64) :
    shapeCast S64 (extractStridedSlice S1x64 ![1, 0] B slices_S2x64_S1x64_1_0) shapeCasts_S1x64_S64 (ix1 h) = B (ix2 1 h) := by
  rw [shapeCast_1a_a_apply]
  refine extractStridedSlice_apply _ B _ _ (ix2 (1 : Fin 2) h) fun b => ?_
  match b with
  | ⟨0, _⟩ => rfl
  | ⟨1, _⟩ => exact (Nat.zero_add _).symm

end Bias

/-- Round `0`: entry `(e, h)` of the product plus the bias is the sum over the `129` columns, split into the three sums of
    `messageAt`, plus the round's bias at `h`. -/
theorem message0_eq (d s : FVec Ideal S1250000x64 .f32) (a : FVec Ideal S1250000x1 .f32) (W : FVec Ideal S2x64x129 .f32)
    (B : FVec Ideal S2x64 .f32) : message0 d s a W B = message 0 d s a W B := by
  funext j
  obtain ⟨e, h, rfl⟩ : ∃ (e : Fin 1250000) (h : Fin 64), j = ix2 e h := ⟨j 0, j 1, eq_ix2 j⟩
  show addf (Host.dotGeneral dot_S1250000x129_S129x64_S1250000x64_1_0_0_1_n_n none (cat d s a) _) _ (ix2 e h)
    = messageAt 0 d s a W B e h
  rw [addf_apply, dot_apply, bias_bcast, bias0, sum_split]
  unfold messageAt
  refine congrArg₂ (· + ·) (congrArg₂ (· + ·) (congrArg₂ (· + ·) ?_ ?_) ?_) rfl
  · exact Finset.sum_congr rfl fun k _ => by rw [cat_dest, weight0]
  · exact Finset.sum_congr rfl fun k _ => by rw [cat_src, weight0]
  · exact Finset.sum_congr rfl fun k _ => by rw [cat_attr, weight0]

/-- Round `1`: the same with the second slab of the weight and the second row of the bias. -/
theorem message1_eq (d s : FVec Ideal S1250000x64 .f32) (a : FVec Ideal S1250000x1 .f32) (W : FVec Ideal S2x64x129 .f32)
    (B : FVec Ideal S2x64 .f32) : message1 d s a W B = message 1 d s a W B := by
  funext j
  obtain ⟨e, h, rfl⟩ : ∃ (e : Fin 1250000) (h : Fin 64), j = ix2 e h := ⟨j 0, j 1, eq_ix2 j⟩
  show addf (Host.dotGeneral dot_S1250000x129_S129x64_S1250000x64_1_0_0_1_n_n none (cat d s a) _) _ (ix2 e h)
    = messageAt 1 d s a W B e h
  rw [addf_apply, dot_apply, bias_bcast, bias1, sum_split]
  unfold messageAt
  refine congrArg₂ (· + ·) (congrArg₂ (· + ·) (congrArg₂ (· + ·) ?_ ?_) ?_) rfl
  · exact Finset.sum_congr rfl fun k _ => by rw [cat_dest, weight1]
  · exact Finset.sum_congr rfl fun k _ => by rw [cat_src, weight1]
  · exact Finset.sum_congr rfl fun k _ => by rw [cat_attr, weight1]

end Cert.ReferenceIdeal.RefMessage

end
-- ==== Proof.RefUpdate.lean ====
/-
  The reference's update stage is the round's update function.

  The reference forms the two `100000 × 192` gate products plus biases, cuts each into its three `64`-wide gates and applies
  the cell elementwise, with the logistic function spelled `1 / (1 + e^(-v))` and the constant one as the word of `1.0`.
  Entry `(n, q)` of a gate product is `gateAt`; the slices read gate rows `h`, `64 + h`, `128 + h`; the spelled quotient IS
  the logistic function on the extended reals.
-/
import proofs.«416006_j14628658610878_1_alg».proof.Proof.RefTerms
import proofs.«416006_j14628658610878_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefUpdate

open Idealize.ShloMosaic Idealize.ShloMosaic.ValueIdx
open Cert.ReferenceIdeal Cert.ReferenceIdeal.Gen Cert.ReferenceIdeal.Terms Cert.MessagePassing

/-! ## The gate product at an index -/

/-- On the left operand's row axis the product's left index is the output's row. -/
private theorem lhs_gate_0 (i : S100000x192.Idx) (q : dot_S100000x64_S64x192_S100000x192_1_0_0_1_n_n.contr.Idx) :
    (dot_S100000x64_S64x192_S100000x192_1_0_0_1_n_n.lhsIdx i q 0).val = (i 0).val := by
  unfold DotDims.lhsIdx
  rw [dif_neg (show ¬(0 : Fin S100000x64.rank) ∈ dot_S100000x64_S64x192_S100000x192_1_0_0_1_n_n.lhsBatch by decide),
    dif_pos (show (0 : Fin S100000x64.rank) ∈ dot_S100000x64_S64x192_S100000x192_1_0_0_1_n_n.lhsNonContracting by decide)]
  rfl

/-- On the left operand's column axis, the contracted one, it is the contraction's coordinate. -/
private theorem lhs_gate_1 (i : S100000x192.Idx) (q : dot_S100000x64_S64x192_S100000x192_1_0_0_1_n_n.contr.Idx) :
    (dot_S100000x64_S64x192_S100000x192_1_0_0_1_n_n.lhsIdx i q 1).val = (q ⟨0, by decide⟩).val :=
  dot_S100000x64_S64x192_S100000x192_1_0_0_1_n_n.lhsIdx_val_of_single rfl i q

/-- On the right operand's row axis, the contracted one, the right index is the contraction's coordinate. -/
private theorem rhs_gate_0 (i : S100000x192.Idx) (q : dot_S100000x64_S64x192_S100000x192_1_0_0_1_n_n.contr.Idx) :
    (dot_S100000x64_S64x192_S100000x192_1_0_0_1_n_n.rhsIdx i q 0).val = (q ⟨0, by decide⟩).val :=
  dot_S100000x64_S64x192_S100000x192_1_0_0_1_n_n.rhsIdx_val_of_single rfl i q

/-- On the right operand's column axis it is the output's column. -/
private theorem rhs_gate_1 (i : S100000x192.Idx) (q : dot_S100000x64_S64x192_S100000x192_1_0_0_1_n_n.contr.Idx) :
    (dot_S100000x64_S64x192_S100000x192_1_0_0_1_n_n.rhsIdx i q 1).val = (i 1).val := by
  unfold DotDims.rhsIdx
  rw [dif_neg (show ¬(1 : Fin S64x192.rank) ∈ dot_S100000x64_S64x192_S100000x192_1_0_0_1_n_n.rhsBatch by decide),
    dif_pos (show (1 : Fin S64x192.rank) ∈ dot_S100000x64_S64x192_S100000x192_1_0_0_1_n_n.rhsNonContracting by decide)]
  rfl

/-- Entry `(n, q)` of the product of a `100000 × 64` by a `64 × 192` matrix is the sum over the `64` shared coordinates. -/
private theorem dot_apply (v : FVec Ideal S100000x64 .f32) (w : FVec Ideal S64x192 .f32) (n : Fin 100000) (q : Fin 192) :
    Host.dotGeneral dot_S100000x64_S64x192_S100000x192_1_0_0_1_n_n none v w (ix2 n q) = ∑ k : Fin 64, v (ix2 n k) * w (ix2 k q) := by
  simp only [Host.dotGeneral]
  rw [Ideal.dotGeneral_apply, ← Equiv.sum_comp (contrEquiv1 dot_S100000x64_S64x192_S100000x192_1_0_0_1_n_n 64 rfl rfl).symm]
  refine Finset.sum_congr rfl fun k _ => ?_
  have hk := contrEquiv1_symm_val dot_S100000x64_S64x192_S100000x192_1_0_0_1_n_n 64 rfl rfl k
  have el : dot_S100000x64_S64x192_S100000x192_1_0_0_1_n_n.lhsIdx (ix2 n q)
      ((contrEquiv1 dot_S100000x64_S64x192_S100000x192_1_0_0_1_n_n 64 rfl rfl).symm k) = ix2 n k := funext fun a => Fin.ext (by
    match a with
    | ⟨0, _⟩ => exact lhs_gate_0 _ _
    | ⟨1, _⟩ => exact (lhs_gate_1 _ _).trans hk)
  have er : dot_S100000x64_S64x192_S100000x192_1_0_0_1_n_n.rhsIdx (ix2 n q)
      ((contrEquiv1 dot_S100000x64_S64x192_S100000x192_1_0_0_1_n_n 64 rfl rfl).symm k) = ix2 k q := funext fun a => Fin.ext (by
    match a with
    | ⟨0, _⟩ => exact (rhs_gate_0 _ _).trans hk
    | ⟨1, _⟩ => exact rhs_gate_1 _ _)
  rw [el, er]

/-- Round `t`'s slab of a gate weight, with its unit axis dropped and transposed, reads `G (t, q, k)` at `(k, q)`. -/
private theorem weight_apply (o : Nat) (t : Fin 2) (ht : t.val = o) (G : FVec Ideal S2x192x64 .f32)
    (hs : S2x192x64.Slices ![o, 0, 0] S1x192x64)
    (k : Fin 64) (q : Fin 192) :
    transpose S64x192 [1, 0] (shapeCast _ (extractStridedSlice S1x192x64 ![o, 0, 0] G hs) shapeCasts_S1x192x64_S192x64)
      transposes_S192x64_S64x192_1_0 (ix2 k q) = G (ix3 t q k) := by
  rw [transpose_ix2_apply, shapeCast_1ab_ab_apply]
  exact extractStridedSlice_apply _ _ _ _ _ (fun a => by
    match a with
    | ⟨0, _⟩ => exact ht.trans (Nat.add_zero _).symm
    | ⟨1, _⟩ => exact (Nat.zero_add _).symm
    | ⟨2, _⟩ => exact (Nat.zero_add _).symm)

/-- Round `t`'s row of a gate bias, broadcast over the nodes, reads `b (t, q)` at `(n, q)`. -/
private theorem bias_apply (o : Nat) (t : Fin 2) (ht : t.val = o) (b : FVec Ideal S2x192 .f32) (hs : S2x192.Slices ![o, 0] S1x192)
    (n : Fin 100000) (q : Fin 192) :
    broadcastInDim S100000x192 ![0, 1] bcast_S1x192_S100000x192_0_1 (broadcastInDim S1x192 ![1] bcast_S192_S1x192_1
      (shapeCast _ (extractStridedSlice S1x192 ![o, 0] b hs) shapeCasts_S1x192_S192)) (ix2 n q) = b (ix2 t q) := by
  rw [broadcastInDim_apply _ _ _ (ix2 n q) (ix2 (0 : Fin 1) q) (fun a => by
      match a with
      | ⟨0, _⟩ => rfl
      | ⟨1, _⟩ => rfl),
    broadcastInDim_apply _ _ _ (ix2 (0 : Fin 1) q) (ix1 q) (fun a => by
      match a with
      | ⟨0, _⟩ => rfl),
    shapeCast_1a_a_apply]
  exact extractStridedSlice_apply _ _ _ _ _ (fun a => by
    match a with
    | ⟨0, _⟩ => exact ht.trans (Nat.add_zero _).symm
    | ⟨1, _⟩ => exact (Nat.zero_add _).symm)

/-- Entry `(n, q)` of round 0's gate pre-activations is the specification's. -/
private theorem gate0_apply (v : FVec Ideal S100000x64 .f32) (G : FVec Ideal S2x192x64 .f32) (b : FVec Ideal S2x192 .f32)
    (n : Fin 100000) (q : Fin 192) : gate0 v G b (ix2 n q) = gateAt 0 v G b n q := by
  unfold gate0 gateAt
  rw [addf_apply, dot_apply, bias_apply 0 0 rfl]
  refine congrArg (· + b (ix2 0 q)) (Finset.sum_congr rfl fun k _ => ?_)
  rw [weight_apply 0 0 rfl]

/-- Entry `(n, q)` of round 1's gate pre-activations is the specification's. -/
private theorem gate1_apply (v : FVec Ideal S100000x64 .f32) (G : FVec Ideal S2x192x64 .f32) (b : FVec Ideal S2x192 .f32)
    (n : Fin 100000) (q : Fin 192) : gate1 v G b (ix2 n q) = gateAt 1 v G b n q := by
  unfold gate1 gateAt
  rw [addf_apply, dot_apply, bias_apply 1 1 rfl]
  refine congrArg (· + b (ix2 1 q)) (Finset.sum_congr rfl fun k _ => ?_)
  rw [weight_apply 1 1 rfl]

/-! ## The cell at an index -/

/-- The word of `1.0` denotes the extended real `1`. -/
private theorem one_word : Ideal.ofBits .f32 0x3F800000#32 = 1 := by
  simp [Ideal.ofBits, Ideal.ieee, -EReal.coe_mul]; norm_num

/-- The constant one, broadcast over the nodes' features, reads `1` everywhere. -/
private theorem one_apply (i : S100000x64.Idx) :
    broadcastInDim S100000x64 ![] bcast_S_S100000x64 (constant (F := Ideal) S_ .f32 0x3F800000#32) i = 1 := by
  rw [broadcastInDim_apply _ _ _ i ix0 (fun a => a.elim0), constant_apply, one_word]

/-- The spelled quotient `1 / (1 + e^(-v))` is the logistic function, entry by entry. -/
private theorem sigmoid_apply (v : FVec Ideal S100000x64 .f32) (i : S100000x64.Idx) : sigmoid v i = Ideal.logistic (v i) := by
  unfold sigmoid
  show Ideal.div _ (_ + Ideal.exp (-(v i))) = _
  rw [one_apply]
  rfl

/-- The `64` columns of a `192`-wide array from column `g · 64` on are its gate rows `g`. -/
private theorem cut_apply (o : Nat) (g : Fin 3) (hg : g.val * 64 = o) (X : FVec Ideal S100000x192 .f32)
    (hs : S100000x192.Slices ![0, o] S100000x64) (n : Fin 100000) (h : Fin 64) :
    extractStridedSlice S100000x64 ![0, o] X hs (ix2 n h) = X (ix2 n (gateRow g h)) :=
  slice2_axis1_apply o X hs n h (gateRow g h) (by show g.val * 64 + h.val = o + h.val; rw [hg])

/-- The cell at node `n`, feature `h`, in terms of the two pre-activations' entries. -/
private theorem cell_apply (gi gh : FVec Ideal S100000x192 .f32) (x : FVec Ideal S100000x64 .f32) (n : Fin 100000) (h : Fin 64) :
    cell gi gh x (ix2 n h)
      = (1 - Ideal.logistic (gi (ix2 n (gateRow 1 h)) + gh (ix2 n (gateRow 1 h))))
          * Ideal.tanh (gi (ix2 n (gateRow 2 h))
              + Ideal.logistic (gi (ix2 n (gateRow 0 h)) + gh (ix2 n (gateRow 0 h))) * gh (ix2 n (gateRow 2 h)))
        + Ideal.logistic (gi (ix2 n (gateRow 1 h)) + gh (ix2 n (gateRow 1 h))) * x (ix2 n h) := by
  unfold cell zGate
  rw [addf_apply, mulf_apply, mulf_apply, subf_apply, one_apply, sigmoid_apply, addf_apply,
    cut_apply 64 1 rfl, cut_apply 64 1 rfl]
  show _ * Ideal.tanh _ + _ = _
  rw [addf_apply, mulf_apply, sigmoid_apply, addf_apply, cut_apply 128 2 rfl, cut_apply 128 2 rfl,
    cut_apply 0 0 rfl, cut_apply 0 0 rfl]

/-! ## The two rounds -/

theorem update0_eq (agg x : FVec Ideal S100000x64 .f32) (Wih Whh : FVec Ideal S2x192x64 .f32) (Bih Bhh : FVec Ideal S2x192 .f32) :
    cell (gate0 agg Wih Bih) (gate0 x Whh Bhh) x = update 0 agg x Wih Whh Bih Bhh := by
  funext j
  obtain ⟨n, h, rfl⟩ : ∃ (n : Fin 100000) (h : Fin 64), j = ix2 n h := ⟨j 0, j 1, eq_ix2 j⟩
  rw [cell_apply]
  simp only [gate0_apply]
  rfl

theorem update1_eq (agg x : FVec Ideal S100000x64 .f32) (Wih Whh : FVec Ideal S2x192x64 .f32) (Bih Bhh : FVec Ideal S2x192 .f32) :
    cell (gate1 agg Wih Bih) (gate1 x Whh Bhh) x = update 1 agg x Wih Whh Bih Bhh := by
  funext j
  obtain ⟨n, h, rfl⟩ : ∃ (n : Fin 100000) (h : Fin 64), j = ix2 n h := ⟨j 0, j 1, eq_ix2 j⟩
  rw [cell_apply]
  simp only [gate1_apply]
  rfl

end Cert.ReferenceIdeal.RefUpdate

end
-- ==== Proof.RefValue.lean ====
/-
  The reference program's result is the two rounds' stages of its arguments.

  The reference's run ends with its result buffer at its second round's term of its first round's term of the arguments. A
  round's term is the reference's message stage of the gathered rows, the segment sum, the two gate products and the cell; the
  message stage is the round's message function and the gates and cell the round's update function, so the result is the
  features after round 1.
-/
import proofs.«416006_j14628658610878_1_alg».proof.Proof.RefRunCopy
import proofs.«416006_j14628658610878_1_alg».proof.Proof.RefTerms
import proofs.«416006_j14628658610878_1_alg».proof.Proof.RefMessage
import proofs.«416006_j14628658610878_1_alg».proof.Proof.RefUpdate

set_option maxRecDepth 16384

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Terms Cert.MessagePassing

/-! ## The two rounds as functions of the argument arrays -/

section Pipeline
variable (X : FVec Ideal S100000x64 .f32) (E : IVec S2x1250000 32) (A : FVec Ideal S1250000x1 .f32) (W : FVec Ideal S2x64x129 .f32)
  (B : FVec Ideal S2x64 .f32) (Wih : FVec Ideal S2x192x64 .f32) (Bih : FVec Ideal S2x192 .f32) (Whh : FVec Ideal S2x192x64 .f32)
  (Bhh : FVec Ideal S2x192 .f32)

/-- Round 0's messages. -/
def messages0 : FVec Ideal S1250000x64 .f32 := message 0 (rows X (colIdx E)) (rows X (rowIdx E)) A W B
/-- The features after round 0. -/
def features1 : FVec Ideal S100000x64 .f32 := update 0 (segmentSum (rowIdx E) (messages0 X E A W B)) X Wih Whh Bih Bhh
/-- Round 1's messages, of the features after round 0. -/
def messages1 : FVec Ideal S1250000x64 .f32 :=
  message 1 (rows (features1 X E A W B Wih Bih Whh Bhh) (colIdx E)) (rows (features1 X E A W B Wih Bih Whh Bhh) (rowIdx E)) A W B
/-- The features after round 1: the result. -/
def features2 : FVec Ideal S100000x64 .f32 :=
  update 1 (segmentSum (rowIdx E) (messages1 X E A W B Wih Bih Whh Bhh)) (features1 X E A W B Wih Bih Whh Bhh) Wih Whh Bih Bhh

/-- The reference's first round is the round-0 update of the segment sum of the round-0 messages. -/
theorem round0_eq : round0 X E A W B Wih Bih Whh Bhh = features1 X E A W B Wih Bih Whh Bhh := by
  unfold round0
  rw [RefUpdate.update0_eq, RefMessage.message0_eq]
  rfl

/-- The reference's second round, of any features `X1`. -/
theorem round1_eq (X1 : FVec Ideal S100000x64 .f32) :
    round1 X1 E A W B Wih Bih Whh Bhh
      = update 1 (segmentSum (rowIdx E) (message 1 (rows X1 (colIdx E)) (rows X1 (rowIdx E)) A W B)) X1 Wih Whh Bih Bhh := by
  unfold round1
  rw [RefUpdate.update1_eq, RefMessage.message1_eq]

/-- The reference's two rounds are the features after round 1. -/
theorem rounds_eq : round1 (round0 X E A W B Wih Bih Whh Bhh) E A W B Wih Bih Whh Bhh = features2 X E A W B Wih Bih Whh Bhh := by
  rw [round1_eq, round0_eq]
  rfl

end Pipeline

/-! ## The run -/

/-- Every weakly fair execution of the reference ends with its result at the features after round 1 of the launch contents
    of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149)
        = features2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (rounds_eq _ _ _ _ _ _ _ _ _), (h c).2⟩) (Value.run m ρ)

end Cert.ReferenceIdeal.RefValue

end
-- ==== Proof.lean ====
/-
  Two rounds of message passing on a graph: a kernel program against its reference, over the extended reals.

  Each round gathers, for every edge, the features of its two end nodes, forms the edge's message (an affine map of the two
  feature rows and the edge's attribute), sums the messages per source node, and updates every node's features by a gated
  recurrent cell on the sum. The kernel program computes the message map in three pieces — the destination part, the source
  part and the attribute part of the weight, each a matrix product over an edge block — where the reference multiplies the
  concatenated inputs by the whole weight once; it computes the cell block by block over the nodes with the logistic function
  as one operation where the reference spells `1 / (1 + e^(-v))`. Over the extended reals a sum over `129` columns is the sum of
  its three ranges, and the spelled quotient is the logistic function, so both programs compute the same two stages
  (Proof/Spec.lean), round after round, of the same gathered rows and segment sums.

  The kernel program's gather replaces a row by a fill word when its index, after wrapping a negative one, lies outside the
  table, where the reference's clamps; the two agree exactly when every entry of the edge list names a node, which is the
  precondition's last conjunct (Proof/IndexRange.lean). Nothing else of the precondition is used: the laws that join the two
  sides are commutativity and associativity of addition.

  The kernel program's frames are the generated ones; its value is read off the same launch with the result buffer named
  (Proof/KernelRun.lean, Proof/KernelValue.lean); the reference's frame and value are its generated run (Proof/RefValue.lean).
-/
import proofs.«416006_j14628658610878_1_alg».proof.Defs
import proofs.«416006_j14628658610878_1_alg».proof.Proof.Gen.Kernel
import proofs.«416006_j14628658610878_1_alg».proof.Proof.Gen.Kernel.Skeleton
import proofs.«416006_j14628658610878_1_alg».proof.Proof.Gen.Kernel.Launch
import proofs.«416006_j14628658610878_1_alg».proof.Proof.Gen.Kernel.Points
import proofs.«416006_j14628658610878_1_alg».proof.Proof.Gen.Kernel.Frame
import proofs.«416006_j14628658610878_1_alg».proof.Proof.Gen.KernelIdeal
import proofs.«416006_j14628658610878_1_alg».proof.Proof.Gen.KernelIdeal.Skeleton
import proofs.«416006_j14628658610878_1_alg».proof.Proof.Gen.KernelIdeal.Launch
import proofs.«416006_j14628658610878_1_alg».proof.Proof.Gen.KernelIdeal.Points
import proofs.«416006_j14628658610878_1_alg».proof.Proof.Gen.KernelIdeal.Frame
import proofs.«416006_j14628658610878_1_alg».proof.Proof.Gen.ReferenceIdeal
import proofs.«416006_j14628658610878_1_alg».proof.Proof.Gen.Pre_finite_inputs
import proofs.«416006_j14628658610878_1_alg».proof.Proof.KernelValue
import proofs.«416006_j14628658610878_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and leaves its arguments alone: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- The two pipelines are one function of the arguments: the kernel program's and the reference's gathers, segment sums and
    index vectors are the same host terms, and the stages are shared. -/
theorem pipelines_eq (X : FVec Ideal Cert.KernelIdeal.S100000x64 .f32) (E : IVec Cert.KernelIdeal.S2x1250000 32)
    (A : FVec Ideal Cert.KernelIdeal.S1250000x1 .f32) (W : FVec Ideal Cert.KernelIdeal.S2x64x129 .f32) (B : FVec Ideal Cert.KernelIdeal.S2x64 .f32)
    (Wih : FVec Ideal Cert.KernelIdeal.S2x192x64 .f32) (Bih : FVec Ideal Cert.KernelIdeal.S2x192 .f32)
    (Whh : FVec Ideal Cert.KernelIdeal.S2x192x64 .f32) (Bhh : FVec Ideal Cert.KernelIdeal.S2x192 .f32) :
    Cert.ReferenceIdeal.RefValue.features2 X E A W B Wih Bih Whh Bhh = Cert.KernelIdeal.Value.features2 X E A W B Wih Bih Whh Bhh :=
  rfl

/-- Both idealized programs end with the features after the second round of the same arguments. -/
theorem algebraic : Cert.algebraic_KernelIdeal_ReferenceIdeal := by
  intro m ρ m' ρ' hpre hagree
  refine ⟨fun c => Cert.KernelIdeal.Value.features2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Value.region3 m ρ c (hpre c)), (h c).2⟩)
      (Cert.KernelIdeal.Gen.run_result m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact pipelines_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
